-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S4096x2 : Shape := ⟨2, ![4096, 2]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S8x4096 : S_.BroadcastsInDim S8x4096 (![] : Fin 0 → Fin S8x4096.rank)
  reducesTo_S8x4096_S_d0_1 : S8x4096.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn_part2 {F : FTy → Type} [FloatOps F] (main_arg2 : IVec S4096x2 32) (main_v31 : IVec S_ 1) (main_v32 : IVec S4096x2 32) : IVec S_ 1 :=
  let main_v33 : IVec S4096x2 1 := cmpi .sge main_arg2 main_v32
  let main_c_13 : IVec S_ 1 := constantI S_ 1 1#1
  let main_v34 : IVec S_ 1 := (fun x v => Host.reduce IntOp.andi x v reducesTo_S4096x2_S_d0_1 h_S_) main_v33 main_c_13
  let main_v35 : IVec S_ 1 := andi main_v31 main_v34
  let main_c_14 : IVec S_ 32 := constantI S_ 32 512#32
  let main_v36 : IVec S4096x2 32 := broadcastInDim S4096x2 ![] bcast_S_S4096x2 main_c_14
  let main_v37 : IVec S4096x2 1 := cmpi .slt main_arg2 main_v36
  let main_c_15 : IVec S_ 1 := constantI S_ 1 1#1
  let main_v38 : IVec S_ 1 := (fun x v => Host.reduce IntOp.andi x v reducesTo_S4096x2_S_d0_1 h_S_) main_v37 main_c_15
  let main_v39 : IVec S_ 1 := andi main_v35 main_v38
  main_v39

def fn_part1 {F : FTy → Type} [FloatOps F] (main_arg1 : IVec S8x4096 32) (main_arg2 : IVec S4096x2 32) (main_arg6 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S8x4096 32 := broadcastInDim S8x4096 ![] bcast_S_S8x4096 main_c_8
  let main_v25 : IVec S8x4096 1 := cmpi .sge main_arg1 main_v24
  let main_c_9 : IVec S_ 1 := constantI S_ 1 1#1
  let main_v26 : IVec S_ 1 := (fun x v => Host.reduce IntOp.andi x v reducesTo_S8x4096_S_d0_1 h_S_) main_v25 main_c_9
  let main_v27 : IVec S_ 1 := andi main_v23 main_v26
  let main_c_10 : IVec S_ 32 := constantI S_ 32 64#32
  let main_v28 : IVec S8x4096 32 := broadcastInDim S8x4096 ![] bcast_S_S8x4096 main_c_10
  let main_v29 : IVec S8x4096 1 := cmpi .slt main_arg1 main_v28
  let main_c_11 : IVec S_ 1 := constantI S_ 1 1#1
  let main_v30 : IVec S_ 1 := (fun x v => Host.reduce IntOp.andi x v reducesTo_S8x4096_S_d0_1 h_S_) main_v29 main_c_11
  let main_v31 : IVec S_ 1 := andi main_v27 main_v30
  let main_c_12 : IVec S_ 32 := constantI S_ 32 0#32
  let main_v32 : IVec S4096x2 32 := broadcastInDim S4096x2 ![] bcast_S_S4096x2 main_c_12
  fn_part2 (F := F) main_arg2 main_v31 main_v32

def fn {F : FTy → Type} [FloatOps F] (main_arg0 : FVec F S8x4096x1024 .f32) (main_arg1 : IVec S8x4096 32) (main_arg2 : IVec S4096x2 32) (main_arg3 : FVec F S2048x1024 .f32) (main_arg4 : FVec F S1024 .f32) (main_arg5 : FVec F S1024x1 .f32) (main_arg6 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg5
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg1 main_arg2 main_arg6 main_v13 main_v16
-- ==== Kernel.lean ====
abbrev S8x4096x1024 : Shape := ⟨3, ![8, 4096, 1024]⟩
abbrev S8x4096 : Shape := ⟨2, ![8, 4096]⟩
abbrev S4096x2 : Shape := ⟨2, ![4096, 2]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S8x1x4096 : Shape := ⟨3, ![8, 1, 4096]⟩
abbrev S512x1024 : Shape := ⟨2, ![512, 1024]⟩
abbrev S1x2048x1024 : Shape := ⟨3, ![1, 2048, 1024]⟩
abbrev S1x1x2048 : Shape := ⟨3, ![1, 1, 2048]⟩
abbrev S64x1024 : Shape := ⟨2, ![64, 1024]⟩
abbrev S64x128 : Shape := ⟨2, ![64, 128]⟩
abbrev S2048 : Shape := ⟨1, ![2048]⟩
abbrev S64x2048 : Shape := ⟨2, ![64, 2048]⟩
abbrev S1x2048 : Shape := ⟨2, ![1, 2048]⟩
abbrev S2048x128 : Shape := ⟨2, ![2048, 128]⟩
abbrev S64x1 : Shape := ⟨2, ![64, 1]⟩
abbrev S1024x1024 : Shape := ⟨2, ![1024, 1024]⟩
abbrev S1x1024 : Shape := ⟨2, ![1, 1024]⟩
abbrev S1x1 : Shape := ⟨2, ![1, 1]⟩
abbrev S4096x1 : Shape := ⟨2, ![4096, 1]⟩
abbrev S512x2 : Shape := ⟨2, ![512, 2]⟩
abbrev S512x1 : Shape := ⟨2, ![512, 1]⟩
abbrev S512 : Shape := ⟨1, ![512]⟩
abbrev S512x512 : Shape := ⟨2, ![512, 512]⟩

abbrev nBuf : Space → Nat
  | .hbm => 19
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4096x2, .i32⟩
  | .hbm, ⟨3, _⟩ => ⟨S2048x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S8x1x4096, .i32⟩
  | .hbm, ⟨8, _⟩ => ⟨S512x1024, .bf16⟩
  | .hbm, ⟨9, _⟩ => ⟨S2048x1024, .bf16⟩
  | .hbm, ⟨10, _⟩ => ⟨S1024x1024, .bf16⟩
  | .hbm, ⟨11, _⟩ => ⟨S1024x1024, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S1x1, .f32⟩
  | .hbm, ⟨18, _⟩ => ⟨S4096x1, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S64x1024, .bf16⟩
  | .local _ .vmem, ⟨5, _⟩ => ⟨S64x1024, .bf16⟩
  | .local _ .vmem, ⟨6, _⟩ => ⟨S64x1024, .f32⟩
  | .local _ .vmem, ⟨7, _⟩ => ⟨S64x128, .f32⟩
  | .local _ .vmem, ⟨8, _⟩ => ⟨S512x1024, .bf16⟩
  | .local _ .vmem, ⟨9, _⟩ => ⟨S512x1024, .bf16⟩
  | .local _ .vmem, ⟨10, _⟩ => ⟨S512x2, .i32⟩
  | .local _ .vmem, ⟨11, _⟩ => ⟨S512x2, .i32⟩
  | .local _ .vmem, ⟨12, _⟩ => ⟨S1x1024, .f32⟩
  | .local _ .vmem, ⟨13, _⟩ => ⟨S1024x1, .f32⟩
  | .local _ .vmem, ⟨14, _⟩ => ⟨S1x1, .f32⟩
  | .local _ .vmem, ⟨15, _⟩ => ⟨S512x1, .f32⟩
  | .local _ .vmem, ⟨16, _⟩ => ⟨S512x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v33 : BitVec 1 := Scalar.cmpi .eq arg1 c1_i32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S8x4096_S8x1x4096_0_2 : S8x4096.BroadcastsInDim S8x1x4096 (![0, 2] : Fin 2 → Fin S8x1x4096.rank)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S64x2048_d0_w32 : S64x2048.Iotas .tc 32 [0]
  shapeCasts_S2048_S1x2048 : S2048.ShapeCasts S1x2048
  shapeCasts_S1x2048_S1x2048 : S1x2048.ShapeCasts S1x2048
  broadcasts_S1x2048_S64x2048 : S1x2048.Broadcasts S64x2048
  natLt_1_32 : 1 < 32
  inb_S64x128_S64x1_0_0 : ∀ a, (![0, 0] : Fin 2 → Nat) a + S64x1.size a ≤ S64x128.size a
  h_S64x1 : 0 < S64x1.numel
  shapeCasts_S64x1_S64x1 : S64x1.ShapeCasts S64x1
  broadcasts_S64x1_S64x1024 : S64x1.Broadcasts S64x1024
  packedbf16_S64x1024_S64x1024_0_0 : (Rect.unit (s := S64x1024) ![0, 0] S64x1024.size inb_S64x1024_S64x1024_0_0).PackedRows (EltTy.packing .bf16)
  slices_S2048x1024_S1024x1024_0_0 : S2048x1024.Slices ![0, 0] S1024x1024
  slices_S2048x1024_S1024x1024_1024_0 : S2048x1024.Slices ![1024, 0] S1024x1024
  shapeCasts_S1024_S1x1024 : S1024.ShapeCasts S1x1024
  shapeCasts_S1_S1x1 : S1.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  shapeCasts_S512x1_S512 : S512x1.ShapeCasts S512
  slices_S512x2_o0_1_S512x1 : S512x2.Slices ![0, 1] S512x1
  iota_S512x512_d1_w32 : S512x512.Iotas .tc 32 [1]
  shapeCasts_S512_S512x1 : S512.ShapeCasts S512x1
  shapeCasts_S512x1_S512x1 : S512x1.ShapeCasts S512x1
  broadcasts_S512x1_S512x512 : S512x1.Broadcasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S64x2048_S2048x1024_S64x1024_1_0_0_1_n_n_wf : DotDims.WF S64x2048 S2048x1024 S64x1024 [1] [0] [0] [1] [] []
  dot_S64x2048_S2048x128_S64x128_1_0_0_1_n_n_wf : DotDims.WF S64x2048 S2048x128 S64x128 [1] [0] [0] [1] [] []
  dot_S512x1024_S1024x1024_S512x1024_1_0_0_1_n_n_wf : DotDims.WF S512x1024 S1024x1024 S512x1024 [1] [0] [0] [1] [] []
  dot_S512x512_S512x1024_S512x1024_1_0_0_1_n_n_wf : DotDims.WF S512x512 S512x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x4096.size a
  hwx0_1 : ∀ i : grid0.Coords, EltTy.bits .i32 = 32 ∨ (Rect.block (s := S8x1x4096) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S512x1024.size a
  hwx0_2 : ∀ i : grid0.Coords, EltTy.bits .bf16 = 32 ∨ (Rect.block (s := S512x1024) S64x1024.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .bf16 = 32 ∨ (Rect.block (s := S512x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .bf16 = 32 ∨ (Rect.block (s := S512x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2.size a ≤ S4096x2.size a
  hwx1_2 : ∀ i : grid1.Coords, EltTy.bits .i32 = 32 ∨ (Rect.block (s := S4096x2) S512x2.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S1024x1.size a
  hwx1_4 : ∀ i : grid1.Coords, EltTy.bits .f32 = 32 ∨ (Rect.block (s := S1024x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)

variable [Facts₀]

def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x2048_S2048x128_S64x128_1_0_0_1_n_n : DotDims S64x2048 S2048x128 S64x128 where
  lhsContracting := [1]
  rhsContracting := [0]
  lhsNonContracting := [0]
  rhsNonContracting := [1]
  lhsBatch := []
  rhsBatch := []
  wf := dot_S64x2048_S2048x128_S64x128_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S4096x2 : Shape := ⟨2, ![4096, 2]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S8 : Shape := ⟨1, ![8]⟩
abbrev S8x1 : Shape := ⟨2, ![8, 1]⟩
abbrev S_ : Shape := ⟨0, ![]⟩
abbrev S32768 : Shape := ⟨1, ![32768]⟩
abbrev S32768x1024 : Shape := ⟨2, ![32768, 1024]⟩
abbrev S512x1024 : Shape := ⟨2, ![512, 1024]⟩
abbrev S32768x1 : Shape := ⟨2, ![32768, 1]⟩
abbrev S512 : Shape := ⟨1, ![512]⟩
abbrev S512x1 : Shape := ⟨2, ![512, 1]⟩
abbrev S4096x1 : Shape := ⟨2, ![4096, 1]⟩
abbrev S4096 : Shape := ⟨1, ![4096]⟩
abbrev S4096x1024 : Shape := ⟨2, ![4096, 1024]⟩
abbrev S4096x2048 : Shape := ⟨2, ![4096, 2048]⟩
abbrev S1x1024 : Shape := ⟨2, ![1, 1024]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S4096x2, .i32⟩
  | .hbm, ⟨3, _⟩ => ⟨S2048x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S8, .i32⟩
  | .hbm, ⟨8, _⟩ => ⟨S8x1, .i32⟩
  | .hbm, ⟨9, _⟩ => ⟨S_, .i32⟩
  | .hbm, ⟨10, _⟩ => ⟨S8x1, .i32⟩
  | .hbm, ⟨11, _⟩ => ⟨S8x1, .i32⟩
  | .hbm, ⟨12, _⟩ => ⟨S8x4096, .i32⟩
  | .hbm, ⟨13, _⟩ => ⟨S8x4096, .i32⟩
  | .hbm, ⟨14, _⟩ => ⟨S32768, .i32⟩
  | .hbm, ⟨15, _⟩ => ⟨S32768x1024, .f32⟩
  | .hbm, ⟨16, _⟩ => ⟨S_, .f32⟩
  | .hbm, ⟨17, _⟩ => ⟨S512x1024, .f32⟩
  | .hbm, ⟨18, _⟩ => ⟨S32768x1, .i32⟩
  | .hbm, ⟨19, _⟩ => ⟨S512x1024, .f32⟩
  | .hbm, ⟨20, _⟩ => ⟨S_, .f32⟩
  | .hbm, ⟨21, _⟩ => ⟨S32768, .f32⟩
  | .hbm, ⟨22, _⟩ => ⟨S_, .f32⟩
  | .hbm, ⟨23, _⟩ => ⟨S512, .f32⟩
  | .hbm, ⟨24, _⟩ => ⟨S32768x1, .i32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512x1, .f32⟩
  | .hbm, ⟨30, _⟩ => ⟨S512x1024, .f32⟩
  | .hbm, ⟨31, _⟩ => ⟨S512x1024, .f32⟩
  | .hbm, ⟨32, _⟩ => ⟨S4096x1, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1024, .f32⟩
  | .hbm, ⟨43, _⟩ => ⟨S4096x1, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x1024, .f32⟩
  | .hbm, ⟨54, _⟩ => ⟨S4096x2048, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S1x1, .f32⟩
  | .hbm, ⟨64, _⟩ => ⟨S4096x1, .f32⟩
  | .hbm, ⟨65, _⟩ => ⟨S4096x1, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  shapeCasts_S8x4096_S32768 : S8x4096.ShapeCasts S32768
  shapeCasts_S8x4096x1024_S32768x1024 : S8x4096x1024.ShapeCasts S32768x1024
  bcast_S_S512x1024 : S_.BroadcastsInDim S512x1024 (![] : Fin 0 → Fin S512x1024.rank)
  bcast_S32768_S32768x1_0 : S32768.BroadcastsInDim S32768x1 (![0] : Fin 1 → Fin S32768x1.rank)
  bcast_S_S32768 : S_.BroadcastsInDim S32768 (![] : Fin 0 → Fin S32768.rank)
  bcast_S_S512 : S_.BroadcastsInDim S512 (![] : Fin 0 → Fin S512.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  concatenates_S4096x1024_S4096x1024_S4096x2048_d1 : Shape.Concatenates [S4096x1024, S4096x1024] S4096x2048 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S512x1024_S32768x1_S32768x1024_1_0_0_1_wf : ScatterDims.WF S512x1024 S32768x1 S32768x1024 [1] [0] [0] 1
  scatter_S512_S32768x1_S32768_n_0_0_1_wf : ScatterDims.WF S512 S32768x1 S32768 [] [0] [0] 1
  gather_S512x1024_S4096x1_S4096x1024_1_0_n_n_0_1_11024_wf : GatherDims.WF S512x1024 S4096x1 S4096x1024 [1] [0] [] [0] [] 1 ![1, 1024]
  dot_S4096x2048_S2048x1024_S4096x1024_1_0_0_1_n_n_wf : DotDims.WF S4096x2048 S2048x1024 S4096x1024 [1] [0] [0] [1] [] []
  dot_S4096x1024_S1024x1_S4096x1_1_0_0_1_n_n_wf : DotDims.WF S4096x1024 S1024x1 S4096x1 [1] [0] [0] [1] [] []

variable [Facts₀]

def scatter_S512x1024_S32768x1_S32768x1024_1_0_0_1 : ScatterDims S512x1024 S32768x1 S32768x1024 where
  updateWindowDims := [1]
  insertedWindowDims := [0]
  scatterDimsToOperandDims := [0]
  indexVectorDim := 1
  wf := scatter_S512x1024_S32768x1_S32768x1024_1_0_0_1_wf
def scatter_S512_S32768x1_S32768_n_0_0_1 : ScatterDims S512 S32768x1 S32768 where
  updateWindowDims := []
  insertedWindowDims := [0]
  scatterDimsToOperandDims := [0]
  indexVectorDim := 1
  wf := scatter_S512_S32768x1_S32768_n_0_0_1_wf
def gather_S512x1024_S4096x1_S4096x1024_1_0_n_n_0_1_11024 : GatherDims S512x1024 S4096x1 S4096x1024 where
  offsetDims := [1]
  collapsedSliceDims := [0]
  operandBatchingDims := []
  startIndicesBatchingDims := []
  startIndexMap := [0]
  indexVectorDim := 1
  sliceSizes := ![1, 1024]
  wf := gather_S512x1024_S4096x1_S4096x1024_1_0_n_n_0_1_11024_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.KB.R0.lean ====
/-
  The first pallas_call of the program, the span means, as a region of the pipeline: its frame half at the
  buffer contents `V` the region is entered with, for any float semantics `F`.

  The grid is 8 × 2; position t = 2·b + s. At s = 0 the body zeroes two scratch accumulators (feature sums
  [64,1024], counts [64,128]) and adds the point's contribution to each; the output block is not touched and not
  written back. At s = 1 it adds the point's contribution to what the position before left, and stores the output
  block whole: the sums divided by the first column of the counts (at least one), which the pipeline writes back.
  The proof data names what the two scratches hold after every position by recursion on the position, carries
  them in the region invariant, and states the output block from them.
-/
import proofs.«421061_j44530220925378_3_alg».proof.Proof.Gen.Kernel.Launch
import proofs.«421061_j44530220925378_3_alg».proof.Proof.Gen.Kernel.Skeleton
import proofs.«421061_j44530220925378_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: grid coordinate 1 is zero. -/
abbrev condA (i : grid0.Coords) : Prop :=
  (Scalar.cmpi .ne (Scalar.extui (Scalar.cmpi .eq (BitVec.ofNat 32 (i 1).val) 0#32)) 0#32) = 1#1
/-- The second conditional: grid coordinate 1 is one. -/
abbrev condB (i : grid0.Coords) : Prop := k0_cond2 i = 1#1

theorem hcondA : ∀ t : Fin cfg0.N, condA (grid0.coords t) ↔ t.val % 2 = 0 :=
  (by decide +kernel : ∀ t : Fin grid0.N, condA (grid0.coords t) ↔ t.val % 2 = 0)
theorem hcondB : ∀ t : Fin cfg0.N, condB (grid0.coords t) ↔ t.val % 2 = 1 :=
  (by decide +kernel : ∀ t : Fin grid0.N, condB (grid0.coords t) ↔ t.val % 2 = 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The first column of the count scratch, as the body loads it. -/
abbrev rcol : Rect S64x128 := Rect.unit (s := S64x128) ![0, 0] S64x1.size inb_S64x128_S64x1_0_0

/-- A whole-buffer store, last, covers the buffer. -/
theorem coverWhole5 (p : Vec F S64x1024 .f32) (L : List (View.Piece (Elt F) S64x1024 .f32)) (y : S64x1024.Idx) :
    ∃ pc ∈ ((⟨Rect.unit ![0, 0] S64x1024.size inb_S64x1024_S64x1024_0_0, p⟩ : View.Piece (Elt F) S64x1024 .f32) :: L), y ∈ pc.1.set :=
  ⟨_, List.mem_cons_self, View.mem_set_unit_zero hz2 inb_S64x1024_S64x1024_0_0 y⟩
theorem coverWhole6 (p : Vec F S64x128 .f32) (L : List (View.Piece (Elt F) S64x128 .f32)) (y : S64x128.Idx) :
    ∃ pc ∈ ((⟨Rect.unit ![0, 0] S64x128.size inb_S64x128_S64x128_0_0, p⟩ : View.Piece (Elt F) S64x128 .f32) :: L), y ∈ pc.1.set :=
  ⟨_, List.mem_cons_self, View.mem_set_unit_zero hz2 inb_S64x128_S64x128_0_0 y⟩
theorem coverWhole4 (p : Vec F S64x1024 .bf16) (L : List (View.Piece (Elt F) S64x1024 .bf16)) (y : S64x1024.Idx) :
    ∃ pc ∈ ((⟨Rect.unit ![0, 0] S64x1024.size inb_S64x1024_S64x1024_0_0, p⟩ : View.Piece (Elt F) S64x1024 .bf16) :: L), y ∈ pc.1.set :=
  ⟨_, List.mem_cons_self, View.mem_set_unit_zero hz2 inb_S64x1024_S64x1024_0_0 y⟩

set_option maxHeartbeats 1000000 in
/-- The body at a point whose grid coordinate 1 is zero: both scratches are zeroed and then accumulate the point's
    blocks; the output buffer is not touched. -/
theorem sound_kernelA (c : Dev nD) (E : Set ℕ) (i : grid0.Coords)
    (arg2 : Memref sig .tc .vmem S1x2048x1024 .f32) (harg2 : arg2.IsWhole)
    (arg3 : Memref sig .tc .vmem S1x1x2048 .i32) (harg3 : arg3.IsWhole)
    (arg4 : Memref sig .tc .vmem S64x1024 .bf16) (harg4 : arg4.IsWhole)
    (arg5 : Memref sig .tc .vmem S64x1024 .f32) (harg5 : arg5.IsWhole)
    (arg6 : Memref sig .tc .vmem S64x128 .f32) (harg6 : arg6.IsWhole)
    (hc0 : condA i) (hc1 : ¬condB i)
    (x0 : Vec F S1x2048x1024 .f32) (x1 : Vec F S1x1x2048 .i32) (d4 : Vec F S64x1024 .bf16)
    (K : PUnit → sProp 𝕄) :
    iprop(owns (c : Thread nD τ) arg2 fullShare x0 ∗ owns (c : Thread nD τ) arg3 fullShare x1
        ∗ owns (c : Thread nD τ) arg4 fullShare d4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare d4
            ∗ owns (c : Thread nD τ) arg5 fullShare (k0_pay5 x0 x1 (k0_pay2 (F := F)))
            ∗ owns (c : Thread nD τ) arg6 fullShare (k0_pay6 x1 (k0_pay3 (F := F)))) -∗ K ⟨⟩))
      ⊢ wp frame (wpE (defs₀ (F := F)) Variants.none c none) E
          (cc0__span_mean_kernel i arg2 harg2 arg3 harg3 arg4 harg4 arg5 harg5 arg6 harg6) K := by
  simp only [cc0__span_mean_kernel_eq_skeleton]; unfold cc0__span_mean_kernel_skel
  simp only [k0_part1_eq_skeleton]; unfold k0_part1_skel
  unfold owns
  iintro ⟨⟨%f0, %hf0, H0⟩, ⟨%f1, %hf1, H1⟩, H4, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]; · iexact H4
  isplitl [H5]
  · iexists _; isplitr
    swap; · iexact H5
    ipureintro
    sl_unfold_run_names
    rw [View.read_writes_eq_canon _ _ _ (coverWhole5 _ _)]
    rw [View.canon_cons_unit_zero (S := S64x1024) hz2, View.readCov_unit_zero (S := S64x1024) _ hz2]
    simp only [View.readAt_eq_ld, View.ld_unit_zero (S := S1x2048x1024) hz3, View.ld_unit_zero (S := S1x1x2048) hz3]
  · iexists _; isplitr
    swap; · iexact H6
    ipureintro
    sl_unfold_run_names
    rw [View.read_writes_eq_canon _ _ _ (coverWhole6 _ _)]
    rw [View.canon_cons_unit_zero (S := S64x128) hz2, View.readCov_unit_zero (S := S64x128) _ hz2]
    simp only [View.readAt_eq_ld, View.ld_unit_zero (S := S1x1x2048) hz3]

set_option maxHeartbeats 1000000 in
/-- The body at a point whose grid coordinate 1 is one: both scratches accumulate the point's blocks over what the
    point before left, and the output buffer is stored whole from the new scratches: the sums divided by the counts'
    first column (at least one). -/
theorem sound_kernelB (c : Dev nD) (E : Set ℕ) (i : grid0.Coords)
    (arg2 : Memref sig .tc .vmem S1x2048x1024 .f32) (harg2 : arg2.IsWhole)
    (arg3 : Memref sig .tc .vmem S1x1x2048 .i32) (harg3 : arg3.IsWhole)
    (arg4 : Memref sig .tc .vmem S64x1024 .bf16) (harg4 : arg4.IsWhole)
    (arg5 : Memref sig .tc .vmem S64x1024 .f32) (harg5 : arg5.IsWhole)
    (arg6 : Memref sig .tc .vmem S64x128 .f32) (harg6 : arg6.IsWhole)
    (hc0 : ¬condA i) (hc1 : condB i)
    (x0 : Vec F S1x2048x1024 .f32) (x1 : Vec F S1x1x2048 .i32)
    (s5 : Vec F S64x1024 .f32) (s6 : Vec F S64x128 .f32)
    (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare s5 ∗ owns (c : Thread nD τ) arg6 fullShare s6
        ∗ (iprop(owns (c : Thread nD τ) arg2 fullShare x0 ∗ owns (c : Thread nD τ) arg3 fullShare x1
            ∗ owns (c : Thread nD τ) arg4 fullShare (k0_pay1 (View.ld (k0_pay6 x1 s6) rcol) (k0_pay5 x0 x1 s5))
            ∗ owns (c : Thread nD τ) arg5 fullShare (k0_pay5 x0 x1 s5)
            ∗ owns (c : Thread nD τ) arg6 fullShare (k0_pay6 x1 s6)) -∗ K ⟨⟩))
      ⊢ wp frame (wpE (defs₀ (F := F)) Variants.none c none) E
          (cc0__span_mean_kernel i arg2 harg2 arg3 harg3 arg4 harg4 arg5 harg5 arg6 harg6) K := by
  simp only [cc0__span_mean_kernel_eq_skeleton]; unfold cc0__span_mean_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (coverWhole4 _ _)]
    rw [View.canon_unit_zero (S := S64x1024) hz2]
    rw [View.readCov_eq_canon_ld arg6.view _ rcol (coverWhole6 _ _)]
    rw [View.canon_unit_zero (S := S64x128) hz2, View.readCov_unit_zero (S := S64x1024) _ hz2]
    simp only [View.readAt_eq_ld, View.ld_unit_zero (S := S1x2048x1024) hz3, View.ld_unit_zero (S := S1x1x2048) hz3,
      View.ld_unit_zero (S := S64x1024) hz2, View.ld_unit_zero (S := S64x128) hz2]
  isplitl [H5]
  · iexists _; isplitr
    swap; · iexact H5
    ipureintro
    sl_unfold_run_names
    rw [View.read_writes_eq_canon _ _ _ (coverWhole5 _ _)]
    rw [View.canon_unit_zero (S := S64x1024) hz2]
    simp only [View.readAt_eq_ld, View.ld_unit_zero (S := S1x2048x1024) hz3, View.ld_unit_zero (S := S1x1x2048) hz3,
      View.ld_unit_zero (S := S64x1024) hz2]
  · iexists _; isplitr
    swap; · iexact H6
    ipureintro
    sl_unfold_run_names
    rw [View.read_writes_eq_canon _ _ _ (coverWhole6 _ _)]
    rw [View.canon_unit_zero (S := S64x128) hz2]
    simp only [View.readAt_eq_ld, View.ld_unit_zero (S := S1x1x2048) hz3, View.ld_unit_zero (S := S64x128) hz2]

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' block at point `t`, at its literal type. -/
abbrev xtok (c : Dev nD) (t : Fin cfg0.N) : Vec F S1x2048x1024 .f32 := iblk0 V c 0 t
/-- The segment ids' block at point `t`, at its literal type. -/
abbrev xseg (c : Dev nD) (t : Fin cfg0.N) : Vec F S1x1x2048 .i32 := iblk0 V c 1 t

/-- An input window's current staging buffer holds its block at every point, for any proof data whose array is
    `V`'s and whose body leaves the block in place: the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the scratches and the output hold after each point -/

/-- The sum scratch and the count scratch after the body at position `n`: at a point whose grid coordinate 1 is zero
    (an even position) the point's contributions over zeros; at the others (odd positions) the point's
    contributions over what the position before left. -/
def scrAt (c : Dev nD) : (n : ℕ) → n < cfg0.N → Vec F S64x1024 .f32 × Vec F S64x128 .f32
  | 0, hn => (k0_pay5 (xtok V c ⟨0, hn⟩) (xseg V c ⟨0, hn⟩) (k0_pay2 (F := F)), k0_pay6 (xseg V c ⟨0, hn⟩) (k0_pay3 (F := F)))
  | n + 1, hn =>
    if (n + 1) % 2 = 0 then
      (k0_pay5 (xtok V c ⟨n + 1, hn⟩) (xseg V c ⟨n + 1, hn⟩) (k0_pay2 (F := F)), k0_pay6 (xseg V c ⟨n + 1, hn⟩) (k0_pay3 (F := F)))
    else
      (k0_pay5 (xtok V c ⟨n + 1, hn⟩) (xseg V c ⟨n + 1, hn⟩) (scrAt c n (Nat.lt_of_succ_lt hn)).1,
        k0_pay6 (xseg V c ⟨n + 1, hn⟩) (scrAt c n (Nat.lt_of_succ_lt hn)).2)

/-- At an even position: the point's contributions over zeros. -/
theorem scrAt_even (c : Dev nD) (t : Fin cfg0.N) (h : t.val % 2 = 0) :
    scrAt V c t.val t.isLt = (k0_pay5 (xtok V c t) (xseg V c t) (k0_pay2 (F := F)), k0_pay6 (xseg V c t) (k0_pay3 (F := F))) := by
  obtain ⟨n, hn⟩ := t
  cases n with
  | zero => exact rfl
  | succ n => exact (if_pos h).trans rfl

/-- At an odd position: the point's contributions over what the position before left. -/
theorem scrAt_odd (c : Dev nD) (t : Fin cfg0.N) (h : t.val % 2 = 1) :
    scrAt V c t.val t.isLt
      = (k0_pay5 (xtok V c t) (xseg V c t) (scrAt V c (t.val - 1) (Nat.lt_of_le_of_lt (Nat.sub_le _ _) t.isLt)).1,
          k0_pay6 (xseg V c t) (scrAt V c (t.val - 1) (Nat.lt_of_le_of_lt (Nat.sub_le _ _) t.isLt)).2) := by
  obtain ⟨n, hn⟩ := t
  cases n with
  | zero => exact (by exfalso; (try dsimp only at h); omega)
  | succ n => exact (if_neg (by (try dsimp only at h); omega)).trans rfl

/-- What the body's final store puts in the output buffer, from the scratches after the point: the sums divided by the
    counts' first column. Consulted at the odd positions only: at the even ones the output is idle. -/
def outAt (c : Dev nD) (t : Fin cfg0.N) : Vec F S64x1024 .bf16 :=
  k0_pay1 (View.ld (scrAt V c t.val t.isLt).2 rcol) (scrAt V c t.val t.isLt).1

/-! ## The region invariant -/

/-- The scratch operands, as memrefs. -/
abbrev scM5 : Memref sig .tc .vmem S64x1024 .f32 := Memref.whole cc0_scratch0
abbrev scM6 : Memref sig .tc .vmem S64x128 .f32 := Memref.whole cc0_scratch1

/-- The core's other scoped buffers (the second call's staging buffers), each whole at some contents: untouched here. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the two scratch operands as memrefs owned at some contents. -/
theorem PhiA0_eq (c : Dev nD) :
    (Pipeline.ΦA spec0 c : sProp 𝕄)
      = iprop(iprop((∃ d, owns (c : Thread nD τ) scM5 fullShare d) ∗ (∃ d, owns (c : Thread nD τ) scM6 fullShare d) ∗ restOther (F := F) c) ∗ (∃ r, prngReg c r)) := by
  unfold Pipeline.ΦA restOther; rw [scopedRest0_eq]; simp only [scM5, scM6, owns_whole]; try rfl

/-- The region invariant before position `n`: before the first point the class's (every scratch at anything);
    afterwards the two scratches at what the position before left in them, the other scoped buffers at anything and
    the generator register at some state. -/
def PhiS (c : Dev nD) : (n : ℕ) → n ≤ cfg0.N → sProp 𝕄
  | 0, _ => Pipeline.ΦA spec0 c
  | n + 1, hn => iprop(iprop(owns (c : Thread nD τ) scM5 fullShare (scrAt V c n hn).1 ∗ owns (c : Thread nD τ) scM6 fullShare (scrAt V c n hn).2 ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM5 fullShare (scrAt V c n hn).1 ∗ owns (c : Thread nD τ) scM6 fullShare (scrAt V c n hn).2 ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM5 fullShare (scrAt V c (n - 1) (by omega)).1 ∗ owns (c : Thread nD τ) scM6 fullShare (scrAt V c (n - 1) (by omega)).2 ∗ restOther (F := F) c) ∗ (∃ r, prngReg c r)) := by
  cases n with
  | zero => exact absurd rfl hz
  | succ n => rfl

/-- At any position the invariant has both scratches at some contents. -/
theorem PhiS_any (c : Dev nD) (n : ℕ) (h : n ≤ cfg0.N) :
    PhiS V c n h ⊢ iprop(iprop((∃ d, owns (c : Thread nD τ) scM5 fullShare d) ∗ (∃ d, owns (c : Thread nD τ) scM6 fullShare d) ∗ restOther (F := F) c) ∗ (∃ r, prngReg c r)) := by
  cases n with
  | zero => rw [PhiS_zero V c 0 h rfl, PhiA0_eq]
  | succ n =>
    rw [PhiS_succ]
    iintro ⟨⟨H5, H6, Hr⟩, Hg⟩
    isplitr [Hg]
    · isplitl [H5]; · iexists _; iexact H5
      isplitl [H6]; · iexists _; iexact H6
      iexact Hr
    iexact Hg

/-! ## The pipeline's proof data -/

/-- The proof data of pipeline 0 on core `c`: the arrays as the region finds them (`V`); after the body at point `t`
    each input's buffer at its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- At the even positions the output is idle (nothing is stored into it) and not written back. -/
theorem idleAt0_2_A : ∀ t : Fin cfg0.N, t.val % 2 = 0 → cfg0.idle 2 (grid0.coords t) = true :=
  (by decide +kernel : ∀ t : Fin grid0.N, t.val % 2 = 0 → idle0 2 (grid0.coords t) = true)
theorem noFlush0_2_A (t : Fin cfg0.N) (h : t.val % 2 = 0) : (cfg0.win 2).flush t = false := by
  cases hf : (cfg0.win 2).flush t
  · rfl
  · exact absurd ((flush0_2 t).mp hf) (by omega)
/-- At the odd positions it is live. -/
theorem liveAt0_2_B : ∀ t : Fin cfg0.N, t.val % 2 = 1 → cfg0.idle 2 (grid0.coords t) = false :=
  (by decide +kernel : ∀ t : Fin grid0.N, t.val % 2 = 1 → idle0 2 (grid0.coords t) = false)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the parity of the position says which case the point
    is in. At an even position the invariant hands the scratches at anything and takes them back at the point's
    contributions over zeros, the output buffer comes back as it was handed; at an odd position the invariant hands
    the scratches at what the position before left and takes them back accumulated, and the output buffer is left
    at `outAt`. The other scoped buffers, the generator register and the core's tallies pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 16 := lt_of_lt_of_eq t.isLt (show cfg0.N = 16 from N_0)
  by_cases h0 : t.val % 2 = 0
  · have h1 : ¬t.val % 2 = 1 := by omega
    rw [Dat.leavesExact_idle (dat0 V c) 2 t (idleAt0_2_A t h0) (noFlush0_2_A t h0)]
    rw [scrAt_even V c t h0]
    rw [PhiS_castSucc V c t]
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HS5, HS6, Hr⟩, Hg⟩
    iapply (sound_kernelA c Set.univ (grid0.coords t) _ _ _ _ _ _ _ _ _ _ ((hcondA t).mpr h0) (fun h => h1 ((hcondB t).mp h))
      (xtok V c t) (xseg V c t) ((dat0 V c).before 2 t d2) _)
    isplitl [H0]; · iexact H0
    isplitl [H1]; · iexact H1
    isplitl [H2]; · iexact H2
    isplitl [HS5]; · iexact HS5
    isplitl [HS6]; · iexact HS6
    iintro ⟨H0, H1, H2, HS5, HS6⟩
    isplitl [HS5 HS6 Hr Hg]
    · isplitr [Hg]
      · isplitl [HS5]; · iexact HS5
        isplitl [HS6]; · iexact HS6
        iexact Hr
      iexact Hg
    isplitl [Ho]; · iexact Ho
    isplitl [H0]; · iexact H0
    isplitl [H1]; · iexact H1
    iexists _; iexact H2
  · have h1 : t.val % 2 = 1 := by omega
    have hz : t.val ≠ 0 := by omega
    rw [show (dat0 V c).leavesExact 2 t = owns (c : Thread nD τ) (st0_2 t) fullShare ((dat0 V c).after 2 t) from by
      unfold Dat.leavesExact; rw [liveAt0_2_B t h1], after0_2]
    unfold outAt
    rw [scrAt_odd V c t h1]
    rw [PhiS_castSucc V c t, PhiS_pos V c _ _ hz]
    iintro ⟨⟨⟨HS5, HS6, Hr⟩, Hg⟩, Ho, ⟨%d0, H0⟩, ⟨%d1, H1⟩, ⟨%d2, H2⟩⟩
    iapply (sound_kernelB c Set.univ (grid0.coords t) _ _ _ _ _ _ _ _ _ _ (fun h => h0 ((hcondA t).mp h)) ((hcondB t).mpr h1)
      (xtok V c t) (xseg V c t) (scrAt V c (t.val - 1) (Nat.lt_of_le_of_lt (Nat.sub_le _ _) t.isLt)).1
      (scrAt V c (t.val - 1) (Nat.lt_of_le_of_lt (Nat.sub_le _ _) t.isLt)).2 _)
    isplitl [H0]; · iexact H0
    isplitl [H1]; · iexact H1
    isplitl [H2]; · iexists _; iexact H2
    isplitl [HS5]; · iexact HS5
    isplitl [HS6]; · iexact HS6
    iintro ⟨H0, H1, H2, HS5, HS6⟩
    isplitl [HS5 HS6 Hr Hg]
    · isplitr [Hg]
      · isplitl [HS5]; · iexact HS5
        isplitl [HS6]; · iexact HS6
        iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the scratches' named contents are forgotten. -/
theorem Phi_out0 (c : Dev nD) (t : Fin (cfg0.N + 1)) : (dat0 V c).Φ t ⊢ Pipeline.ΦA spec0 c := by
  rw [show (dat0 V c).Φ t = PhiS V c t.val (Nat.le_of_lt_succ t.isLt) from rfl, PhiA0_eq]
  exact PhiS_any V c _ _

/-- The same after the last point. -/
theorem hout0 (c : Dev nD) : (dat0 V c).Φ (Fin.last cfg0.N) ⊢ Pipeline.ΦA spec0 c := Phi_out0 V c _

/-! ## The output's block at an odd position, from the two points' input blocks -/

/-- At an odd position `t` the output buffer holds the quotient of the two points' accumulated sums by the first
    column of their accumulated counts: the point before (even) started both from zeros. -/
theorem after0_2_odd (c : Dev nD) (t : Fin cfg0.N) (h : t.val % 2 = 1) :
    (dat0 V c).after 2 t
      = k0_pay1 (View.ld (k0_pay6 (xseg V c t) (k0_pay6 (xseg V c ⟨t.val - 1, Nat.lt_of_le_of_lt (Nat.sub_le _ _) t.isLt⟩) (k0_pay3 (F := F)))) rcol)
          (k0_pay5 (xtok V c t) (xseg V c t)
            (k0_pay5 (xtok V c ⟨t.val - 1, Nat.lt_of_le_of_lt (Nat.sub_le _ _) t.isLt⟩) (xseg V c ⟨t.val - 1, Nat.lt_of_le_of_lt (Nat.sub_le _ _) t.isLt⟩) (k0_pay2 (F := F)))) := by
  rw [after0_2]; unfold outAt
  rw [scrAt_odd V c t h]
  rw [scrAt_even V c ⟨t.val - 1, Nat.lt_of_le_of_lt (Nat.sub_le _ _) t.isLt⟩ (by show (t.val - 1) % 2 = 0; omega)]

end Cert.Kernel.Hand

end
-- ==== Proof.KB.R1.lean ====
import proofs.«421061_j44530220925378_3_alg».proof.Proof.Gen.Kernel.Launch
import proofs.«421061_j44530220925378_3_alg».proof.Proof.Gen.Kernel.Skeleton
import proofs.«421061_j44530220925378_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the second pallas_call (`cc1__mlp_kernel`, pipeline 1), at entry contents `V`

The frame half of the region, generic in the float model `F`: each window's block at a grid point read off the
array as the region finds it; what the body leaves in the one output window's staging buffer, as a closed
function of the six input blocks at the point; the body's triple; the pipeline's proof data; and the body
obligation at every grid point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the pipeline does not fetch, the
    block index has not moved since the point before, so the buffer still holds this point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the pipeline does not fetch, the
    block index has not moved since the point before, so the buffer still holds this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the pipeline does not fetch, the
    block index has not moved since the point before, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the pipeline does not fetch, the
    block index has not moved since the point before, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the pipeline does not fetch, the
    block index has not moved since the point before, so the buffer still holds this point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where the pipeline does not fetch, the
    block index has not moved since the point before, so the buffer still holds this point's block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-buffer rectangle per staging buffer -/

abbrev r1_0 : Rect S512x1024 := Rect.unit (s := S512x1024) ![0, 0] S512x1024.size inb_S512x1024_S512x1024_0_0
abbrev r1_1 : Rect S512x2 := Rect.unit (s := S512x2) ![0, 0] S512x2.size inb_S512x2_S512x2_0_0
abbrev r1_2 : Rect S1x1024 := Rect.unit (s := S1x1024) ![0, 0] S1x1024.size inb_S1x1024_S1x1024_0_0
abbrev r1_3 : Rect S1024x1 := Rect.unit (s := S1024x1) ![0, 0] S1024x1.size inb_S1024x1_S1024x1_0_0
abbrev r1_4 : Rect S1x1 := Rect.unit (s := S1x1) ![0, 0] S1x1.size inb_S1x1_S1x1_0_0
abbrev r1_5 : Rect S512x1 := Rect.unit (s := S512x1) ![0, 0] S512x1.size inb_S512x1_S512x1_0_0

/-! ## What the body leaves in the output window's buffer -/

/-- Window 6's staging buffer after the body, from the six input windows' blocks: its one store, of the
    second-layer payload of the first-layer payload of the loaded blocks, through the whole-buffer rectangle. -/
def out1_6 (x0 : Vec F S512x1024 .bf16) (x1 : Vec F S512x1024 .bf16) (x2 : Vec F S512x2 .i32) (x3 : Vec F S1x1024 .f32)
    (x4 : Vec F S1024x1 .f32) (x5 : Vec F S1x1 .f32) : Vec F S512x1 .f32 :=
  View.canon [⟨r1_5, k1_pay1 (k1_pay2 (View.ld x0 r1_0) (View.ld x1 r1_0) (View.ld x2 r1_1) (View.ld x3 r1_2)) (View.ld x4 r1_3) (View.ld x5 r1_4)⟩]

/-- The one store's rectangle is the whole buffer, so it covers it. -/
theorem cover1_6 (p0 : Vec F S512x1 .f32) (y : S512x1.Idx) :
    ∃ pc ∈ ([⟨r1_5, p0⟩] : List (View.Piece (Elt F) S512x1 .f32)), y ∈ pc.1.set :=
  View.cover_of_tiled [⟨r1_5, p0⟩] S512x1.size (by rfl) y

/-! ## The body's triple -/

set_option maxHeartbeats 1000000 in
/-- The kernel body on whole staging memrefs, the six inputs' at read contents `x0 … x5` and the output's at anything,
    runs to the continuation holding the inputs' as they were and the output's at `out1_6` of the inputs': the printed
    function and its part are their skeletons, a sequence of whole-buffer loads and one whole-buffer store. -/
theorem sound_kernel1 (c : Dev nD) (E : Set ℕ) (i : grid1.Coords)
    (arg1 : Memref sig .tc .vmem S512x1024 .bf16) (harg1 : arg1.IsWhole) (arg2 : Memref sig .tc .vmem S512x1024 .bf16) (harg2 : arg2.IsWhole)
    (arg3 : Memref sig .tc .vmem S512x2 .i32) (harg3 : arg3.IsWhole) (arg4 : Memref sig .tc .vmem S1x1024 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S512x1 .f32) (harg7 : arg7.IsWhole)
    (x0 : Vec F S512x1024 .bf16) (x1 : Vec F S512x1024 .bf16) (x2 : Vec F S512x2 .i32) (x3 : Vec F S1x1024 .f32)
    (x4 : Vec F S1024x1 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__mlp_kernel i arg1 harg1 arg2 harg2 arg3 harg3 arg4 harg4 arg5 harg5 arg6 harg6 arg7 harg7) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The run of the two-kernel program: the buffer contents at each boundary of @main (launch, after the first host
  stretch, after the span-mean kernel, after the second host stretch, after the relation kernel), each argument
  array read back through them to its launch contents, the two kernel regions as segments over the thread state
  "every unscoped buffer at the boundary's contents", and the launch: every weakly fair execution terminates with
  every unscoped buffer at the last boundary's contents.
-/
import proofs.«421061_j44530220925378_3_alg».proof.Proof.Gen.Kernel.Launch
import proofs.«421061_j44530220925378_3_alg».proof.Proof.Gen.Kernel.Skeleton
import proofs.«421061_j44530220925378_3_alg».proof.Proof.Gen.Kernel.Points
import proofs.«421061_j44530220925378_3_alg».proof.Proof.Gen.Kernel.Regions
import proofs.«421061_j44530220925378_3_alg».proof.Proof.KB.R0
import proofs.«421061_j44530220925378_3_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the span-mean kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the span-mean kernel's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the relation kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the relation kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a region reads it through an input window
    or bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 4).trans (((dat1 (V3 m ρ) c).arrAt_in 4 rfl _).trans (A_eq1 (V3 m ρ) c 4))
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at what the write-backs
    leave at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : Pipeline.ΦA spec0 c ⊢ (iprop((∃ r, prngReg c r) ∗ BI.emp ∗ Pipeline.scopedRest (Pipeline.pin (pcfgs (F := F)) adm 0).spec c) : sProp 𝕄) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The run with the result named: the relation logits' buffer ends at what the relation kernel's write-backs
    leave, and every argument array as launched. -/
theorem run_result : θ_run defs (onTc (τ := τ) (main (F := F))) ⟨m, fun _ => 0, ρ⟩ (fun r => ∀ c : Dev nD,
      r.2.mem ((c.tc : Thread nD τ).loc main_v11) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v11 (by decide))).trans (W4_arr m ρ c 6),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KI.R0.lean ====
/-
  The first pallas_call of the program, the span means, as a region of the pipeline: its frame half at the
  buffer contents `V` the region is entered with, for any float semantics `F`.

  The grid is 8 × 2; position t = 2·b + s. At s = 0 the body zeroes two scratch accumulators (feature sums
  [64,1024], counts [64,128]) and adds the point's contribution to each; the output block is not touched and not
  written back. At s = 1 it adds the point's contribution to what the position before left, and stores the output
  block whole: the sums divided by the first column of the counts (at least one), which the pipeline writes back.
  The proof data names what the two scratches hold after every position by recursion on the position, carries
  them in the region invariant, and states the output block from them.
-/
import proofs.«421061_j44530220925378_3_alg».proof.Proof.Gen.KernelIdeal.Launch
import proofs.«421061_j44530220925378_3_alg».proof.Proof.Gen.KernelIdeal.Skeleton
import proofs.«421061_j44530220925378_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: grid coordinate 1 is zero. -/
abbrev condA (i : grid0.Coords) : Prop :=
  (Scalar.cmpi .ne (Scalar.extui (Scalar.cmpi .eq (BitVec.ofNat 32 (i 1).val) 0#32)) 0#32) = 1#1
/-- The second conditional: grid coordinate 1 is one. -/
abbrev condB (i : grid0.Coords) : Prop := k0_cond2 i = 1#1

theorem hcondA : ∀ t : Fin cfg0.N, condA (grid0.coords t) ↔ t.val % 2 = 0 :=
  (by decide +kernel : ∀ t : Fin grid0.N, condA (grid0.coords t) ↔ t.val % 2 = 0)
theorem hcondB : ∀ t : Fin cfg0.N, condB (grid0.coords t) ↔ t.val % 2 = 1 :=
  (by decide +kernel : ∀ t : Fin grid0.N, condB (grid0.coords t) ↔ t.val % 2 = 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The first column of the count scratch, as the body loads it. -/
abbrev rcol : Rect S64x128 := Rect.unit (s := S64x128) ![0, 0] S64x1.size inb_S64x128_S64x1_0_0

/-- A whole-buffer store, last, covers the buffer. -/
theorem coverWhole5 (p : Vec F S64x1024 .f32) (L : List (View.Piece (Elt F) S64x1024 .f32)) (y : S64x1024.Idx) :
    ∃ pc ∈ ((⟨Rect.unit ![0, 0] S64x1024.size inb_S64x1024_S64x1024_0_0, p⟩ : View.Piece (Elt F) S64x1024 .f32) :: L), y ∈ pc.1.set :=
  ⟨_, List.mem_cons_self, View.mem_set_unit_zero hz2 inb_S64x1024_S64x1024_0_0 y⟩
theorem coverWhole6 (p : Vec F S64x128 .f32) (L : List (View.Piece (Elt F) S64x128 .f32)) (y : S64x128.Idx) :
    ∃ pc ∈ ((⟨Rect.unit ![0, 0] S64x128.size inb_S64x128_S64x128_0_0, p⟩ : View.Piece (Elt F) S64x128 .f32) :: L), y ∈ pc.1.set :=
  ⟨_, List.mem_cons_self, View.mem_set_unit_zero hz2 inb_S64x128_S64x128_0_0 y⟩
theorem coverWhole4 (p : Vec F S64x1024 .bf16) (L : List (View.Piece (Elt F) S64x1024 .bf16)) (y : S64x1024.Idx) :
    ∃ pc ∈ ((⟨Rect.unit ![0, 0] S64x1024.size inb_S64x1024_S64x1024_0_0, p⟩ : View.Piece (Elt F) S64x1024 .bf16) :: L), y ∈ pc.1.set :=
  ⟨_, List.mem_cons_self, View.mem_set_unit_zero hz2 inb_S64x1024_S64x1024_0_0 y⟩

set_option maxHeartbeats 1000000 in
/-- The body at a point whose grid coordinate 1 is zero: both scratches are zeroed and then accumulate the point's
    blocks; the output buffer is not touched. -/
theorem sound_kernelA (c : Dev nD) (E : Set ℕ) (i : grid0.Coords)
    (arg2 : Memref sig .tc .vmem S1x2048x1024 .f32) (harg2 : arg2.IsWhole)
    (arg3 : Memref sig .tc .vmem S1x1x2048 .i32) (harg3 : arg3.IsWhole)
    (arg4 : Memref sig .tc .vmem S64x1024 .bf16) (harg4 : arg4.IsWhole)
    (arg5 : Memref sig .tc .vmem S64x1024 .f32) (harg5 : arg5.IsWhole)
    (arg6 : Memref sig .tc .vmem S64x128 .f32) (harg6 : arg6.IsWhole)
    (hc0 : condA i) (hc1 : ¬condB i)
    (x0 : Vec F S1x2048x1024 .f32) (x1 : Vec F S1x1x2048 .i32) (d4 : Vec F S64x1024 .bf16)
    (K : PUnit → sProp 𝕄) :
    iprop(owns (c : Thread nD τ) arg2 fullShare x0 ∗ owns (c : Thread nD τ) arg3 fullShare x1
        ∗ owns (c : Thread nD τ) arg4 fullShare d4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare d4
            ∗ owns (c : Thread nD τ) arg5 fullShare (k0_pay5 x0 x1 (k0_pay2 (F := F)))
            ∗ owns (c : Thread nD τ) arg6 fullShare (k0_pay6 x1 (k0_pay3 (F := F)))) -∗ K ⟨⟩))
      ⊢ wp frame (wpE (defs₀ (F := F)) Variants.none c none) E
          (cc0__span_mean_kernel i arg2 harg2 arg3 harg3 arg4 harg4 arg5 harg5 arg6 harg6) K := by
  simp only [cc0__span_mean_kernel_eq_skeleton]; unfold cc0__span_mean_kernel_skel
  simp only [k0_part1_eq_skeleton]; unfold k0_part1_skel
  unfold owns
  iintro ⟨⟨%f0, %hf0, H0⟩, ⟨%f1, %hf1, H1⟩, H4, ⟨%d5, %f5, -, H5⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]; · iexact H4
  isplitl [H5]
  · iexists _; isplitr
    swap; · iexact H5
    ipureintro
    sl_unfold_run_names
    rw [View.read_writes_eq_canon _ _ _ (coverWhole5 _ _)]
    rw [View.canon_cons_unit_zero (S := S64x1024) hz2, View.readCov_unit_zero (S := S64x1024) _ hz2]
    simp only [View.readAt_eq_ld, View.ld_unit_zero (S := S1x2048x1024) hz3, View.ld_unit_zero (S := S1x1x2048) hz3]
  · iexists _; isplitr
    swap; · iexact H6
    ipureintro
    sl_unfold_run_names
    rw [View.read_writes_eq_canon _ _ _ (coverWhole6 _ _)]
    rw [View.canon_cons_unit_zero (S := S64x128) hz2, View.readCov_unit_zero (S := S64x128) _ hz2]
    simp only [View.readAt_eq_ld, View.ld_unit_zero (S := S1x1x2048) hz3]

set_option maxHeartbeats 1000000 in
/-- The body at a point whose grid coordinate 1 is one: both scratches accumulate the point's blocks over what the
    point before left, and the output buffer is stored whole from the new scratches: the sums divided by the counts'
    first column (at least one). -/
theorem sound_kernelB (c : Dev nD) (E : Set ℕ) (i : grid0.Coords)
    (arg2 : Memref sig .tc .vmem S1x2048x1024 .f32) (harg2 : arg2.IsWhole)
    (arg3 : Memref sig .tc .vmem S1x1x2048 .i32) (harg3 : arg3.IsWhole)
    (arg4 : Memref sig .tc .vmem S64x1024 .bf16) (harg4 : arg4.IsWhole)
    (arg5 : Memref sig .tc .vmem S64x1024 .f32) (harg5 : arg5.IsWhole)
    (arg6 : Memref sig .tc .vmem S64x128 .f32) (harg6 : arg6.IsWhole)
    (hc0 : ¬condA i) (hc1 : condB i)
    (x0 : Vec F S1x2048x1024 .f32) (x1 : Vec F S1x1x2048 .i32)
    (s5 : Vec F S64x1024 .f32) (s6 : Vec F S64x128 .f32)
    (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare s5 ∗ owns (c : Thread nD τ) arg6 fullShare s6
        ∗ (iprop(owns (c : Thread nD τ) arg2 fullShare x0 ∗ owns (c : Thread nD τ) arg3 fullShare x1
            ∗ owns (c : Thread nD τ) arg4 fullShare (k0_pay1 (View.ld (k0_pay6 x1 s6) rcol) (k0_pay5 x0 x1 s5))
            ∗ owns (c : Thread nD τ) arg5 fullShare (k0_pay5 x0 x1 s5)
            ∗ owns (c : Thread nD τ) arg6 fullShare (k0_pay6 x1 s6)) -∗ K ⟨⟩))
      ⊢ wp frame (wpE (defs₀ (F := F)) Variants.none c none) E
          (cc0__span_mean_kernel i arg2 harg2 arg3 harg3 arg4 harg4 arg5 harg5 arg6 harg6) K := by
  simp only [cc0__span_mean_kernel_eq_skeleton]; unfold cc0__span_mean_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (coverWhole4 _ _)]
    rw [View.canon_unit_zero (S := S64x1024) hz2]
    rw [View.readCov_eq_canon_ld arg6.view _ rcol (coverWhole6 _ _)]
    rw [View.canon_unit_zero (S := S64x128) hz2, View.readCov_unit_zero (S := S64x1024) _ hz2]
    simp only [View.readAt_eq_ld, View.ld_unit_zero (S := S1x2048x1024) hz3, View.ld_unit_zero (S := S1x1x2048) hz3,
      View.ld_unit_zero (S := S64x1024) hz2, View.ld_unit_zero (S := S64x128) hz2]
  isplitl [H5]
  · iexists _; isplitr
    swap; · iexact H5
    ipureintro
    sl_unfold_run_names
    rw [View.read_writes_eq_canon _ _ _ (coverWhole5 _ _)]
    rw [View.canon_unit_zero (S := S64x1024) hz2]
    simp only [View.readAt_eq_ld, View.ld_unit_zero (S := S1x2048x1024) hz3, View.ld_unit_zero (S := S1x1x2048) hz3,
      View.ld_unit_zero (S := S64x1024) hz2]
  · iexists _; isplitr
    swap; · iexact H6
    ipureintro
    sl_unfold_run_names
    rw [View.read_writes_eq_canon _ _ _ (coverWhole6 _ _)]
    rw [View.canon_unit_zero (S := S64x128) hz2]
    simp only [View.readAt_eq_ld, View.ld_unit_zero (S := S1x1x2048) hz3, View.ld_unit_zero (S := S64x128) hz2]

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tokens' block at point `t`, at its literal type. -/
abbrev xtok (c : Dev nD) (t : Fin cfg0.N) : Vec F S1x2048x1024 .f32 := iblk0 V c 0 t
/-- The segment ids' block at point `t`, at its literal type. -/
abbrev xseg (c : Dev nD) (t : Fin cfg0.N) : Vec F S1x1x2048 .i32 := iblk0 V c 1 t

/-- An input window's current staging buffer holds its block at every point, for any proof data whose array is
    `V`'s and whose body leaves the block in place: the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the scratches and the output hold after each point -/

/-- The sum scratch and the count scratch after the body at position `n`: at a point whose grid coordinate 1 is zero
    (an even position) the point's contributions over zeros; at the others (odd positions) the point's
    contributions over what the position before left. -/
def scrAt (c : Dev nD) : (n : ℕ) → n < cfg0.N → Vec F S64x1024 .f32 × Vec F S64x128 .f32
  | 0, hn => (k0_pay5 (xtok V c ⟨0, hn⟩) (xseg V c ⟨0, hn⟩) (k0_pay2 (F := F)), k0_pay6 (xseg V c ⟨0, hn⟩) (k0_pay3 (F := F)))
  | n + 1, hn =>
    if (n + 1) % 2 = 0 then
      (k0_pay5 (xtok V c ⟨n + 1, hn⟩) (xseg V c ⟨n + 1, hn⟩) (k0_pay2 (F := F)), k0_pay6 (xseg V c ⟨n + 1, hn⟩) (k0_pay3 (F := F)))
    else
      (k0_pay5 (xtok V c ⟨n + 1, hn⟩) (xseg V c ⟨n + 1, hn⟩) (scrAt c n (Nat.lt_of_succ_lt hn)).1,
        k0_pay6 (xseg V c ⟨n + 1, hn⟩) (scrAt c n (Nat.lt_of_succ_lt hn)).2)

/-- At an even position: the point's contributions over zeros. -/
theorem scrAt_even (c : Dev nD) (t : Fin cfg0.N) (h : t.val % 2 = 0) :
    scrAt V c t.val t.isLt = (k0_pay5 (xtok V c t) (xseg V c t) (k0_pay2 (F := F)), k0_pay6 (xseg V c t) (k0_pay3 (F := F))) := by
  obtain ⟨n, hn⟩ := t
  cases n with
  | zero => exact rfl
  | succ n => exact (if_pos h).trans rfl

/-- At an odd position: the point's contributions over what the position before left. -/
theorem scrAt_odd (c : Dev nD) (t : Fin cfg0.N) (h : t.val % 2 = 1) :
    scrAt V c t.val t.isLt
      = (k0_pay5 (xtok V c t) (xseg V c t) (scrAt V c (t.val - 1) (Nat.lt_of_le_of_lt (Nat.sub_le _ _) t.isLt)).1,
          k0_pay6 (xseg V c t) (scrAt V c (t.val - 1) (Nat.lt_of_le_of_lt (Nat.sub_le _ _) t.isLt)).2) := by
  obtain ⟨n, hn⟩ := t
  cases n with
  | zero => exact (by exfalso; (try dsimp only at h); omega)
  | succ n => exact (if_neg (by (try dsimp only at h); omega)).trans rfl

/-- What the body's final store puts in the output buffer, from the scratches after the point: the sums divided by the
    counts' first column. Consulted at the odd positions only: at the even ones the output is idle. -/
def outAt (c : Dev nD) (t : Fin cfg0.N) : Vec F S64x1024 .bf16 :=
  k0_pay1 (View.ld (scrAt V c t.val t.isLt).2 rcol) (scrAt V c t.val t.isLt).1

/-! ## The region invariant -/

/-- The scratch operands, as memrefs. -/
abbrev scM5 : Memref sig .tc .vmem S64x1024 .f32 := Memref.whole cc0_scratch0
abbrev scM6 : Memref sig .tc .vmem S64x128 .f32 := Memref.whole cc0_scratch1

/-- The core's other scoped buffers (the second call's staging buffers), each whole at some contents: untouched here. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the two scratch operands as memrefs owned at some contents. -/
theorem PhiA0_eq (c : Dev nD) :
    (Pipeline.ΦA spec0 c : sProp 𝕄)
      = iprop(iprop((∃ d, owns (c : Thread nD τ) scM5 fullShare d) ∗ (∃ d, owns (c : Thread nD τ) scM6 fullShare d) ∗ restOther (F := F) c) ∗ (∃ r, prngReg c r)) := by
  unfold Pipeline.ΦA restOther; rw [scopedRest0_eq]; simp only [scM5, scM6, owns_whole]; try rfl

/-- The region invariant before position `n`: before the first point the class's (every scratch at anything);
    afterwards the two scratches at what the position before left in them, the other scoped buffers at anything and
    the generator register at some state. -/
def PhiS (c : Dev nD) : (n : ℕ) → n ≤ cfg0.N → sProp 𝕄
  | 0, _ => Pipeline.ΦA spec0 c
  | n + 1, hn => iprop(iprop(owns (c : Thread nD τ) scM5 fullShare (scrAt V c n hn).1 ∗ owns (c : Thread nD τ) scM6 fullShare (scrAt V c n hn).2 ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM5 fullShare (scrAt V c n hn).1 ∗ owns (c : Thread nD τ) scM6 fullShare (scrAt V c n hn).2 ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM5 fullShare (scrAt V c (n - 1) (by omega)).1 ∗ owns (c : Thread nD τ) scM6 fullShare (scrAt V c (n - 1) (by omega)).2 ∗ restOther (F := F) c) ∗ (∃ r, prngReg c r)) := by
  cases n with
  | zero => exact absurd rfl hz
  | succ n => rfl

/-- At any position the invariant has both scratches at some contents. -/
theorem PhiS_any (c : Dev nD) (n : ℕ) (h : n ≤ cfg0.N) :
    PhiS V c n h ⊢ iprop(iprop((∃ d, owns (c : Thread nD τ) scM5 fullShare d) ∗ (∃ d, owns (c : Thread nD τ) scM6 fullShare d) ∗ restOther (F := F) c) ∗ (∃ r, prngReg c r)) := by
  cases n with
  | zero => rw [PhiS_zero V c 0 h rfl, PhiA0_eq]
  | succ n =>
    rw [PhiS_succ]
    iintro ⟨⟨H5, H6, Hr⟩, Hg⟩
    isplitr [Hg]
    · isplitl [H5]; · iexists _; iexact H5
      isplitl [H6]; · iexists _; iexact H6
      iexact Hr
    iexact Hg

/-! ## The pipeline's proof data -/

/-- The proof data of pipeline 0 on core `c`: the arrays as the region finds them (`V`); after the body at point `t`
    each input's buffer at its block and the output's at `outAt`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- At the even positions the output is idle (nothing is stored into it) and not written back. -/
theorem idleAt0_2_A : ∀ t : Fin cfg0.N, t.val % 2 = 0 → cfg0.idle 2 (grid0.coords t) = true :=
  (by decide +kernel : ∀ t : Fin grid0.N, t.val % 2 = 0 → idle0 2 (grid0.coords t) = true)
theorem noFlush0_2_A (t : Fin cfg0.N) (h : t.val % 2 = 0) : (cfg0.win 2).flush t = false := by
  cases hf : (cfg0.win 2).flush t
  · rfl
  · exact absurd ((flush0_2 t).mp hf) (by omega)
/-- At the odd positions it is live. -/
theorem liveAt0_2_B : ∀ t : Fin cfg0.N, t.val % 2 = 1 → cfg0.idle 2 (grid0.coords t) = false :=
  (by decide +kernel : ∀ t : Fin grid0.N, t.val % 2 = 1 → idle0 2 (grid0.coords t) = false)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the parity of the position says which case the point
    is in. At an even position the invariant hands the scratches at anything and takes them back at the point's
    contributions over zeros, the output buffer comes back as it was handed; at an odd position the invariant hands
    the scratches at what the position before left and takes them back accumulated, and the output buffer is left
    at `outAt`. The other scoped buffers, the generator register and the core's tallies pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 16 := lt_of_lt_of_eq t.isLt (show cfg0.N = 16 from N_0)
  by_cases h0 : t.val % 2 = 0
  · have h1 : ¬t.val % 2 = 1 := by omega
    rw [Dat.leavesExact_idle (dat0 V c) 2 t (idleAt0_2_A t h0) (noFlush0_2_A t h0)]
    rw [scrAt_even V c t h0]
    rw [PhiS_castSucc V c t]
    iintro ⟨HΦ, Ho, ⟨%d0, H0⟩, ⟨%d1, H1⟩, ⟨%d2, H2⟩⟩
    ihave HΦ' := (PhiS_any V c t.val (Nat.le_of_lt t.isLt)) $$ HΦ
    icases HΦ' with ⟨⟨HS5, HS6, Hr⟩, Hg⟩
    iapply (sound_kernelA c Set.univ (grid0.coords t) _ _ _ _ _ _ _ _ _ _ ((hcondA t).mpr h0) (fun h => h1 ((hcondB t).mp h))
      (xtok V c t) (xseg V c t) ((dat0 V c).before 2 t d2) _)
    isplitl [H0]; · iexact H0
    isplitl [H1]; · iexact H1
    isplitl [H2]; · iexact H2
    isplitl [HS5]; · iexact HS5
    isplitl [HS6]; · iexact HS6
    iintro ⟨H0, H1, H2, HS5, HS6⟩
    isplitl [HS5 HS6 Hr Hg]
    · isplitr [Hg]
      · isplitl [HS5]; · iexact HS5
        isplitl [HS6]; · iexact HS6
        iexact Hr
      iexact Hg
    isplitl [Ho]; · iexact Ho
    isplitl [H0]; · iexact H0
    isplitl [H1]; · iexact H1
    iexists _; iexact H2
  · have h1 : t.val % 2 = 1 := by omega
    have hz : t.val ≠ 0 := by omega
    rw [show (dat0 V c).leavesExact 2 t = owns (c : Thread nD τ) (st0_2 t) fullShare ((dat0 V c).after 2 t) from by
      unfold Dat.leavesExact; rw [liveAt0_2_B t h1], after0_2]
    unfold outAt
    rw [scrAt_odd V c t h1]
    rw [PhiS_castSucc V c t, PhiS_pos V c _ _ hz]
    iintro ⟨⟨⟨HS5, HS6, Hr⟩, Hg⟩, Ho, ⟨%d0, H0⟩, ⟨%d1, H1⟩, ⟨%d2, H2⟩⟩
    iapply (sound_kernelB c Set.univ (grid0.coords t) _ _ _ _ _ _ _ _ _ _ (fun h => h0 ((hcondA t).mp h)) ((hcondB t).mpr h1)
      (xtok V c t) (xseg V c t) (scrAt V c (t.val - 1) (Nat.lt_of_le_of_lt (Nat.sub_le _ _) t.isLt)).1
      (scrAt V c (t.val - 1) (Nat.lt_of_le_of_lt (Nat.sub_le _ _) t.isLt)).2 _)
    isplitl [H0]; · iexact H0
    isplitl [H1]; · iexact H1
    isplitl [H2]; · iexists _; iexact H2
    isplitl [HS5]; · iexact HS5
    isplitl [HS6]; · iexact HS6
    iintro ⟨H0, H1, H2, HS5, HS6⟩
    isplitl [HS5 HS6 Hr Hg]
    · isplitr [Hg]
      · isplitl [HS5]; · iexact HS5
        isplitl [HS6]; · iexact HS6
        iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the scratches' named contents are forgotten. -/
theorem Phi_out0 (c : Dev nD) (t : Fin (cfg0.N + 1)) : (dat0 V c).Φ t ⊢ Pipeline.ΦA spec0 c := by
  rw [show (dat0 V c).Φ t = PhiS V c t.val (Nat.le_of_lt_succ t.isLt) from rfl, PhiA0_eq]
  exact PhiS_any V c _ _

/-- The same after the last point. -/
theorem hout0 (c : Dev nD) : (dat0 V c).Φ (Fin.last cfg0.N) ⊢ Pipeline.ΦA spec0 c := Phi_out0 V c _

/-! ## The output's block at an odd position, from the two points' input blocks -/

/-- At an odd position `t` the output buffer holds the quotient of the two points' accumulated sums by the first
    column of their accumulated counts: the point before (even) started both from zeros. -/
theorem after0_2_odd (c : Dev nD) (t : Fin cfg0.N) (h : t.val % 2 = 1) :
    (dat0 V c).after 2 t
      = k0_pay1 (View.ld (k0_pay6 (xseg V c t) (k0_pay6 (xseg V c ⟨t.val - 1, Nat.lt_of_le_of_lt (Nat.sub_le _ _) t.isLt⟩) (k0_pay3 (F := F)))) rcol)
          (k0_pay5 (xtok V c t) (xseg V c t)
            (k0_pay5 (xtok V c ⟨t.val - 1, Nat.lt_of_le_of_lt (Nat.sub_le _ _) t.isLt⟩) (xseg V c ⟨t.val - 1, Nat.lt_of_le_of_lt (Nat.sub_le _ _) t.isLt⟩) (k0_pay2 (F := F)))) := by
  rw [after0_2]; unfold outAt
  rw [scrAt_odd V c t h]
  rw [scrAt_even V c ⟨t.val - 1, Nat.lt_of_le_of_lt (Nat.sub_le _ _) t.isLt⟩ (by show (t.val - 1) % 2 = 0; omega)]

end Cert.KernelIdeal.Hand

end
-- ==== Proof.KI.R1.lean ====
import proofs.«421061_j44530220925378_3_alg».proof.Proof.Gen.KernelIdeal.Launch
import proofs.«421061_j44530220925378_3_alg».proof.Proof.Gen.KernelIdeal.Skeleton
import proofs.«421061_j44530220925378_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the second pallas_call (`cc1__mlp_kernel`, pipeline 1), at entry contents `V`

The frame half of the region, generic in the float model `F`: each window's block at a grid point read off the
array as the region finds it; what the body leaves in the one output window's staging buffer, as a closed
function of the six input blocks at the point; the body's triple; the pipeline's proof data; and the body
obligation at every grid point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the pipeline does not fetch, the
    block index has not moved since the point before, so the buffer still holds this point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the pipeline does not fetch, the
    block index has not moved since the point before, so the buffer still holds this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the pipeline does not fetch, the
    block index has not moved since the point before, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the pipeline does not fetch, the
    block index has not moved since the point before, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the pipeline does not fetch, the
    block index has not moved since the point before, so the buffer still holds this point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where the pipeline does not fetch, the
    block index has not moved since the point before, so the buffer still holds this point's block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-buffer rectangle per staging buffer -/

abbrev r1_0 : Rect S512x1024 := Rect.unit (s := S512x1024) ![0, 0] S512x1024.size inb_S512x1024_S512x1024_0_0
abbrev r1_1 : Rect S512x2 := Rect.unit (s := S512x2) ![0, 0] S512x2.size inb_S512x2_S512x2_0_0
abbrev r1_2 : Rect S1x1024 := Rect.unit (s := S1x1024) ![0, 0] S1x1024.size inb_S1x1024_S1x1024_0_0
abbrev r1_3 : Rect S1024x1 := Rect.unit (s := S1024x1) ![0, 0] S1024x1.size inb_S1024x1_S1024x1_0_0
abbrev r1_4 : Rect S1x1 := Rect.unit (s := S1x1) ![0, 0] S1x1.size inb_S1x1_S1x1_0_0
abbrev r1_5 : Rect S512x1 := Rect.unit (s := S512x1) ![0, 0] S512x1.size inb_S512x1_S512x1_0_0

/-! ## What the body leaves in the output window's buffer -/

/-- Window 6's staging buffer after the body, from the six input windows' blocks: its one store, of the
    second-layer payload of the first-layer payload of the loaded blocks, through the whole-buffer rectangle. -/
def out1_6 (x0 : Vec F S512x1024 .bf16) (x1 : Vec F S512x1024 .bf16) (x2 : Vec F S512x2 .i32) (x3 : Vec F S1x1024 .f32)
    (x4 : Vec F S1024x1 .f32) (x5 : Vec F S1x1 .f32) : Vec F S512x1 .f32 :=
  View.canon [⟨r1_5, k1_pay1 (k1_pay2 (View.ld x0 r1_0) (View.ld x1 r1_0) (View.ld x2 r1_1) (View.ld x3 r1_2)) (View.ld x4 r1_3) (View.ld x5 r1_4)⟩]

/-- The one store's rectangle is the whole buffer, so it covers it. -/
theorem cover1_6 (p0 : Vec F S512x1 .f32) (y : S512x1.Idx) :
    ∃ pc ∈ ([⟨r1_5, p0⟩] : List (View.Piece (Elt F) S512x1 .f32)), y ∈ pc.1.set :=
  View.cover_of_tiled [⟨r1_5, p0⟩] S512x1.size (by rfl) y

/-! ## The body's triple -/

set_option maxHeartbeats 1000000 in
/-- The kernel body on whole staging memrefs, the six inputs' at read contents `x0 … x5` and the output's at anything,
    runs to the continuation holding the inputs' as they were and the output's at `out1_6` of the inputs': the printed
    function and its part are their skeletons, a sequence of whole-buffer loads and one whole-buffer store. -/
theorem sound_kernel1 (c : Dev nD) (E : Set ℕ) (i : grid1.Coords)
    (arg1 : Memref sig .tc .vmem S512x1024 .bf16) (harg1 : arg1.IsWhole) (arg2 : Memref sig .tc .vmem S512x1024 .bf16) (harg2 : arg2.IsWhole)
    (arg3 : Memref sig .tc .vmem S512x2 .i32) (harg3 : arg3.IsWhole) (arg4 : Memref sig .tc .vmem S1x1024 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S512x1 .f32) (harg7 : arg7.IsWhole)
    (x0 : Vec F S512x1024 .bf16) (x1 : Vec F S512x1024 .bf16) (x2 : Vec F S512x2 .i32) (x3 : Vec F S1x1024 .f32)
    (x4 : Vec F S1024x1 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__mlp_kernel i arg1 harg1 arg2 harg2 arg3 harg3 arg4 harg4 arg5 harg5 arg6 harg6 arg7 harg7) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the two-kernel program: the buffer contents at each boundary of @main (launch, after the first host
  stretch, after the span-mean kernel, after the second host stretch, after the relation kernel), each argument
  array read back through them to its launch contents, the two kernel regions as segments over the thread state
  "every unscoped buffer at the boundary's contents", and the launch: every weakly fair execution terminates with
  every unscoped buffer at the last boundary's contents.
-/
import proofs.«421061_j44530220925378_3_alg».proof.Proof.Gen.KernelIdeal.Launch
import proofs.«421061_j44530220925378_3_alg».proof.Proof.Gen.KernelIdeal.Skeleton
import proofs.«421061_j44530220925378_3_alg».proof.Proof.Gen.KernelIdeal.Points
import proofs.«421061_j44530220925378_3_alg».proof.Proof.Gen.KernelIdeal.Regions
import proofs.«421061_j44530220925378_3_alg».proof.Proof.KI.R0
import proofs.«421061_j44530220925378_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the span-mean kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the span-mean kernel's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the relation kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the relation kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a region reads it through an input window
    or bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 4).trans (((dat1 (V3 m ρ) c).arrAt_in 4 rfl _).trans (A_eq1 (V3 m ρ) c 4))
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at what the write-backs
    leave at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : Pipeline.ΦA spec0 c ⊢ (iprop((∃ r, prngReg c r) ∗ BI.emp ∗ Pipeline.scopedRest (Pipeline.pin (pcfgs (F := F)) adm 0).spec c) : sProp 𝕄) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The run with the result named: the relation logits' buffer ends at what the relation kernel's write-backs
    leave, and every argument array as launched. -/
theorem run_result : θ_run defs (onTc (τ := τ) (main (F := F))) ⟨m, fun _ => 0, ρ⟩ (fun r => ∀ c : Dev nD,
      r.2.mem ((c.tc : Thread nD τ).loc main_v11) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v11 (by decide))).trans (W4_arr m ρ c 6),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The mathematics both programs compute, over plain index types and the extended reals.

  Tokens `tok b t h` (8 examples × 4096 positions × 1024 features) carry a per-example segment id
  `seg b t` in [0, 64). Global segment `g = 64·b + s` collects the tokens of example `b` whose id is `s`:
  its feature sum `segSum`, its size `segCnt`, and its mean `spanMean = segSum / max(segCnt, 1)`.
  A pair `p` names two global segments `i0 p`, `i1 p`; the relation layer is
  `hidden p j = max(Σ_k mean(i0 p, k)·W1[k, j] + Σ_k mean(i1 p, k)·W1[1024 + k, j] + b1 j, 0)` and
  `logits p = Σ_j hidden p j · W2 j + b2`.
-/
import Idealize.ShloMosaic.PureOps.Ideal
import Idealize.ShloMosaic.Lib.ValueIdx

noncomputable section

namespace Cert.Spec

open Idealize.ShloMosaic

/-- The example a global segment belongs to. -/
def exOf (g : Fin 512) : Fin 8 := ⟨g.val / 64, by have := g.isLt; omega⟩

/-- The feature sum of global segment `g`: the tokens of its example whose segment id is `g mod 64`. -/
def segSum (seg : Fin 8 → Fin 4096 → ℕ) (tok : Fin 8 → Fin 4096 → Fin 1024 → EReal) (g : Fin 512) (h : Fin 1024) : EReal :=
  ∑ t : Fin 4096, if seg (exOf g) t = g.val % 64 then tok (exOf g) t h else 0

/-- The number of tokens in global segment `g`. -/
def segCnt (seg : Fin 8 → Fin 4096 → ℕ) (g : Fin 512) : EReal :=
  ∑ t : Fin 4096, if seg (exOf g) t = g.val % 64 then (1 : EReal) else 0

/-- The mean of global segment `g`, an empty segment's divisor taken as one. -/
def spanMean (seg : Fin 8 → Fin 4096 → ℕ) (tok : Fin 8 → Fin 4096 → Fin 1024 → EReal) (g : Fin 512) (h : Fin 1024) : EReal :=
  Ideal.div (segSum seg tok g h) (max (segCnt seg g) 1)

/-- The upper half of the first layer's weight rows. -/
def hiRow (k : Fin 1024) : Fin 2048 := ⟨1024 + k.val, by have := k.isLt; omega⟩
/-- The lower half of the first layer's weight rows. -/
def loRow (k : Fin 1024) : Fin 2048 := ⟨k.val, by have := k.isLt; omega⟩

/-- The relation layer's hidden activation of pair `p` at feature `j`. -/
def hidden (sm : Fin 512 → Fin 1024 → EReal) (i0 i1 : Fin 4096 → Fin 512) (W1 : Fin 2048 → Fin 1024 → EReal)
    (b1 : Fin 1024 → EReal) (p : Fin 4096) (j : Fin 1024) : EReal :=
  max (((∑ k : Fin 1024, sm (i0 p) k * W1 (loRow k) j) + (∑ k : Fin 1024, sm (i1 p) k * W1 (hiRow k) j)) + b1 j) 0

/-- The relation logit of pair `p`. -/
def logits (hid : Fin 4096 → Fin 1024 → EReal) (W2 : Fin 1024 → EReal) (b2 : EReal) (p : Fin 4096) : EReal :=
  (∑ j : Fin 1024, hid p j * W2 j) + b2

end Cert.Spec

end
-- ==== Proof.KI.MlpPayload.lean ====
import proofs.«421061_j44530220925378_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The second kernel's payloads, and the host product between the kernels, read at an index

Everything here is at the ideal values (the extended reals). The second kernel gathers one row of each of two
tables per output row by multiplying with a one-hot matrix, adds a bias row, applies `max · 0`, and projects
with a column vector:

  out p = (∑ j, max ((ta (i₀ p) j + tb (i₁ p) j) + b1 j) 0 * w2 j) + b2,

where `i₀ p`, `i₁ p` are the two entries of row `p` of the index pairs, each already inside `[0, 512)`.

* A product into a zero accumulator, read at `(a, b)`, is `∑ k, lhs (a, k) * rhs (k, b)`: the contraction index has
  one axis, and the sum is re-indexed by its coordinate.
* Row `p` of a one-hot matrix is `1` at the column equal to the clipped index and `0` elsewhere; clipping to
  `[0, 511]` does nothing to an index already there. So `∑ s, onehot (p, s) * T (s, j) = T (i p, j)`: only the
  term `s = i p` is not `0 * _`, and it is `1 * _`. No distributivity or cancellation is used, which matters at ±∞.
* Format changes are the identity on extended reals, so they drop out.
-/

noncomputable section

namespace Cert.KernelIdeal.Hand

open Idealize.ShloMosaic Idealize.ShloMosaic.ValueIdx Cert.KernelIdeal Cert.KernelIdeal.Gen

variable [Cert.KernelIdeal.Facts]

/-! ## The three products' operand indices

For each of the three dimension-number records (all contract the left operand's axis 1 with the right operand's
axis 0, with no batch axes): the four coordinates of the operand indices, then the operand indices at an output
index `(a, b)` and a contraction coordinate `k`. -/

theorem lhs_g_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_g_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_g_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_g_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The left operand's index at output `(a, b)` and contraction coordinate `k` is `(a, k)`. -/
theorem lidx_g (a : Fin 512) (b : Fin 1024) (k : Fin 512) :
    dot_S512x512_S512x1024_S512x1024_1_0_0_1_n_n.lhsIdx (ix2 a b) ((contrEquiv1 dot_S512x512_S512x1024_S512x1024_1_0_0_1_n_n 512 rfl rfl).symm k) = ix2 a k :=
  funext fun ax => Fin.ext (by
    have hk := contrEquiv1_symm_val dot_S512x512_S512x1024_S512x1024_1_0_0_1_n_n 512 rfl rfl k
    match ax with
    | ⟨0, _⟩ => exact lhs_g_0 _ _
    | ⟨1, _⟩ => exact (lhs_g_1 _ _).trans hk)
/-- The right operand's index there is `(k, b)`. -/
theorem ridx_g (a : Fin 512) (b : Fin 1024) (k : Fin 512) :
    dot_S512x512_S512x1024_S512x1024_1_0_0_1_n_n.rhsIdx (ix2 a b) ((contrEquiv1 dot_S512x512_S512x1024_S512x1024_1_0_0_1_n_n 512 rfl rfl).symm k) = ix2 k b :=
  funext fun ax => Fin.ext (by
    have hk := contrEquiv1_symm_val dot_S512x512_S512x1024_S512x1024_1_0_0_1_n_n 512 rfl rfl k
    match ax with
    | ⟨0, _⟩ => exact (rhs_g_0 _ _).trans hk
    | ⟨1, _⟩ => exact rhs_g_1 _ _)

theorem lhs_w_0 (i : S512x1.Idx) (q : dot_S512x1024_S1024x1_S512x1_1_0_0_1_n_n.contr.Idx) :
    (dot_S512x1024_S1024x1_S512x1_1_0_0_1_n_n.lhsIdx i q 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem lhs_w_1 (i : S512x1.Idx) (q : dot_S512x1024_S1024x1_S512x1_1_0_0_1_n_n.contr.Idx) :
    (dot_S512x1024_S1024x1_S512x1_1_0_0_1_n_n.lhsIdx i q 1).val = (q ⟨0, by decide⟩).val :=
  dot_S512x1024_S1024x1_S512x1_1_0_0_1_n_n.lhsIdx_val_of_single rfl i q
theorem rhs_w_0 (i : S512x1.Idx) (q : dot_S512x1024_S1024x1_S512x1_1_0_0_1_n_n.contr.Idx) :
    (dot_S512x1024_S1024x1_S512x1_1_0_0_1_n_n.rhsIdx i q 0).val = (q ⟨0, by decide⟩).val :=
  dot_S512x1024_S1024x1_S512x1_1_0_0_1_n_n.rhsIdx_val_of_single rfl i q
theorem rhs_w_1 (i : S512x1.Idx) (q : dot_S512x1024_S1024x1_S512x1_1_0_0_1_n_n.contr.Idx) :
    (dot_S512x1024_S1024x1_S512x1_1_0_0_1_n_n.rhsIdx i q 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

/-- The left operand's index at output `(a, b)` and contraction coordinate `k` is `(a, k)`. -/
theorem lidx_w (a : Fin 512) (b : Fin 1) (k : Fin 1024) :
    dot_S512x1024_S1024x1_S512x1_1_0_0_1_n_n.lhsIdx (ix2 a b) ((contrEquiv1 dot_S512x1024_S1024x1_S512x1_1_0_0_1_n_n 1024 rfl rfl).symm k) = ix2 a k :=
  funext fun ax => Fin.ext (by
    have hk := contrEquiv1_symm_val dot_S512x1024_S1024x1_S512x1_1_0_0_1_n_n 1024 rfl rfl k
    match ax with
    | ⟨0, _⟩ => exact lhs_w_0 _ _
    | ⟨1, _⟩ => exact (lhs_w_1 _ _).trans hk)
/-- The right operand's index there is `(k, b)`. -/
theorem ridx_w (a : Fin 512) (b : Fin 1) (k : Fin 1024) :
    dot_S512x1024_S1024x1_S512x1_1_0_0_1_n_n.rhsIdx (ix2 a b) ((contrEquiv1 dot_S512x1024_S1024x1_S512x1_1_0_0_1_n_n 1024 rfl rfl).symm k) = ix2 k b :=
  funext fun ax => Fin.ext (by
    have hk := contrEquiv1_symm_val dot_S512x1024_S1024x1_S512x1_1_0_0_1_n_n 1024 rfl rfl k
    match ax with
    | ⟨0, _⟩ => exact (rhs_w_0 _ _).trans hk
    | ⟨1, _⟩ => exact rhs_w_1 _ _)

theorem lhs_h_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_h_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_h_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_h_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The left operand's index at output `(a, b)` and contraction coordinate `k` is `(a, k)`. -/
theorem lidx_h (a : Fin 512) (b : Fin 1024) (k : Fin 1024) :
    dot_S512x1024_S1024x1024_S512x1024_1_0_0_1_n_n.lhsIdx (ix2 a b) ((contrEquiv1 dot_S512x1024_S1024x1024_S512x1024_1_0_0_1_n_n 1024 rfl rfl).symm k) = ix2 a k :=
  funext fun ax => Fin.ext (by
    have hk := contrEquiv1_symm_val dot_S512x1024_S1024x1024_S512x1024_1_0_0_1_n_n 1024 rfl rfl k
    match ax with
    | ⟨0, _⟩ => exact lhs_h_0 _ _
    | ⟨1, _⟩ => exact (lhs_h_1 _ _).trans hk)
/-- The right operand's index there is `(k, b)`. -/
theorem ridx_h (a : Fin 512) (b : Fin 1024) (k : Fin 1024) :
    dot_S512x1024_S1024x1024_S512x1024_1_0_0_1_n_n.rhsIdx (ix2 a b) ((contrEquiv1 dot_S512x1024_S1024x1024_S512x1024_1_0_0_1_n_n 1024 rfl rfl).symm k) = ix2 k b :=
  funext fun ax => Fin.ext (by
    have hk := contrEquiv1_symm_val dot_S512x1024_S1024x1024_S512x1024_1_0_0_1_n_n 1024 rfl rfl k
    match ax with
    | ⟨0, _⟩ => exact (rhs_h_0 _ _).trans hk
    | ⟨1, _⟩ => exact rhs_h_1 _ _)

/-! ## The products read at an index -/

/-- The gathering product (a `[512, 512]` matrix times a `[512, 1024]` table into a zero accumulator) at `(p, j)`. -/
theorem matmul_g_apply (l : FVec Ideal S512x512 .bf16) (r : FVec Ideal S512x1024 .bf16) (p : Fin 512) (j : Fin 1024) :
    matmul dot_S512x512_S512x1024_S512x1024_1_0_0_1_n_n none l r (constant (F := Ideal) S512x1024 .f32 0x00000000#32) (ix2 p j)
      = ∑ k : Fin 512, l (ix2 p k) * r (ix2 k j) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  rw [lidx_g, ridx_g]

/-- The projecting product (a `[512, 1024]` matrix times a `[1024, 1]` column into a zero accumulator) at `(p, 0)`. -/
theorem matmul_w_apply (l : FVec Ideal S512x1024 .bf16) (r : FVec Ideal S1024x1 .bf16) (p : Fin 512) (c : Fin 1) :
    matmul dot_S512x1024_S1024x1_S512x1_1_0_0_1_n_n none l r (constant (F := Ideal) S512x1 .f32 0x00000000#32) (ix2 p c)
      = ∑ k : Fin 1024, l (ix2 p k) * r (ix2 k c) := by
  simp only [matmul]
  rw [Ideal.matmul_constant_zero_apply, ← Equiv.sum_comp (contrEquiv1 dot_S512x1024_S1024x1_S512x1_1_0_0_1_n_n 1024 rfl rfl).symm]
  refine Finset.sum_congr rfl fun k _ => ?_
  rw [lidx_w, ridx_w]

/-- The host's product between the kernels (`[512, 1024]` times `[1024, 1024]`) at `(g, j)`. -/
theorem hostDot_apply (l : FVec Ideal S512x1024 .bf16) (r : FVec Ideal S1024x1024 .bf16) (g : Fin 512) (j : Fin 1024) :
    Host.dotGeneral dot_S512x1024_S1024x1024_S512x1024_1_0_0_1_n_n none l r (ix2 g j) = ∑ k : Fin 1024, l (ix2 g k) * r (ix2 k j) := by
  simp only [Host.dotGeneral]
  rw [Ideal.dotGeneral_apply, ← Equiv.sum_comp (contrEquiv1 dot_S512x1024_S1024x1024_S512x1024_1_0_0_1_n_n 1024 rfl rfl).symm]
  refine Finset.sum_congr rfl fun k _ => ?_
  rw [lidx_h, ridx_h]

/-! ## Layout operations on the index column, read at an index -/

/-- Column `0` of the index pairs … -/
theorem slice_col0_apply {α : Type} (v : S512x2.Idx → α) (h : S512x2.Slices ![0, 0] S512x1) (p : Fin 512) :
    extractStridedSlice S512x1 ![0, 0] v h (ix2 p 0) = v (ix2 p 0) :=
  extractStridedSlice_apply ![0, 0] v h (ix2 p 0) (ix2 p 0) fun a => by
    match a with
    | ⟨0, _⟩ => show p.val = 0 + p.val; rw [Nat.zero_add]
    | ⟨1, _⟩ => rfl
/-- … and column `1`, each sliced out as a `[512, 1]` array, read at row `p`. -/
theorem slice_col1_apply {α : Type} (v : S512x2.Idx → α) (h : S512x2.Slices ![0, 1] S512x1) (p : Fin 512) :
    extractStridedSlice S512x1 ![0, 1] v h (ix2 p 0) = v (ix2 p 1) :=
  extractStridedSlice_apply ![0, 1] v h (ix2 p 0) (ix2 p 1) fun a => by
    match a with
    | ⟨0, _⟩ => show p.val = 0 + p.val; rw [Nat.zero_add]
    | ⟨1, _⟩ => rfl

/-- A `[512, 1]` column flattened to `[512]` reads, at `p`, the column at `(p, 0)`. -/
theorem cast_flat_apply {α : Type} (v : S512x1.Idx → α) (h : S512x1.ShapeCasts S512) (p : Fin 512) :
    shapeCast S512 v h (ix1 p) = v (ix2 p 0) :=
  shapeCast_apply v h _ _ (by
    rw [Shape.rowMajor_val_two, Shape.rowMajor_val_one]
    show p.val * 1 + 0 = p.val
    rw [Nat.mul_one, Nat.add_zero])

/-- A `[512]` array viewed as a `[512, 1]` column reads, at `(p, 0)`, the array at `p`. -/
theorem cast_col_apply {α : Type} (v : S512.Idx → α) (h : S512.ShapeCasts S512x1) (p : Fin 512) :
    shapeCast S512x1 v h (ix2 p 0) = v (ix1 p) :=
  shapeCast_apply v h _ _ (by
    rw [Shape.rowMajor_val_two, Shape.rowMajor_val_one]
    show p.val = p.val * 1 + 0
    rw [Nat.mul_one, Nat.add_zero])

/-- A `[512, 1]` column broadcast along the lanes reads, at `(p, s)`, the column at `(p, 0)`. -/
theorem bcast_col_apply {α : Type} (v : S512x1.Idx → α) (h : S512x1.Broadcasts S512x512) (p s : Fin 512) :
    broadcastTo S512x512 v h (ix2 p s) = v (ix2 p 0) :=
  broadcastTo_apply v h (ix2 p s) (ix2 p 0) fun a => by
    match a with
    | ⟨0, _⟩ => show p.val = if (512 : Nat) = 1 then 0 else p.val; rw [if_neg (by decide)]
    | ⟨1, _⟩ => show (0 : Nat) = if (1 : Nat) = 1 then 0 else s.val; rw [if_pos rfl]

/-- The lane counter reads, at `(p, s)`, the word of `s`. -/
theorem iota_lane_apply (h : S512x512.Iotas .tc 32 [1]) (p s : Fin 512) :
    iota .tc S512x512 32 [1] h (ix2 p s) = BitVec.ofNat 32 s.val :=
  iota_single_apply .tc S512x512 32 1 h (ix2 p s)

/-- The integer operations are pointwise. -/
theorem mlp_maxsi_apply {s : Shape} {w : Nat} (a b : IVec s w) (i : s.Idx) : maxsi a b i = IntOp.maxsi (a i) (b i) := rfl
theorem mlp_minsi_apply {s : Shape} {w : Nat} (a b : IVec s w) (i : s.Idx) : minsi a b i = IntOp.minsi (a i) (b i) := rfl
theorem mlp_cmpi_apply {s : Shape} {w : Nat} (q : CmpIPredicate) (a b : IVec s w) (i : s.Idx) :
    cmpi q a b i = IntOp.cmpi q (a i) (b i) := rfl

/-! ## The clip and the one-hot entry, on words -/

/-- Clipping to `[0, 511]` (signed) is the identity on a word whose signed value is already there. -/
theorem clip_of_range (x : BitVec 32) (h : 0 ≤ x.toInt ∧ x.toInt < 512) :
    IntOp.minsi 511#32 (IntOp.maxsi 0#32 x) = x := by
  have e0 : (0#32 : BitVec 32).toInt = 0 := by decide
  have e511 : (511#32 : BitVec 32).toInt = 511 := by decide
  have hmax : IntOp.maxsi 0#32 x = x := by
    unfold IntOp.maxsi
    rw [if_neg]
    rw [BitVec.slt_iff_toInt_lt, e0]
    omega
  rw [hmax]
  unfold IntOp.minsi
  rw [if_neg]
  rw [BitVec.slt_iff_toInt_lt, e511]
  omega

/-- The one-hot entry: the compare bit of "lane `s` equals the word `x`", widened and converted, is `1` when `s` is the
    word's value and `0` otherwise. -/
theorem mlp_onehot_word (s : Fin 512) (x : BitVec 32) :
    (FloatOps.sitofp (F := Ideal) .f32 ((IntOp.cmpi .eq (BitVec.ofNat 32 s.val) x).setWidth 32) : Ideal .f32)
      = if s.val = x.toNat then 1 else 0 := by
  have hs : s.val < 2 ^ 32 := lt_trans s.isLt (by decide)
  by_cases hx : BitVec.ofNat 32 s.val = x
  · have hv : s.val = x.toNat := by rw [← hx, BitVec.toNat_ofNat, Nat.mod_eq_of_lt hs]
    rw [if_pos hv]
    have hb : IntOp.cmpi .eq (BitVec.ofNat 32 s.val) x = 1#1 := by
      unfold IntOp.cmpi
      rw [hx]
      simp
    rw [hb]
    show (((((1#1 : BitVec 1).setWidth 32).toInt : ℤ) : ℝ) : EReal) = 1
    have : ((1#1 : BitVec 1).setWidth 32).toInt = 1 := by decide
    rw [this, Int.cast_one, EReal.coe_one]
  · have hv : ¬ s.val = x.toNat := fun hv => hx (by rw [hv, BitVec.ofNat_toNat, BitVec.setWidth_eq])
    rw [if_neg hv]
    have hb : IntOp.cmpi .eq (BitVec.ofNat 32 s.val) x = 0#1 := by
      unfold IntOp.cmpi
      show BitVec.ofBool (BitVec.ofNat 32 s.val == x) = 0#1
      rw [beq_eq_false_iff_ne.mpr hx]
      rfl
    rw [hb]
    show (((((0#1 : BitVec 1).setWidth 32).toInt : ℤ) : ℝ) : EReal) = 0
    have : ((0#1 : BitVec 1).setWidth 32).toInt = 0 := by decide
    rw [this, Int.cast_zero, EReal.coe_zero]

/-- A sum against a one-hot row picks out one term: every other term is `0 * _`. -/
theorem sum_onehot {n : Nat} (i0 : Fin n) (f : Fin n → EReal) :
    ∑ k : Fin n, (if k.val = i0.val then (1 : EReal) else 0) * f k = f i0 := by
  rw [Finset.sum_eq_single i0]
  · rw [if_pos rfl, one_mul]
  · intro b _ hb
    rw [if_neg (fun h => hb (Fin.ext h)), zero_mul]
  · intro h
    exact absurd (Finset.mem_univ _) h

/-! ## The payloads -/

/-- The hidden activations at `(p, j)`: the two gathered rows and the bias, added, under `max · 0`. -/
theorem mlp_pay2_apply (ta tb : Vec Ideal S512x1024 .bf16) (idx : Vec Ideal S512x2 .i32) (b1 : Vec Ideal S1x1024 .f32)
    (p : Fin 512) (j : Fin 1024) (i0 i1 : Fin 512)
    (h0 : 0 ≤ (idx (ix2 p 0)).toInt ∧ (idx (ix2 p 0)).toInt < 512) (hi0 : (idx (ix2 p 0)).toNat = i0.val)
    (h1 : 0 ≤ (idx (ix2 p 1)).toInt ∧ (idx (ix2 p 1)).toInt < 512) (hi1 : (idx (ix2 p 1)).toNat = i1.val) :
    k1_pay2 ta tb idx b1 (ix2 p j) = max ((ta (ix2 i0 j) + tb (ix2 i1 j)) + b1 (ix2 0 j)) 0 := by
  unfold k1_pay2
  simp only [truncf_apply, maximumf_apply, addf_apply, broadcast_apply, broadcastTo_1b_ab_apply, shapeCast_self,
    matmul_g_apply]
  simp only [sitofp_apply, extui_apply, mlp_cmpi_apply, iota_lane_apply, bcast_col_apply, cast_col_apply, mlp_minsi_apply,
    mlp_maxsi_apply, broadcast_apply, cast_flat_apply, slice_col0_apply, slice_col1_apply]
  rw [clip_of_range _ h0, clip_of_range _ h1]
  have hio : ∀ s : Fin 512, iota Kind.tc S512x512 32 [1] iota_S512x512_d1_w32 (ix2 p s) = BitVec.ofNat 32 s.val :=
    fun s => iota_lane_apply _ p s
  simp only [hio, mlp_onehot_word]
  rw [hi0, hi1, sum_onehot i0 (fun k => ta (ix2 k j)), sum_onehot i1 (fun k => tb (ix2 k j))]
  rw [Ideal.ofBits_def, Ideal.ofBits_zero_f32]

/-- The second kernel's output at row `p`: the hidden activations of that row against the projection column, plus the
    output bias. -/
theorem mlp_payload
    (ta tb : Vec Ideal S512x1024 .bf16) (idx : Vec Ideal S512x2 .i32) (b1 : Vec Ideal S1x1024 .f32)
    (w2 : Vec Ideal S1024x1 .f32) (b2 : Vec Ideal S1x1 .f32) (p : Fin 512) (i0 i1 : Fin 512)
    (h0 : 0 ≤ (idx (ix2 p 0)).toInt ∧ (idx (ix2 p 0)).toInt < 512) (hi0 : (idx (ix2 p 0)).toNat = i0.val)
    (h1 : 0 ≤ (idx (ix2 p 1)).toInt ∧ (idx (ix2 p 1)).toInt < 512) (hi1 : (idx (ix2 p 1)).toNat = i1.val) :
    k1_pay1 (k1_pay2 ta tb idx b1) w2 b2 (ix2 p 0)
      = (∑ j : Fin 1024, max ((ta (ix2 i0 j) + tb (ix2 i1 j)) + b1 (ix2 0 j)) 0 * w2 (ix2 j 0)) + b2 (ix2 0 0) := by
  unfold k1_pay1
  simp only [addf_apply, broadcastTo_1b_ab_apply, shapeCast_self, matmul_w_apply, truncf_apply,
    mlp_pay2_apply ta tb idx b1 p _ i0 i1 h0 hi0 h1 hi1]

end Cert.KernelIdeal.Hand

end
-- ==== Proof.KI.Glue.lean ====
/-
  The host operations around the two kernels, read at an index over the extended reals: the segment ids broadcast
  to the first kernel's layout, the first layer's weight rows cut into a lower and an upper half, each half's product
  with the span means (a plain sum over the feature axis), and the two biases reshaped to rows.
-/
import proofs.«421061_j44530220925378_3_alg».proof.Proof.KI.Run
import proofs.«421061_j44530220925378_3_alg».proof.Proof.Spec
import proofs.«421061_j44530220925378_3_alg».proof.Proof.KI.MlpPayload
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]

/-! ## What each host stretch writes, as pure terms of what it found -/

theorem ops0_v0 (V : Valuation τ sig (Elt F)) :
    after hostOps0 V (main_v0 : DevRef τ sig)
      = broadcastInDim S8x1x4096 ![0, 2] bcast_S8x4096_S8x1x4096_0_2 (V (main_arg1 : DevRef τ sig)) := by
  after_results
theorem ops0_arg0 (V : Valuation τ sig (Elt F)) : after hostOps0 V (main_arg0 : DevRef τ sig) = V (main_arg0 : DevRef τ sig) := by
  after_results
theorem ops0_arg2 (V : Valuation τ sig (Elt F)) : after hostOps0 V (main_arg2 : DevRef τ sig) = V (main_arg2 : DevRef τ sig) := by
  after_results
theorem ops0_arg3 (V : Valuation τ sig (Elt F)) : after hostOps0 V (main_arg3 : DevRef τ sig) = V (main_arg3 : DevRef τ sig) := by
  after_results
theorem ops0_arg4 (V : Valuation τ sig (Elt F)) : after hostOps0 V (main_arg4 : DevRef τ sig) = V (main_arg4 : DevRef τ sig) := by
  after_results
theorem ops0_arg5 (V : Valuation τ sig (Elt F)) : after hostOps0 V (main_arg5 : DevRef τ sig) = V (main_arg5 : DevRef τ sig) := by
  after_results
theorem ops0_arg6 (V : Valuation τ sig (Elt F)) : after hostOps0 V (main_arg6 : DevRef τ sig) = V (main_arg6 : DevRef τ sig) := by
  after_results

theorem ops1_v6 (V : Valuation τ sig (Elt F)) :
    after hostOps1 V (main_v6 : DevRef τ sig)
      = truncf .bf16 (Host.dotGeneral dot_S512x1024_S1024x1024_S512x1024_1_0_0_1_n_n none (V (main_v1 : DevRef τ sig))
          (extractStridedSlice S1024x1024 ![0, 0] (truncf .bf16 (V (main_arg3 : DevRef τ sig)) bitsLt_bf16_f32) slices_S2048x1024_S1024x1024_0_0))
          bitsLt_bf16_f32 := by
  after_results
theorem ops1_v8 (V : Valuation τ sig (Elt F)) :
    after hostOps1 V (main_v8 : DevRef τ sig)
      = truncf .bf16 (Host.dotGeneral dot_S512x1024_S1024x1024_S512x1024_1_0_0_1_n_n none (V (main_v1 : DevRef τ sig))
          (extractStridedSlice S1024x1024 ![1024, 0] (truncf .bf16 (V (main_arg3 : DevRef τ sig)) bitsLt_bf16_f32) slices_S2048x1024_S1024x1024_1024_0))
          bitsLt_bf16_f32 := by
  after_results
theorem ops1_v9 (V : Valuation τ sig (Elt F)) :
    after hostOps1 V (main_v9 : DevRef τ sig) = shapeCast S1x1024 (V (main_arg4 : DevRef τ sig)) shapeCasts_S1024_S1x1024 := by
  after_results
  rfl
theorem ops1_v10 (V : Valuation τ sig (Elt F)) :
    after hostOps1 V (main_v10 : DevRef τ sig) = shapeCast S1x1 (V (main_arg6 : DevRef τ sig)) shapeCasts_S1_S1x1 := by
  after_results
  rfl
theorem ops1_arg2 (V : Valuation τ sig (Elt F)) : after hostOps1 V (main_arg2 : DevRef τ sig) = V (main_arg2 : DevRef τ sig) := by
  after_results
theorem ops1_arg5 (V : Valuation τ sig (Elt F)) : after hostOps1 V (main_arg5 : DevRef τ sig) = V (main_arg5 : DevRef τ sig) := by
  after_results

/-! ## The boundaries' contents read at an index, over the extended reals -/

section AtIdeal

variable (m : (ℓ : Loc nD τ sig) → Buf (Elt Ideal) ℓ) (ρ : Dev nD → PrngReg) (c : Dev nD)

/-- The first kernel finds the tokens as launched, -/
theorem V1_arg0 : V1 m ρ c main_arg0 = m ((c : Thread nD τ).loc main_arg0) :=
  ops0_arg0 (W0 m ρ c)
/-- and the segment ids of example `b` laid along the last axis. -/
theorem V1_v0_apply (b : Fin 8) (t : Fin 4096) :
    (V1 m ρ c main_v0 : S8x1x4096.Idx → BitVec 32) (ix3 b 0 t)
      = (m ((c : Thread nD τ).loc main_arg1) : S8x4096.Idx → BitVec 32) (ix2 b t) := by
  show after hostOps0 (W0 m ρ c) (main_v0 : DevRef τ sig) (ix3 b 0 t) = _
  rw [ops0_v0]
  exact broadcastInDim_apply ![0, 2] bcast_S8x4096_S8x1x4096_0_2 _ (ix3 b 0 t) (ix2 b t) (fun a => match a with
    | ⟨0, _⟩ => by show b.val = if (8 : Nat) = 1 then 0 else b.val; rw [if_neg (by decide)]
    | ⟨1, _⟩ => by show t.val = if (4096 : Nat) = 1 then 0 else t.val; rw [if_neg (by decide)])

/-- A buffer no window of the first kernel names and no host operation writes reaches the second kernel as launched. -/
theorem V3_arg2 : V3 m ρ c main_arg2 = m ((c : Thread nD τ).loc main_arg2) :=
  (ops1_arg2 (W2 m ρ c)).trans ((W2_of_ne m ρ c main_arg2 (by decide)).trans (ops0_arg2 (W0 m ρ c)))
theorem V3_arg5 : V3 m ρ c main_arg5 = m ((c : Thread nD τ).loc main_arg5) :=
  (ops1_arg5 (W2 m ρ c)).trans ((W2_of_ne m ρ c main_arg5 (by decide)).trans (ops0_arg5 (W0 m ρ c)))

theorem W2_arg3 : W2 m ρ c (main_arg3 : DevRef τ sig) = m ((c : Thread nD τ).loc main_arg3) :=
  (W2_of_ne m ρ c main_arg3 (by decide)).trans (ops0_arg3 (W0 m ρ c))
theorem W2_arg4 : W2 m ρ c (main_arg4 : DevRef τ sig) = m ((c : Thread nD τ).loc main_arg4) :=
  (W2_of_ne m ρ c main_arg4 (by decide)).trans (ops0_arg4 (W0 m ρ c))
theorem W2_arg6 : W2 m ρ c (main_arg6 : DevRef τ sig) = m ((c : Thread nD τ).loc main_arg6) :=
  (W2_of_ne m ρ c main_arg6 (by decide)).trans (ops0_arg6 (W0 m ρ c))

/-- The first bias as a row. -/
theorem V3_v9_apply (j : Fin 1024) :
    (V3 m ρ c main_v9 : S1x1024.Idx → EReal) (ix2 0 j) = (m ((c : Thread nD τ).loc main_arg4) : S1024.Idx → EReal) (ix1 j) := by
  show after hostOps1 (W2 m ρ c) (main_v9 : DevRef τ sig) (ix2 0 j) = _
  rw [ops1_v9, W2_arg4]
  exact shapeCast_apply _ shapeCasts_S1024_S1x1024 (ix2 0 j) (ix1 j)
    (by rewrite [Shape.rowMajor_val_one, Shape.rowMajor_val_two]; show j.val = 0 * 1024 + j.val; omega)
/-- The second bias as a one-by-one array. -/
theorem V3_v10_apply :
    (V3 m ρ c main_v10 : S1x1.Idx → EReal) (ix2 0 0) = (m ((c : Thread nD τ).loc main_arg6) : S1.Idx → EReal) (ix1 0) := by
  show after hostOps1 (W2 m ρ c) (main_v10 : DevRef τ sig) (ix2 0 0) = _
  rw [ops1_v10, W2_arg6]
  exact shapeCast_apply _ shapeCasts_S1_S1x1 (ix2 0 0) (ix1 0)
    (by rewrite [Shape.rowMajor_val_one, Shape.rowMajor_val_two]; rfl)

/-- The lower half of the weight rows against the span means, at an index: a plain sum over the feature axis. -/
theorem lo_apply (sm : FVec Ideal S512x1024 .bf16) (w : FVec Ideal S2048x1024 .f32) (g : Fin 512) (j : Fin 1024) :
    (truncf .bf16 (Host.dotGeneral dot_S512x1024_S1024x1024_S512x1024_1_0_0_1_n_n none sm
        (extractStridedSlice S1024x1024 ![0, 0] (truncf .bf16 w bitsLt_bf16_f32) slices_S2048x1024_S1024x1024_0_0)) bitsLt_bf16_f32
      : FVec Ideal S512x1024 .bf16) (ix2 g j)
      = ∑ k : Fin 1024, sm (ix2 g k) * w (ix2 (Cert.Spec.loRow k) j) := by
  rw [truncf_apply, hostDot_apply]
  refine Finset.sum_congr rfl fun k _ => ?_
  rw [extractStridedSlice_apply ![0, 0] _ slices_S2048x1024_S1024x1024_0_0 (ix2 k j) (ix2 (Cert.Spec.loRow k) j) (fun a => match a with
    | ⟨0, _⟩ => by show k.val = 0 + k.val; omega
    | ⟨1, _⟩ => by show j.val = 0 + j.val; omega), truncf_apply]
/-- The upper half. -/
theorem hi_apply (sm : FVec Ideal S512x1024 .bf16) (w : FVec Ideal S2048x1024 .f32) (g : Fin 512) (j : Fin 1024) :
    (truncf .bf16 (Host.dotGeneral dot_S512x1024_S1024x1024_S512x1024_1_0_0_1_n_n none sm
        (extractStridedSlice S1024x1024 ![1024, 0] (truncf .bf16 w bitsLt_bf16_f32) slices_S2048x1024_S1024x1024_1024_0)) bitsLt_bf16_f32
      : FVec Ideal S512x1024 .bf16) (ix2 g j)
      = ∑ k : Fin 1024, sm (ix2 g k) * w (ix2 (Cert.Spec.hiRow k) j) := by
  rw [truncf_apply, hostDot_apply]
  refine Finset.sum_congr rfl fun k _ => ?_
  rw [extractStridedSlice_apply ![1024, 0] _ slices_S2048x1024_S1024x1024_1024_0 (ix2 k j) (ix2 (Cert.Spec.hiRow k) j) (fun a => match a with
    | ⟨0, _⟩ => by show 1024 + k.val = 1024 + k.val; rfl
    | ⟨1, _⟩ => by show j.val = 0 + j.val; omega), truncf_apply]

/-- The span means as the first kernel leaves them, the launch contents of the weights, and the two products, as
    arrays of extended reals. -/
abbrev meanArr : FVec Ideal S512x1024 .bf16 := (dat0 (V1 m ρ) c).arrAt 2 cfg0.N
abbrev w1Arr : FVec Ideal S2048x1024 .f32 := m ((c : Thread nD τ).loc main_arg3)
abbrev loArr : FVec Ideal S512x1024 .bf16 := V3 m ρ c main_v6
abbrev hiArr : FVec Ideal S512x1024 .bf16 := V3 m ρ c main_v8

theorem W2_v1 : W2 m ρ c (main_v1 : DevRef τ sig) = (dat0 (V1 m ρ) c).arrAt 2 cfg0.N := W2_arr m ρ c 2

theorem loArr_eq : loArr m ρ c
    = truncf .bf16 (Host.dotGeneral dot_S512x1024_S1024x1024_S512x1024_1_0_0_1_n_n none (meanArr m ρ c)
        (extractStridedSlice S1024x1024 ![0, 0] (truncf .bf16 (w1Arr m c) bitsLt_bf16_f32) slices_S2048x1024_S1024x1024_0_0)) bitsLt_bf16_f32 := by
  have e := ops1_v6 (W2 m ρ c)
  rw [W2_arg3, W2_v1] at e
  exact e
theorem hiArr_eq : hiArr m ρ c
    = truncf .bf16 (Host.dotGeneral dot_S512x1024_S1024x1024_S512x1024_1_0_0_1_n_n none (meanArr m ρ c)
        (extractStridedSlice S1024x1024 ![1024, 0] (truncf .bf16 (w1Arr m c) bitsLt_bf16_f32) slices_S2048x1024_S1024x1024_1024_0)) bitsLt_bf16_f32 := by
  have e := ops1_v8 (W2 m ρ c)
  rw [W2_arg3, W2_v1] at e
  exact e

/-- The lower half's product: row `g` of the span means against the lower weight rows. -/
theorem V3_v6_apply (g : Fin 512) (j : Fin 1024) :
    loArr m ρ c (ix2 g j) = ∑ k : Fin 1024, meanArr m ρ c (ix2 g k) * w1Arr m c (ix2 (Cert.Spec.loRow k) j) :=
  (congrFun (loArr_eq m ρ c) (ix2 g j)).trans (lo_apply (meanArr m ρ c) (w1Arr m c) g j)
/-- The upper half's product. -/
theorem V3_v8_apply (g : Fin 512) (j : Fin 1024) :
    hiArr m ρ c (ix2 g j) = ∑ k : Fin 1024, meanArr m ρ c (ix2 g k) * w1Arr m c (ix2 (Cert.Spec.hiRow k) j) :=
  (congrFun (hiArr_eq m ρ c) (ix2 g j)).trans (hi_apply (meanArr m ρ c) (w1Arr m c) g j)

end AtIdeal

end Cert.KernelIdeal.Hand

end
-- ==== Proof.KI.SpanPayload.lean ====
/-
  The first kernel's payloads at the extended reals, read at an index.

  The kernel pools token features by span: for each of 64 span rows it builds the one-hot row
  (span id of token t = row) of a tile of 2048 tokens, multiplies it into the tile's features and into
  a column of ones, and accumulates both over two tiles into scratch buffers that start at zero; at
  the end it divides the feature sums by max(count, 1). Here each payload is read at one index as
  the corresponding finite sum, and the specification's sums over 4096 tokens are split into the two
  tiles' sums over 2048 tokens.
-/
import proofs.«421061_j44530220925378_3_alg».proof.Proof.Gen.KernelIdeal.Skeleton
import proofs.«421061_j44530220925378_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## Words: the clamp and the one-hot entry -/

/-- Clamping into [0, 63] a signed word that already lies in [0, 64) changes nothing. -/
theorem clip_eq (w : BitVec 32) (h0 : 0 ≤ w.toInt) (h1 : w.toInt < 64) :
    IntOp.minsi 63#32 (IntOp.maxsi 0#32 w) = w := by
  have e0 : (0#32 : BitVec 32).toInt = 0 := by decide
  have e63 : (63#32 : BitVec 32).toInt = 63 := by decide
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e63]
  omega

/-- The one-hot entry: the row number compared with the clamped span id, widened and converted, is
    one where the span id is the row and zero elsewhere. -/
theorem onehot_word (w : BitVec 32) (h0 : 0 ≤ w.toInt) (h1 : w.toInt < 64) (s : Fin 64) :
    FloatOps.sitofp (F := Ideal) .f32
        ((IntOp.cmpi .eq (BitVec.ofNat 32 s.val) (IntOp.minsi 63#32 (IntOp.maxsi 0#32 w))).setWidth 32)
      = if w.toNat = s.val then (1 : EReal) else 0 := by
  rw [clip_eq w h0 h1]
  have hs : (BitVec.ofNat 32 s.val).toNat = s.val := by
    rw [BitVec.toNat_ofNat]
    exact Nat.mod_eq_of_lt (by have := s.isLt; omega)
  show ((((BitVec.ofBool (BitVec.ofNat 32 s.val == w)).setWidth 32).toInt : ℝ) : EReal) = _
  by_cases h : w.toNat = s.val
  · have e : BitVec.ofNat 32 s.val = w := BitVec.eq_of_toNat_eq (by rw [hs, h])
    rw [if_pos h, e]
    simp
  · have e : ¬ BitVec.ofNat 32 s.val = w := fun e => h (by rw [← e, hs])
    have eb : (BitVec.ofNat 32 s.val == w) = false := beq_eq_false_iff_ne.mpr e
    rw [if_neg h, eb]
    simp

/-! ## The integer operations and the layout steps of the one-hot block, at an index -/

section AtIndex
variable {σ : Shape} {w : Nat}

/-- A signed maximum at an index is the maximum of the elements. -/
theorem maxsi_apply (x y : IVec σ w) (i : σ.Idx) : maxsi x y i = IntOp.maxsi (x i) (y i) := rfl
/-- A signed minimum at an index is the minimum of the elements. -/
theorem minsi_apply (x y : IVec σ w) (i : σ.Idx) : minsi x y i = IntOp.minsi (x i) (y i) := rfl
/-- An integer comparison at an index compares the elements. -/
theorem cmpi_apply (p : CmpIPredicate) (x y : IVec σ w) (i : σ.Idx) : cmpi p x y i = IntOp.cmpi p (x i) (y i) := rfl

end AtIndex

/-- A [1, 1, a] array cast to [a] reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- The row iota of the [64, 2048] block reads the row number. -/
theorem iota_row (s : Fin 64) (t : Fin 2048) :
    iota .tc S64x2048 32 [0] iota_S64x2048_d0_w32 (ix2 s t) = BitVec.ofNat 32 s.val :=
  iota_single_apply .tc S64x2048 32 0 iota_S64x2048_d0_w32 (ix2 s t)

/-- A [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE ONE-HOT BLOCK at (row s, token t): one where the token's span id is s, zero elsewhere,
    for span ids in [0, 64). -/
theorem pay4_apply (x1 : Vec Ideal S1x1x2048 .i32)
    (hr : ∀ t : Fin 2048, 0 ≤ (x1 (ix3 0 0 t)).toInt ∧ (x1 (ix3 0 0 t)).toInt < 64)
    (s : Fin 64) (t : Fin 2048) :
    k0_pay4 x1 (ix2 s t) = if (x1 (ix3 0 0 t)).toNat = s.val then (1 : EReal) else 0 := by
  unfold k0_pay4
  simp only [truncf_apply, sitofp_apply, extui_apply, cmpi_apply, minsi_apply, maxsi_apply, broadcast_apply,
    iota_row, broadcastTo_1b_ab_apply, shapeCast_self, shapeCast_a_1a_apply, shapeCast_11a_a_apply]
  rw [iota_row]
  exact onehot_word _ (hr t).1 (hr t).2 s

/-! ## The two products read at an index -/

/-- The left operand's index of this product has the output's row on axis 0 ... -/
theorem lhsF_0 (i : S64x1024.Idx) (q : dot_S64x2048_S2048x1024_S64x1024_1_0_0_1_n_n.contr.Idx) :
    (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide), dif_pos (show (0 : Fin S64x2048.rank) ∈ dot_S64x2048_S2048x1024_S64x1024_1_0_0_1_n_n.lhsNonContracting by decide)]
  rfl
/-- ... and the contraction coordinate on axis 1. -/
theorem lhsF_1 (i : S64x1024.Idx) (q : dot_S64x2048_S2048x1024_S64x1024_1_0_0_1_n_n.contr.Idx) :
    (dot_S64x2048_S2048x1024_S64x1024_1_0_0_1_n_n.lhsIdx i q 1).val = (q ⟨0, by decide⟩).val :=
  dot_S64x2048_S2048x1024_S64x1024_1_0_0_1_n_n.lhsIdx_val_of_single rfl i q
/-- The right operand's index has the contraction coordinate on axis 0 ... -/
theorem rhsF_0 (i : S64x1024.Idx) (q : dot_S64x2048_S2048x1024_S64x1024_1_0_0_1_n_n.contr.Idx) :
    (dot_S64x2048_S2048x1024_S64x1024_1_0_0_1_n_n.rhsIdx i q 0).val = (q ⟨0, by decide⟩).val :=
  dot_S64x2048_S2048x1024_S64x1024_1_0_0_1_n_n.rhsIdx_val_of_single rfl i q
/-- ... and the output's column on axis 1. -/
theorem rhsF_1 (i : S64x1024.Idx) (q : dot_S64x2048_S2048x1024_S64x1024_1_0_0_1_n_n.contr.Idx) :
    (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide), dif_pos (show (1 : Fin S2048x1024.rank) ∈ dot_S64x2048_S2048x1024_S64x1024_1_0_0_1_n_n.rhsNonContracting by decide)]
  rfl

/-- The [64, 2048] × [2048, 1024] product into a zero accumulator, at (s, c): the sum over the 2048 tokens of
    the left operand at (s, t) times the right operand at (t, c). -/
theorem matmulF_apply (lhs : FVec Ideal S64x2048 .bf16) (rhs : FVec Ideal S2048x1024 .bf16) (s : Fin 64) (c : Fin 1024) :
    matmul dot_S64x2048_S2048x1024_S64x1024_1_0_0_1_n_n none lhs rhs (constant (F := Ideal) S64x1024 .f32 0x00000000#32) (ix2 s c)
      = ∑ t : Fin 2048, lhs (ix2 s t) * rhs (ix2 t c) := by
  simp only [matmul]
  rw [Ideal.matmul_constant_zero_apply, ← Equiv.sum_comp (contrEquiv1 dot_S64x2048_S2048x1024_S64x1024_1_0_0_1_n_n 2048 rfl rfl).symm]
  refine Finset.sum_congr rfl fun k _ => ?_
  have hk := contrEquiv1_symm_val dot_S64x2048_S2048x1024_S64x1024_1_0_0_1_n_n 2048 rfl rfl k
  have el : dot_S64x2048_S2048x1024_S64x1024_1_0_0_1_n_n.lhsIdx (ix2 s c) ((contrEquiv1 dot_S64x2048_S2048x1024_S64x1024_1_0_0_1_n_n 2048 rfl rfl).symm k) = ix2 s k := funext fun a => Fin.ext (by
    match a with
    | ⟨0, _⟩ => exact lhsF_0 _ _
    | ⟨1, _⟩ => exact (lhsF_1 _ _).trans hk)
  have er : dot_S64x2048_S2048x1024_S64x1024_1_0_0_1_n_n.rhsIdx (ix2 s c) ((contrEquiv1 dot_S64x2048_S2048x1024_S64x1024_1_0_0_1_n_n 2048 rfl rfl).symm k) = ix2 k c := funext fun a => Fin.ext (by
    match a with
    | ⟨0, _⟩ => exact (rhsF_0 _ _).trans hk
    | ⟨1, _⟩ => exact rhsF_1 _ _)
  rw [el, er]

/-- The left operand's index of this product has the output's row on axis 0 ... -/
theorem lhsC_0 (i : S64x128.Idx) (q : dot_S64x2048_S2048x128_S64x128_1_0_0_1_n_n.contr.Idx) :
    (dot_S64x2048_S2048x128_S64x128_1_0_0_1_n_n.lhsIdx i q 0).val = (i 0).val := by
  unfold DotDims.lhsIdx
  rw [dif_neg (show ¬(0 : Fin S64x2048.rank) ∈ dot_S64x2048_S2048x128_S64x128_1_0_0_1_n_n.lhsBatch by decide), dif_pos (show (0 : Fin S64x2048.rank) ∈ dot_S64x2048_S2048x128_S64x128_1_0_0_1_n_n.lhsNonContracting by decide)]
  rfl
/-- ... and the contraction coordinate on axis 1. -/
theorem lhsC_1 (i : S64x128.Idx) (q : dot_S64x2048_S2048x128_S64x128_1_0_0_1_n_n.contr.Idx) :
    (dot_S64x2048_S2048x128_S64x128_1_0_0_1_n_n.lhsIdx i q 1).val = (q ⟨0, by decide⟩).val :=
  dot_S64x2048_S2048x128_S64x128_1_0_0_1_n_n.lhsIdx_val_of_single rfl i q
/-- The right operand's index has the contraction coordinate on axis 0 ... -/
theorem rhsC_0 (i : S64x128.Idx) (q : dot_S64x2048_S2048x128_S64x128_1_0_0_1_n_n.contr.Idx) :
    (dot_S64x2048_S2048x128_S64x128_1_0_0_1_n_n.rhsIdx i q 0).val = (q ⟨0, by decide⟩).val :=
  dot_S64x2048_S2048x128_S64x128_1_0_0_1_n_n.rhsIdx_val_of_single rfl i q
/-- ... and the output's column on axis 1. -/
theorem rhsC_1 (i : S64x128.Idx) (q : dot_S64x2048_S2048x128_S64x128_1_0_0_1_n_n.contr.Idx) :
    (dot_S64x2048_S2048x128_S64x128_1_0_0_1_n_n.rhsIdx i q 1).val = (i 1).val := by
  unfold DotDims.rhsIdx
  rw [dif_neg (show ¬(1 : Fin S2048x128.rank) ∈ dot_S64x2048_S2048x128_S64x128_1_0_0_1_n_n.rhsBatch by decide), dif_pos (show (1 : Fin S2048x128.rank) ∈ dot_S64x2048_S2048x128_S64x128_1_0_0_1_n_n.rhsNonContracting by decide)]
  rfl

/-- The [64, 2048] × [2048, 128] product into a zero accumulator, at (s, c): the sum over the 2048 tokens of
    the left operand at (s, t) times the right operand at (t, c). -/
theorem matmulC_apply (lhs : FVec Ideal S64x2048 .bf16) (rhs : FVec Ideal S2048x128 .bf16) (s : Fin 64) (c : Fin 128) :
    matmul dot_S64x2048_S2048x128_S64x128_1_0_0_1_n_n none lhs rhs (constant (F := Ideal) S64x128 .f32 0x00000000#32) (ix2 s c)
      = ∑ t : Fin 2048, lhs (ix2 s t) * rhs (ix2 t c) := by
  simp only [matmul]
  rw [Ideal.matmul_constant_zero_apply, ← Equiv.sum_comp (contrEquiv1 dot_S64x2048_S2048x128_S64x128_1_0_0_1_n_n 2048 rfl rfl).symm]
  refine Finset.sum_congr rfl fun k _ => ?_
  have hk := contrEquiv1_symm_val dot_S64x2048_S2048x128_S64x128_1_0_0_1_n_n 2048 rfl rfl k
  have el : dot_S64x2048_S2048x128_S64x128_1_0_0_1_n_n.lhsIdx (ix2 s c) ((contrEquiv1 dot_S64x2048_S2048x128_S64x128_1_0_0_1_n_n 2048 rfl rfl).symm k) = ix2 s k := funext fun a => Fin.ext (by
    match a with
    | ⟨0, _⟩ => exact lhsC_0 _ _
    | ⟨1, _⟩ => exact (lhsC_1 _ _).trans hk)
  have er : dot_S64x2048_S2048x128_S64x128_1_0_0_1_n_n.rhsIdx (ix2 s c) ((contrEquiv1 dot_S64x2048_S2048x128_S64x128_1_0_0_1_n_n 2048 rfl rfl).symm k) = ix2 k c := funext fun a => Fin.ext (by
    match a with
    | ⟨0, _⟩ => exact (rhsC_0 _ _).trans hk
    | ⟨1, _⟩ => exact rhsC_1 _ _)
  rw [el, er]

/-! ## The payloads read at an index -/

/-- The bf16 word of the ones column denotes one. -/
theorem one_bf16 : FloatOps.ofBits (F := Ideal) .bf16 0x3F80#16 = (1 : EReal) :=
  IdealRules.sign_bit.ideal_onePat .bf16
/-- The f32 word the divisor is compared with denotes one. -/
theorem one_f32 : FloatOps.ofBits (F := Ideal) .f32 0x3F800000#32 = (1 : EReal) :=
  IdealRules.sign_bit.ideal_onePat .f32
/-- The f32 zero word denotes zero. -/
theorem zero_f32 : FloatOps.ofBits (F := Ideal) .f32 0x00000000#32 = (0 : EReal) :=
  Ideal.ofBits_zero_f32

/-- The feature scratch starts at zero. -/
theorem pay2_apply (s : Fin 64) (h : Fin 1024) : k0_pay2 (F := Ideal) (ix2 s h) = (0 : EReal) := by
  unfold k0_pay2
  simp only [shapeCast_self, broadcast_apply]
  exact zero_f32

/-- The count scratch starts at zero. -/
theorem pay3_apply (s : Fin 64) (c : Fin 128) : k0_pay3 (F := Ideal) (ix2 s c) = (0 : EReal) := by
  unfold k0_pay3
  simp only [shapeCast_self, broadcast_apply]
  exact zero_f32

/-- ONE TILE'S FEATURE STEP at (row s, feature h): the scratch value plus the sum of the tile's token
    features over the tokens whose span id is s. -/
theorem pay5_apply (x0 : Vec Ideal S1x2048x1024 .f32) (x1 : Vec Ideal S1x1x2048 .i32) (acc : Vec Ideal S64x1024 .f32)
    (hr : ∀ t : Fin 2048, 0 ≤ (x1 (ix3 0 0 t)).toInt ∧ (x1 (ix3 0 0 t)).toInt < 64)
    (s : Fin 64) (h : Fin 1024) :
    k0_pay5 x0 x1 acc (ix2 s h)
      = acc (ix2 s h) + ∑ t : Fin 2048, if (x1 (ix3 0 0 t)).toNat = s.val then x0 (ix3 0 t h) else 0 := by
  unfold k0_pay5
  simp only [shapeCast_self, addf_apply, matmulF_apply, pay4_apply x1 hr, truncf_apply, shapeCast_1ab_ab_apply,
    ite_mul, one_mul, zero_mul]

/-- ONE TILE'S COUNT STEP at (row s, any column c): the scratch value plus the number of the tile's
    tokens whose span id is s. -/
theorem pay6_apply (x1 : Vec Ideal S1x1x2048 .i32) (acc : Vec Ideal S64x128 .f32)
    (hr : ∀ t : Fin 2048, 0 ≤ (x1 (ix3 0 0 t)).toInt ∧ (x1 (ix3 0 0 t)).toInt < 64)
    (s : Fin 64) (c : Fin 128) :
    k0_pay6 x1 acc (ix2 s c)
      = acc (ix2 s c) + ∑ t : Fin 2048, if (x1 (ix3 0 0 t)).toNat = s.val then (1 : EReal) else 0 := by
  unfold k0_pay6
  simp only [shapeCast_self, addf_apply, matmulC_apply, pay4_apply x1 hr, broadcast_apply, one_bf16, mul_one]

/-- THE FINAL DIVISION at (row s, feature h): the feature sum over the count column's entry, the
    divisor not below one. -/
theorem pay1_apply (v36 : Vec Ideal S64x1 .f32) (v41 : Vec Ideal S64x1024 .f32) (s : Fin 64) (h : Fin 1024) :
    k0_pay1 v36 v41 (ix2 s h) = Ideal.div (v41 (ix2 s h)) (max (v36 (ix2 s 0)) 1) := by
  unfold k0_pay1
  simp only [truncf_apply, divf_apply, broadcastTo_a1_ab_apply, shapeCast_self, maximumf_apply, broadcast_apply, one_f32]

/-- THE SPAN MEANS the first kernel stores, at (row s, feature h), after the two tiles a and b: the sum of both
    tiles' features over the tokens of span s, over the larger of their number and one. -/
theorem span_payload
    (x0a x0b : Vec Ideal S1x2048x1024 .f32) (x1a x1b : Vec Ideal S1x1x2048 .i32)
    (hra : ∀ t : Fin 2048, 0 ≤ (x1a (ix3 0 0 t)).toInt ∧ (x1a (ix3 0 0 t)).toInt < 64)
    (hrb : ∀ t : Fin 2048, 0 ≤ (x1b (ix3 0 0 t)).toInt ∧ (x1b (ix3 0 0 t)).toInt < 64)
    (v36 : Vec Ideal S64x1 .f32)
    (hv36 : ∀ s : Fin 64, v36 (ix2 s 0) = k0_pay6 x1b (k0_pay6 x1a (k0_pay3 (F := Ideal))) (ix2 s 0))
    (s : Fin 64) (h : Fin 1024) :
    k0_pay1 v36 (k0_pay5 x0b x1b (k0_pay5 x0a x1a (k0_pay2 (F := Ideal)))) (ix2 s h)
      = Ideal.div
          ((∑ t : Fin 2048, if (x1a (ix3 0 0 t)).toNat = s.val then x0a (ix3 0 t h) else 0)
            + ∑ t : Fin 2048, if (x1b (ix3 0 0 t)).toNat = s.val then x0b (ix3 0 t h) else 0)
          (max ((∑ t : Fin 2048, if (x1a (ix3 0 0 t)).toNat = s.val then (1 : EReal) else 0)
            + ∑ t : Fin 2048, if (x1b (ix3 0 0 t)).toNat = s.val then (1 : EReal) else 0) 1) := by
  rw [pay1_apply, hv36 s, pay5_apply x0b x1b _ hrb, pay5_apply x0a x1a _ hra, pay2_apply,
    pay6_apply x1b _ hrb, pay6_apply x1a _ hra, pay3_apply, zero_add, zero_add]

/-! ## The specification's sums over 4096 tokens as two tiles of 2048 -/

/-- A sum over 4096 positions is the sum over the first 2048 plus the sum over the last 2048. -/
theorem sum_two_tiles (f : Fin 4096 → EReal) :
    ∑ t : Fin 4096, f t
      = (∑ t : Fin 2048, f ⟨t.val, by omega⟩) + ∑ t : Fin 2048, f ⟨2048 + t.val, by omega⟩ :=
  Fin.sum_univ_add (a := 2048) (b := 2048) f

/-- A global segment's feature sum, by tiles. -/
theorem segSum_split (seg : Fin 8 → Fin 4096 → ℕ) (tok : Fin 8 → Fin 4096 → Fin 1024 → EReal) (g : Fin 512) (h : Fin 1024) :
    Cert.Spec.segSum seg tok g h
      = (∑ t : Fin 2048, if seg (Cert.Spec.exOf g) ⟨t.val, by omega⟩ = g.val % 64 then tok (Cert.Spec.exOf g) ⟨t.val, by omega⟩ h else 0)
        + ∑ t : Fin 2048, if seg (Cert.Spec.exOf g) ⟨2048 + t.val, by omega⟩ = g.val % 64 then tok (Cert.Spec.exOf g) ⟨2048 + t.val, by omega⟩ h else 0 := by
  unfold Cert.Spec.segSum
  exact sum_two_tiles _

/-- A global segment's size, by tiles. -/
theorem segCnt_split (seg : Fin 8 → Fin 4096 → ℕ) (g : Fin 512) :
    Cert.Spec.segCnt seg g
      = (∑ t : Fin 2048, if seg (Cert.Spec.exOf g) ⟨t.val, by omega⟩ = g.val % 64 then (1 : EReal) else 0)
        + ∑ t : Fin 2048, if seg (Cert.Spec.exOf g) ⟨2048 + t.val, by omega⟩ = g.val % 64 then (1 : EReal) else 0 := by
  unfold Cert.Spec.segCnt
  exact sum_two_tiles _

end Cert.KernelIdeal.Hand

end
-- ==== Proof.KI.R0Value.lean ====
/-
  The output array of the first pallas_call after its region, read at an index, at the ideal semantics: row g,
  feature h is the span mean of global segment g.

  Row g = 64·b + s lies in the output block (b, 0), which position 2b + 1 writes back. That block holds the sums
  accumulated over the two token tiles of example b (positions 2b and 2b + 1, rows 0..2047 and 2048..4095)
  divided by the accumulated counts' first column; each tile's block is read off the arrays where its rectangle
  says, and the specification's sums over 4096 positions split into the two tiles' sums.
-/
import proofs.«421061_j44530220925378_3_alg».proof.Proof.KI.R0
import proofs.«421061_j44530220925378_3_alg».proof.Proof.KI.SpanPayload
import proofs.«421061_j44530220925378_3_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The payload of two tiles against the specification, over abstract blocks -/

/-- If the two tiles' token blocks and segment-id blocks are the two halves of example `exOf g`'s rows, the block the
    kernel stores at row `g mod 64` is the span mean of global segment `g`: the kernel's two half sums are the
    specification's sums over 4096 positions split in two. -/
theorem span_of_blocks (segw : Fin 8 → Fin 4096 → BitVec 32) (tok : Fin 8 → Fin 4096 → Fin 1024 → EReal)
    (hseg : ∀ (b : Fin 8) (t : Fin 4096), 0 ≤ (segw b t).toInt ∧ (segw b t).toInt < 64)
    (x0a x0b : Vec Ideal S1x2048x1024 .f32) (x1a x1b : Vec Ideal S1x1x2048 .i32)
    (g : Fin 512) (s : Fin 64) (hs : g.val % 64 = s.val)
    (e0a : ∀ (tt : Fin 2048) (h : Fin 1024), x0a (ix3 0 tt h) = tok (Cert.Spec.exOf g) ⟨tt.val, by omega⟩ h)
    (e0b : ∀ (tt : Fin 2048) (h : Fin 1024), x0b (ix3 0 tt h) = tok (Cert.Spec.exOf g) ⟨2048 + tt.val, by omega⟩ h)
    (e1a : ∀ tt : Fin 2048, x1a (ix3 0 0 tt) = segw (Cert.Spec.exOf g) ⟨tt.val, by omega⟩)
    (e1b : ∀ tt : Fin 2048, x1b (ix3 0 0 tt) = segw (Cert.Spec.exOf g) ⟨2048 + tt.val, by omega⟩)
    (v36 : Vec Ideal S64x1 .f32)
    (hv36 : ∀ s : Fin 64, v36 (ix2 s 0) = k0_pay6 x1b (k0_pay6 x1a (k0_pay3 (F := Ideal))) (ix2 s 0))
    (h : Fin 1024) :
    k0_pay1 v36 (k0_pay5 x0b x1b (k0_pay5 x0a x1a (k0_pay2 (F := Ideal)))) (ix2 s h)
      = Cert.Spec.spanMean (fun b t => (segw b t).toNat) tok g h := by
  rw [span_payload x0a x0b x1a x1b (fun tt => by rw [e1a]; exact hseg _ _) (fun tt => by rw [e1b]; exact hseg _ _) v36 hv36 s h]
  unfold Cert.Spec.spanMean
  rw [segSum_split, segCnt_split, hs]
  simp only [e0a, e0b, e1a, e1b]

/-! ## The arrays and the blocks -/

variable (V : (c : Dev nD) → (b : Ref sig .tc) → Buf (Elt Ideal) ((c : Thread nD τ).loc b))

/-- The tokens, as the region finds them. -/
abbrev tokArr (c : Dev nD) : S8x4096x1024.Idx → EReal := V c main_arg0
/-- The segment ids (with their unit middle axis), as the region finds them. -/
abbrev segArr (c : Dev nD) : IVec S8x1x4096 32 := V c main_v0

/-- The printed index maps over the grid: the tokens' block at position `t` is (t/2, t mod 2, 0), the ids' block
    (t/2, 0, t mod 2), the output's block (t/2, 0). -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 2) = t.val / 2 ∧ win0_2.index t (1 : Fin 2) = 0 :=
  (by decide +kernel : ∀ t : Fin grid0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 2) = t.val / 2 ∧ win0_2.index t (1 : Fin 2) = 0)

/-- The tokens' block at position `t`: element (0, tt, h) is the tokens at (t/2, 2048·(t mod 2) + tt, h). -/
theorem xtok_apply (c : Dev nD) (t : Fin cfg0.N) (b : Fin 8) (p : Fin 4096) (tt : Fin 2048) (h : Fin 1024)
    (hb : b.val = t.val / 2) (hp : p.val = 2048 * (t.val % 2) + tt.val) :
    xtok V c t (ix3 0 tt h) = tokArr V c (ix3 b p h) := by
  obtain ⟨e0, e1, e2, -⟩ := idx_facts0 t
  show tokArr V c (((cfg0.win 0).blk t).view.emb (ix3 0 tt h)) = tokArr V c (ix3 b p h)
  refine congrArg (tokArr V c) ?_
  funext a; apply Fin.ext
  match a with
  | ⟨0, _⟩ => show win0_0.index t (0 : Fin 3) * 1 + 1 * (0 : Fin 1).val = b.val; rw [e0, hb]; simp
  | ⟨1, _⟩ => show win0_0.index t (1 : Fin 3) * 2048 + 1 * tt.val = p.val; rw [e1, hp]; omega
  | ⟨2, _⟩ => show win0_0.index t (2 : Fin 3) * 1024 + 1 * h.val = h.val; rw [e2]; omega

/-- The ids' block at position `t`: element (0, 0, tt) is the ids at (t/2, 0, 2048·(t mod 2) + tt). -/
theorem xseg_apply (c : Dev nD) (t : Fin cfg0.N) (b : Fin 8) (p : Fin 4096) (tt : Fin 2048)
    (hb : b.val = t.val / 2) (hp : p.val = 2048 * (t.val % 2) + tt.val) :
    xseg V c t (ix3 0 0 tt) = segArr V c (ix3 b 0 p) := by
  obtain ⟨-, -, -, e0, e1, e2, -⟩ := idx_facts0 t
  show segArr V c (((cfg0.win 1).blk t).view.emb (ix3 0 0 tt)) = segArr V c (ix3 b 0 p)
  refine congrArg (segArr V c) ?_
  funext a; apply Fin.ext
  match a with
  | ⟨0, _⟩ => show win0_1.index t (0 : Fin 3) * 1 + 1 * (0 : Fin 1).val = b.val; rw [e0, hb]; simp
  | ⟨1, _⟩ => show win0_1.index t (1 : Fin 3) * 1 + 1 * (0 : Fin 1).val = (0 : Fin 1).val; rw [e1]; simp
  | ⟨2, _⟩ => show win0_1.index t (2 : Fin 3) * 2048 + 1 * tt.val = p.val; rw [e2, hp]; omega

/-- The first column of the counts, read at row `s`. -/
theorem ld_rcol (X : Vec Ideal S64x128 .f32) (s : Fin 64) : View.ld X rcol (ix2 s 0) = X (ix2 s 0) := by
  show X (rcol.idx (ix2 s 0)) = X (ix2 s 0)
  refine congrArg X ?_
  funext a; apply Fin.ext
  match a with
  | ⟨0, _⟩ => show 0 + 1 * s.val = s.val; omega
  | ⟨1, _⟩ => show 0 + 1 * (0 : Fin 1).val = (0 : Fin 128).val; simp

/-! ## From blocks to the array -/

/-- The span means as one array: row `g`, feature `h`. -/
def spanArr (c : Dev nD) : S512x1024.Idx → EReal := fun i =>
  Cert.Spec.spanMean (fun b t => (segArr V c (ix3 b 0 t)).toNat) (fun b t h => tokArr V c (ix3 b t h)) (i 0) (i 1)

/-- What an odd position `t = 2b + 1` writes back is rows 64·b … 64·b + 63 of the span means. -/
theorem flushed_eq (c : Dev nD)
    (hseg : ∀ (b : Fin 8) (t : Fin 4096), 0 ≤ (segArr V c (ix3 b 0 t)).toInt ∧ (segArr V c (ix3 b 0 t)).toInt < 64)
    (t : Fin cfg0.N) (ht : t.val % 2 = 1) :
    (dat0 (F := Ideal) V c).flushed 2 t = ((cfg0.win 2).blk t).view.read (Elt Ideal) (spanArr V c) := by
  have hN : t.val < 16 := lt_of_lt_of_eq t.isLt (show cfg0.N = 16 from N_0)
  obtain ⟨-, -, -, -, -, -, e0, e1⟩ := idx_facts0 t
  show (cfg0.win 2).cut (grid0.coords t) ((dat0 (F := Ideal) V c).after 2 t) = _
  rw [after0_2_odd V c t ht]
  funext y
  obtain ⟨s, h, rfl⟩ : ∃ (s : Fin 64) (h : Fin 1024), y = ix2 s h := ⟨y 0, y 1, eq_ix2 y⟩
  have hemb : ((cfg0.win 2).blk t).view.emb (ix2 s h) = ix2 (⟨64 * (t.val / 2) + s.val, by omega⟩ : Fin 512) h := by
    funext a; apply Fin.ext
    match a with
    | ⟨0, _⟩ => show win0_2.index t (0 : Fin 2) * 64 + 1 * s.val = 64 * (t.val / 2) + s.val; rw [e0]; omega
    | ⟨1, _⟩ => show win0_2.index t (1 : Fin 2) * 1024 + 1 * h.val = h.val; rw [e1]; omega
  show _ = spanArr V c (((cfg0.win 2).blk t).view.emb (ix2 s h))
  rw [hemb]
  show _ = Cert.Spec.spanMean (fun b t => (segArr V c (ix3 b 0 t)).toNat) (fun b t h => tokArr V c (ix3 b t h))
    (⟨64 * (t.val / 2) + s.val, by omega⟩ : Fin 512) h
  exact span_of_blocks (fun b t => segArr V c (ix3 b 0 t)) (fun b t h => tokArr V c (ix3 b t h)) hseg
    (xtok V c ⟨t.val - 1, Nat.lt_of_le_of_lt (Nat.sub_le _ _) t.isLt⟩) (xtok V c t)
    (xseg V c ⟨t.val - 1, Nat.lt_of_le_of_lt (Nat.sub_le _ _) t.isLt⟩) (xseg V c t)
    (⟨64 * (t.val / 2) + s.val, by omega⟩ : Fin 512) s (by show (64 * (t.val / 2) + s.val) % 64 = s.val; omega)
    (fun tt h => xtok_apply V c ⟨t.val - 1, Nat.lt_of_le_of_lt (Nat.sub_le _ _) t.isLt⟩ _ _ tt h
      (by show (64 * (t.val / 2) + s.val) / 64 = (t.val - 1) / 2; omega) (by show tt.val = 2048 * ((t.val - 1) % 2) + tt.val; omega))
    (fun tt h => xtok_apply V c t _ _ tt h
      (by show (64 * (t.val / 2) + s.val) / 64 = t.val / 2; omega) (by show 2048 + tt.val = 2048 * (t.val % 2) + tt.val; omega))
    (fun tt => xseg_apply V c ⟨t.val - 1, Nat.lt_of_le_of_lt (Nat.sub_le _ _) t.isLt⟩ _ _ tt
      (by show (64 * (t.val / 2) + s.val) / 64 = (t.val - 1) / 2; omega) (by show tt.val = 2048 * ((t.val - 1) % 2) + tt.val; omega))
    (fun tt => xseg_apply V c t _ _ tt
      (by show (64 * (t.val / 2) + s.val) / 64 = t.val / 2; omega) (by show 2048 + tt.val = 2048 * (t.val % 2) + tt.val; omega))
    _ (fun s => ld_rcol _ s) h

/-- An index of the output array is in position `t`'s block iff each coordinate is in the block's range. -/
theorem mem_blk2 (t : Fin cfg0.N) (i : S512x1024.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v1).slice (win0_2.rect t)).set ↔ _
  rw [View.set_slice_whole, Rect.mem_set_unit]
  exact Iff.rfl

/-- THE OUTPUT ARRAY after the region, at row `g` and feature `h`: the span mean of global segment `g`. Row `g` lies in
    the block of position 2·(g / 64) + 1, which writes it back; every writing position writes its rows of the span
    means. -/
theorem arr0_2_span (c : Dev nD)
    (hseg : ∀ (b : Fin 8) (t : Fin 4096), 0 ≤ (segArr V c (ix3 b 0 t)).toInt ∧ (segArr V c (ix3 b 0 t)).toInt < 64)
    (g : Fin 512) (h : Fin 1024) :
    (dat0 (F := Ideal) V c).arrAt 2 cfg0.N (ix2 g h)
      = Cert.Spec.spanMean (fun b t => (segArr V c (ix3 b 0 t)).toNat) (fun b t h => tokArr V c (ix3 b t h)) g h := by
  have hg : g.val < 512 := g.isLt
  have hlt : 2 * (g.val / 64) + 1 < cfg0.N := lt_of_lt_of_eq (by omega : 2 * (g.val / 64) + 1 < 16) N_0.symm
  obtain ⟨-, -, -, -, -, -, e0, e1⟩ := idx_facts0 ⟨2 * (g.val / 64) + 1, hlt⟩
  have hf : (cfg0.win 2).flush ⟨2 * (g.val / 64) + 1, hlt⟩ = true :=
    (flush0_2 ⟨2 * (g.val / 64) + 1, hlt⟩).mpr (by show (2 * (g.val / 64) + 1) % 2 = 1; omega)
  have hi : (ix2 g h : S512x1024.Idx) ∈ ((cfg0.win 2).blk ⟨2 * (g.val / 64) + 1, hlt⟩).view.set := by
    rw [mem_blk2]
    intro a
    match a with
    | ⟨0, _⟩ =>
      show win0_2.index ⟨2 * (g.val / 64) + 1, hlt⟩ (0 : Fin 2) * 64 ≤ g.val ∧ g.val < win0_2.index ⟨2 * (g.val / 64) + 1, hlt⟩ (0 : Fin 2) * 64 + 64
      rw [e0]; show (2 * (g.val / 64) + 1) / 2 * 64 ≤ g.val ∧ g.val < (2 * (g.val / 64) + 1) / 2 * 64 + 64; omega
    | ⟨1, _⟩ =>
      show win0_2.index ⟨2 * (g.val / 64) + 1, hlt⟩ (1 : Fin 2) * 1024 ≤ h.val ∧ h.val < win0_2.index ⟨2 * (g.val / 64) + 1, hlt⟩ (1 : Fin 2) * 1024 + 1024
      rw [e1]; have := h.isLt; omega
  exact (dat0 (F := Ideal) V c).arrAt_apply_of_mem 2 (spanArr V c)
    (fun t hft => flushed_eq V c hseg t ((flush0_2 t).mp hft)) cfg0.N ⟨2 * (g.val / 64) + 1, hlt⟩ (ix2 g h)
    (Nat.lt_of_lt_of_le (Nat.lt_succ_self _) (Nat.succ_le_of_lt hlt) |>.trans_le (le_refl _)) hf hi

/-- The same with the arrays spelt through `V`. -/
theorem arr0_2_spec (c : Dev nD)
    (hseg : ∀ (b : Fin 8) (t : Fin 4096), 0 ≤ ((V c main_v0 : IVec S8x1x4096 32) (ix3 b 0 t)).toInt ∧ ((V c main_v0 : IVec S8x1x4096 32) (ix3 b 0 t)).toInt < 64)
    (g : Fin 512) (h : Fin 1024) :
    ((dat0 (F := Ideal) V c).arrAt 2 cfg0.N : S512x1024.Idx → EReal) (ix2 g h)
      = Cert.Spec.spanMean (fun b t => ((V c main_v0 : IVec S8x1x4096 32) (ix3 b 0 t)).toNat) (fun b t h => (V c main_arg0 : S8x4096x1024.Idx → EReal) (ix3 b t h)) g h :=
  arr0_2_span V c hseg g h

end Cert.KernelIdeal.Hand

end
-- ==== Proof.KI.R1Value.lean ====
import proofs.«421061_j44530220925378_3_alg».proof.Proof.KI.R1
import proofs.«421061_j44530220925378_3_alg».proof.Proof.KI.MlpPayload
import Idealize.ShloMosaic.Lib.ValueIdx
import Idealize.ShloMosaic.Lib.Pipeline.Value

/-! # Region 1's output array, read at an index (ideal arithmetic)

After the second pallas_call the `[4096,1]` output array holds, at row `p`, the two-layer perceptron of the two table
rows that row `p` of the index array selects: the grid's eight points each write back one block of 512 rows, point
`p / 512` the block holding row `p`; the five resident inputs' blocks are their whole arrays, and the index window's
block at point `t` is rows `512·t … 512·t + 511` of the index array. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The arrays the region reads, each at its literal type -/

/-- The first gathered table (`main_v6`), the second (`main_v8`), the hidden layer's bias row (`main_v9`), the output
    layer's weight column (`main_arg5`) and bias (`main_v10`), as the region finds them. -/
abbrev arrV6 (c : Dev nD) : S512x1024.Idx → EReal := V c main_v6
abbrev arrV8 (c : Dev nD) : S512x1024.Idx → EReal := V c main_v8
abbrev arrV9 (c : Dev nD) : S1x1024.Idx → EReal := V c main_v9
abbrev arrArg5 (c : Dev nD) : S1024x1.Idx → EReal := V c main_arg5
abbrev arrV10 (c : Dev nD) : S1x1.Idx → EReal := V c main_v10

theorem hzOut : (![0, 0] : Fin 2 → Nat) = fun _ => 0 := funext fun a => by fin_cases a <;> rfl

/-! ## The printed index maps over the grid -/

/-- The five resident inputs have the constant block index `(0, 0)`; the index window and the output move together,
    point `t` at block `(t, 0)`. Decided over the eight points. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Distinct points write back distinct blocks. -/
theorem idx_inj6 : ∀ t t' : Fin cfg1.N, win1_6.index t = win1_6.index t' → t = t' :=
  (by decide +kernel : ∀ t t' : Fin grid1.N, win1_6.index t = win1_6.index t' → t = t')

/-- So two points' output blocks share no array index. -/
theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-! ## The input blocks as entries of the arrays -/

/-- Window 0's block at any point is its whole array. -/
theorem blk0_apply (c : Dev nD) (t : Fin cfg1.N) (y : S512x1024.Idx) :
    (iblk1 V c 0 t : Vec Ideal S512x1024 .bf16) y = (V c main_v6 : Vec Ideal S512x1024 .bf16) y := by
  have e := idx1 t
  unfold iblk1
  rw [View.read_apply]
  show V c main_v6 _ = V c main_v6 _
  congr 1
  funext a; apply Fin.ext
  match a with
  | ⟨0, _⟩ => show win1_0.index t (0 : Fin 2) * 512 + 1 * (y 0).val = (y 0).val; omega
  | ⟨1, _⟩ => show win1_0.index t (1 : Fin 2) * 1024 + 1 * (y 1).val = (y 1).val; omega

/-- Window 1's block at any point is its whole array. -/
theorem blk1_apply (c : Dev nD) (t : Fin cfg1.N) (y : S512x1024.Idx) :
    (iblk1 V c 1 t : Vec Ideal S512x1024 .bf16) y = (V c main_v8 : Vec Ideal S512x1024 .bf16) y := by
  have e := idx1 t
  unfold iblk1
  rw [View.read_apply]
  show V c main_v8 _ = V c main_v8 _
  congr 1
  funext a; apply Fin.ext
  match a with
  | ⟨0, _⟩ => show win1_1.index t (0 : Fin 2) * 512 + 1 * (y 0).val = (y 0).val; omega
  | ⟨1, _⟩ => show win1_1.index t (1 : Fin 2) * 1024 + 1 * (y 1).val = (y 1).val; omega

/-- Window 3's block at any point is its whole array. -/
theorem blk3_apply (c : Dev nD) (t : Fin cfg1.N) (y : S1x1024.Idx) :
    (iblk1 V c 3 t : Vec Ideal S1x1024 .f32) y = (V c main_v9 : Vec Ideal S1x1024 .f32) y := by
  have e := idx1 t
  unfold iblk1
  rw [View.read_apply]
  show V c main_v9 _ = V c main_v9 _
  congr 1
  funext a; apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega

/-- Window 4's block at any point is its whole array. -/
theorem blk4_apply (c : Dev nD) (t : Fin cfg1.N) (y : S1024x1.Idx) :
    (iblk1 V c 4 t : Vec Ideal S1024x1 .f32) y = (V c main_arg5 : Vec Ideal S1024x1 .f32) y := by
  have e := idx1 t
  unfold iblk1
  rw [View.read_apply]
  show V c main_arg5 _ = V c main_arg5 _
  congr 1
  funext a; apply Fin.ext
  match a with
  | ⟨0, _⟩ => show win1_4.index t (0 : Fin 2) * 1024 + 1 * (y 0).val = (y 0).val; omega
  | ⟨1, _⟩ => show win1_4.index t (1 : Fin 2) * 1 + 1 * (y 1).val = (y 1).val; omega

/-- Window 5's block at any point is its whole array. -/
theorem blk5_apply (c : Dev nD) (t : Fin cfg1.N) (y : S1x1.Idx) :
    (iblk1 V c 5 t : Vec Ideal S1x1 .f32) y = (V c main_v10 : Vec Ideal S1x1 .f32) y := by
  have e := idx1 t
  unfold iblk1
  rw [View.read_apply]
  show V c main_v10 _ = V c main_v10 _
  congr 1
  funext a; apply Fin.ext
  match a with
  | ⟨0, _⟩ => show win1_5.index t (0 : Fin 2) * 1 + 1 * (y 0).val = (y 0).val; omega
  | ⟨1, _⟩ => show win1_5.index t (1 : Fin 2) * 1 + 1 * (y 1).val = (y 1).val; omega

/-- The index window's block at point `t` is rows `512·t … 512·t + 511` of the index array. -/
theorem blk2_apply (c : Dev nD) (t : Fin cfg1.N) (q : Fin 512) (k : Fin 2) (p : Fin 4096) (hp : p.val = 512 * t.val + q.val) :
    (iblk1 V c 2 t : Vec Ideal S512x2 .i32) (ix2 q k) = (V c main_arg2 : Vec Ideal S4096x2 .i32) (ix2 p k) := by
  have e := idx1 t
  unfold iblk1
  rw [View.read_apply]
  show V c main_arg2 _ = V c main_arg2 _
  congr 1
  funext a; apply Fin.ext
  match a with
  | ⟨0, _⟩ => show win1_2.index t (0 : Fin 2) * 512 + 1 * q.val = p.val; omega
  | ⟨1, _⟩ => show win1_2.index t (1 : Fin 2) * 2 + 1 * k.val = k.val; omega

/-! ## What point `t` writes back, and the array after the run -/

/-- What point `t` writes back is what the body left in the output's staging buffer: the one store's payload of the
    six input blocks at `t`. -/
theorem flushed6 (c : Dev nD) (t : Fin cfg1.N) :
    (dat1 V c).flushed 6 t
      = k1_pay1 (k1_pay2 (iblk1 V c 0 t) (iblk1 V c 1 t) (iblk1 V c 2 t) (iblk1 V c 3 t)) (iblk1 V c 4 t) (iblk1 V c 5 t) := by
  show (cfg1.win 6).cut (grid1.coords t) ((dat1 V c).after 6 t) = _
  rw [after1_6]
  unfold out1_6
  rw [View.canon_unit_zero hzOut]
  simp only [View.ld_unit_zero (S := S512x1024) hzOut, View.ld_unit_zero (S := S512x2) hzOut, View.ld_unit_zero (S := S1x1024) hzOut,
    View.ld_unit_zero (S := S1024x1) hzOut, View.ld_unit_zero (S := S1x1) hzOut]
  rfl

/-- Row `512·t + q` of the output array after the run is row `q` of what point `t` wrote back: no other point's
    block meets it. -/
theorem arr6_row (c : Dev nD) (t : Fin cfg1.N) (q : Fin 512) (p : Fin 4096) (hp : p.val = 512 * t.val + q.val) :
    ((dat1 V c).arrAt 6 cfg1.N : Vec Ideal S4096x1 .f32) (ix2 p 0) = ((dat1 V c).flushed 6 t : Vec Ideal S512x1 .f32) (ix2 q 0) := by
  have e := idx1 t
  have h := (dat1 V c).arrAt_emb_eq_flushed 6 disjoint6 t (flush1_6 t) (ix2 q 0)
  rw [cast_eq] at h
  rw [← h]
  congr 1
  funext a; apply Fin.ext
  match a with
  | ⟨0, _⟩ => show p.val = win1_6.index t (0 : Fin 2) * 512 + 1 * q.val; omega
  | ⟨1, _⟩ => show (0 : Nat) = win1_6.index t (1 : Fin 2) * 1 + 1 * 0; omega

/-! ## The array at a row -/

/-- Row `p` of the output array after the run: with both of row `p`'s indices in `[0, 512)`, the hidden layer is the
    two selected table rows added, plus the bias row, clipped below at zero; the output is its product with the weight
    column summed over the 1024 hidden units, plus the output bias. -/
theorem arr1_6_spec (c : Dev nD)
    (i0 i1 : Fin 4096 → Fin 512)
    (h0 : ∀ p : Fin 4096, 0 ≤ ((V c main_arg2 : IVec S4096x2 32) (ix2 p 0)).toInt ∧ ((V c main_arg2 : IVec S4096x2 32) (ix2 p 0)).toInt < 512)
    (hi0 : ∀ p : Fin 4096, ((V c main_arg2 : IVec S4096x2 32) (ix2 p 0)).toNat = (i0 p).val)
    (h1 : ∀ p : Fin 4096, 0 ≤ ((V c main_arg2 : IVec S4096x2 32) (ix2 p 1)).toInt ∧ ((V c main_arg2 : IVec S4096x2 32) (ix2 p 1)).toInt < 512)
    (hi1 : ∀ p : Fin 4096, ((V c main_arg2 : IVec S4096x2 32) (ix2 p 1)).toNat = (i1 p).val)
    (p : Fin 4096) :
    ((dat1 (F := Ideal) V c).arrAt 6 cfg1.N : S4096x1.Idx → EReal) (ix2 p 0)
      = (∑ j : Fin 1024, max ((arrV6 V c (ix2 (i0 p) j) + arrV8 V c (ix2 (i1 p) j)) + arrV9 V c (ix2 0 j)) 0 * arrArg5 V c (ix2 j 0))
        + arrV10 V c (ix2 0 0) := by
  have hN : cfg1.N = 8 := N_1
  have hp := p.isLt
  let t : Fin cfg1.N := ⟨p.val / 512, by rw [hN]; omega⟩
  let q : Fin 512 := ⟨p.val % 512, Nat.mod_lt _ (by decide)⟩
  have hpq : p.val = 512 * t.val + q.val := by show p.val = 512 * (p.val / 512) + p.val % 512; omega
  refine (arr6_row V c t q p hpq).trans ?_
  rw [flushed6]
  refine (mlp_payload (iblk1 V c 0 t) (iblk1 V c 1 t) (iblk1 V c 2 t) (iblk1 V c 3 t) (iblk1 V c 4 t) (iblk1 V c 5 t) q (i0 p) (i1 p)
    ?_ ?_ ?_ ?_).trans ?_
  · rw [blk2_apply V c t q 0 p hpq]; exact h0 p
  · rw [blk2_apply V c t q 0 p hpq]; exact hi0 p
  · rw [blk2_apply V c t q 1 p hpq]; exact h1 p
  · rw [blk2_apply V c t q 1 p hpq]; exact hi1 p
  · simp only [blk0_apply V c t, blk1_apply V c t, blk3_apply V c t, blk4_apply V c t, blk5_apply V c t]

end Cert.KernelIdeal.Hand

end
-- ==== Proof.KI.KValue.lean ====
/-
  The kernel program's result, index by index: the relation kernel's write-backs, read through the host products and
  the span-mean kernel's write-backs down to the launch contents of the arguments, are the relation logits of the span
  means (`Cert.Spec`).
-/
import proofs.«421061_j44530220925378_3_alg».proof.Proof.KI.Glue
import proofs.«421061_j44530220925378_3_alg».proof.Proof.KI.R0Value
import proofs.«421061_j44530220925378_3_alg».proof.Proof.KI.R1Value

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The launch contents of the arguments, as arrays of literal type. -/
abbrev tok0 : FVec Ideal S8x4096x1024 .f32 := m ((c : Thread nD τ).loc main_arg0)
abbrev seg0 : IVec S8x4096 32 := m ((c : Thread nD τ).loc main_arg1)
abbrev pair0 : IVec S4096x2 32 := m ((c : Thread nD τ).loc main_arg2)
abbrev bias1 : FVec Ideal S1024 .f32 := m ((c : Thread nD τ).loc main_arg4)
abbrev w2Arr : FVec Ideal S1024x1 .f32 := m ((c : Thread nD τ).loc main_arg5)
abbrev bias2 : FVec Ideal S1 .f32 := m ((c : Thread nD τ).loc main_arg6)

/-- The span-mean kernel's final array is the span means of the launch tokens and segment ids. -/
theorem span_value
    (hseg : ∀ (b : Fin 8) (t : Fin 4096), 0 ≤ (seg0 m c (ix2 b t)).toInt ∧ (seg0 m c (ix2 b t)).toInt < 64)
    (g : Fin 512) (h : Fin 1024) :
    meanArr m ρ c (ix2 g h)
      = Cert.Spec.spanMean (fun b t => (seg0 m c (ix2 b t)).toNat) (fun b t h => tok0 m c (ix3 b t h)) g h := by
  have hs : ∀ (b : Fin 8) (t : Fin 4096), segArr (V1 m ρ) c (ix3 b 0 t) = seg0 m c (ix2 b t) :=
    fun b t => V1_v0_apply m ρ c b t
  have ht : tokArr (V1 m ρ) c = tok0 m c := V1_arg0 m ρ c
  have e := arr0_2_span (V1 m ρ) c (fun b t => by rw [hs b t]; exact hseg b t) g h
  have f1 : (fun (b : Fin 8) (t : Fin 4096) => (segArr (V1 m ρ) c (ix3 b 0 t)).toNat)
      = fun b t => (seg0 m c (ix2 b t)).toNat := by funext b t; rw [hs b t]
  have f2 : (fun (b : Fin 8) (t : Fin 4096) (h : Fin 1024) => tokArr (V1 m ρ) c (ix3 b t h))
      = fun b t h => tok0 m c (ix3 b t h) := by rw [ht]
  rw [f1, f2] at e
  exact e

/-- The kernel program's result at pair `p`. -/
theorem kernel_value
    (hseg : ∀ (b : Fin 8) (t : Fin 4096), 0 ≤ (seg0 m c (ix2 b t)).toInt ∧ (seg0 m c (ix2 b t)).toInt < 64)
    (i0 i1 : Fin 4096 → Fin 512)
    (h0 : ∀ p : Fin 4096, 0 ≤ (pair0 m c (ix2 p 0)).toInt ∧ (pair0 m c (ix2 p 0)).toInt < 512)
    (hi0 : ∀ p : Fin 4096, (pair0 m c (ix2 p 0)).toNat = (i0 p).val)
    (h1 : ∀ p : Fin 4096, 0 ≤ (pair0 m c (ix2 p 1)).toInt ∧ (pair0 m c (ix2 p 1)).toInt < 512)
    (hi1 : ∀ p : Fin 4096, (pair0 m c (ix2 p 1)).toNat = (i1 p).val)
    (p : Fin 4096) :
    ((dat1 (V3 m ρ) c).arrAt 6 cfg1.N : S4096x1.Idx → EReal) (ix2 p 0)
      = Cert.Spec.logits (Cert.Spec.hidden
          (Cert.Spec.spanMean (fun b t => (seg0 m c (ix2 b t)).toNat) (fun b t h => tok0 m c (ix3 b t h))) i0 i1
          (fun k j => w1Arr m c (ix2 k j)) (fun j => bias1 m c (ix1 j))) (fun j => w2Arr m c (ix2 j 0)) (bias2 m c (ix1 0)) p := by
  rw [arr1_6_spec (V3 m ρ) c i0 i1
    (fun p => by rw [V3_arg2 m ρ c]; exact h0 p) (fun p => by rw [V3_arg2 m ρ c]; exact hi0 p)
    (fun p => by rw [V3_arg2 m ρ c]; exact h1 p) (fun p => by rw [V3_arg2 m ρ c]; exact hi1 p) p]
  unfold Cert.Spec.logits Cert.Spec.hidden
  refine congrArg₂ (· + ·) (Finset.sum_congr rfl fun j _ => congrArg₂ (· * ·) (congrArg (max · 0) ?_) ?_) ?_
  · refine congrArg₂ (· + ·) (congrArg₂ (· + ·) ?_ ?_) ?_
    · exact (V3_v6_apply m ρ c (i0 p) j).trans (Finset.sum_congr rfl fun k _ => by rw [span_value m ρ c hseg])
    · exact (V3_v8_apply m ρ c (i1 p) j).trans (Finset.sum_congr rfl fun k _ => by rw [span_value m ρ c hseg])
    · exact V3_v9_apply m ρ c j
  · exact congrFun (V3_arg5 m ρ c) (ix2 j 0)
  · exact V3_v10_apply m ρ c

end Cert.KernelIdeal.Hand

end
-- ==== Proof.RefSpan.lean ====
/-
  The reference's span means, read at an index.

  The reference globalises the per-example segment ids (`id(b, t) + 64·b` over the 8·4096 tokens, laid out in rows
  `r = 4096·b + t`), accumulates the tokens and a vector of ones over those ids into 512 rows (two accumulating
  scatters into zeros), takes the maximum of each count with one, and divides. Under the range hypothesis
  `0 ≤ id < 64` the global id `id + 64·b` does not wrap and equals `g` exactly when `b = g / 64` and
  `id = g % 64`. So row `g` of the first scatter is the sum, over the positions `t` of example `g / 64` whose id is
  `g % 64`, of the token's feature; row `g` of the second is the number of those positions; and their quotient,
  the divisor raised to at least one, is the mathematical span mean. Everything is a finite sum in the additive
  monoid of the extended reals: only re-indexing and dropping zero terms, no distributivity and no cancellation.
-/
import proofs.«421061_j44530220925378_3_alg».proof.Proof.Gen.ReferenceIdeal.Read
import proofs.«421061_j44530220925378_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## Where an update lands -/

/-- An update lands on an element exactly when, on every axis, its start plus its window coordinate is that
    element's coordinate: inside the operand the landing index is that sum, and a sum equal to a coordinate of the
    operand is inside it. -/
theorem span_resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some_inj]
    constructor
    · intro he a
      have := congrArg (fun f => ((f a).val : Int)) he
      simp only at this
      have h0 := (hin a).1
      rw [← this]
      exact (Int.toNat_of_nonneg h0).symm
    · intro he
      funext a
      refine Fin.ext ?_
      show (d.start j idx a + (d.window j a : Int)).toNat = (i a).val
      rw [he a]; rfl
  · rename_i hout
    constructor
    · intro he; cases he
    · intro he
      exact absurd (fun a => by rw [he a]; exact ⟨Int.natCast_nonneg _, by exact_mod_cast (i a).isLt⟩) hout

/-- The token scatter starts row-wise at the signed index word of the update's row. -/
theorem span_tok_start0 (r : Fin 32768) (c : Fin 1024) (idx : IVec S32768x1 32) :
    scatter_S512x1024_S32768x1_S32768x1024_1_0_0_1.start (ix2 r c) idx 0 = (idx (ix2 r 0)).toInt := by
  unfold ScatterDims.start
  rw [dif_pos (show (0 : Fin 2) ∈ scatter_S512x1024_S32768x1_S32768x1024_1_0_0_1.scatterDimsToOperandDims from
    List.mem_singleton.mpr rfl)]
  refine congrArg (fun k => (idx k).toInt) ?_
  funext b
  refine Fin.ext ?_
  match b with
  | ⟨0, _⟩ => rfl
  | ⟨1, _⟩ => rfl
/-- It has no start on the feature axis, -/
theorem span_tok_start1 (r : Fin 32768) (c : Fin 1024) (idx : IVec S32768x1 32) :
    scatter_S512x1024_S32768x1_S32768x1024_1_0_0_1.start (ix2 r c) idx 1 = 0 := rfl
/-- no window coordinate on the row axis, -/
theorem span_tok_window0 (r : Fin 32768) (c : Fin 1024) :
    scatter_S512x1024_S32768x1_S32768x1024_1_0_0_1.window (ix2 r c) 0 = 0 := rfl
/-- and the update's feature as window coordinate on the feature axis. -/
theorem span_tok_window1 (r : Fin 32768) (c : Fin 1024) :
    scatter_S512x1024_S32768x1_S32768x1024_1_0_0_1.window (ix2 r c) 1 = c.val := rfl

/-- Token update `(r, c)` lands on `(g, h)` exactly when row `r`'s index word is `g` and `c` is `h`. -/
theorem span_tok_lands (r : Fin 32768) (c : Fin 1024) (idx : IVec S32768x1 32) (g : Fin 512) (h : Fin 1024) :
    scatter_S512x1024_S32768x1_S32768x1024_1_0_0_1.resultIdx? (ix2 r c) idx = some (ix2 g h)
      ↔ (idx (ix2 r 0)).toInt = (g.val : Int) ∧ c = h := by
  rw [span_resultIdx?_eq_some_iff]
  constructor
  · intro hh
    have h0 := hh 0
    have h1 := hh 1
    rw [span_tok_start0, span_tok_window0] at h0
    rw [span_tok_start1, span_tok_window1] at h1
    have e0 : (idx (ix2 r 0)).toInt + ((0 : Nat) : Int) = (g.val : Int) := h0
    have e1 : (0 : Int) + (c.val : Int) = (h.val : Int) := h1
    exact ⟨by omega, Fin.ext (by omega)⟩
  · rintro ⟨h0, rfl⟩ a
    match a with
    | ⟨0, _⟩ =>
      show scatter_S512x1024_S32768x1_S32768x1024_1_0_0_1.start (ix2 r c) idx 0
        + ((scatter_S512x1024_S32768x1_S32768x1024_1_0_0_1.window (ix2 r c) 0 : Nat) : Int) = (g.val : Int)
      rw [span_tok_start0, span_tok_window0]; omega
    | ⟨1, _⟩ =>
      show scatter_S512x1024_S32768x1_S32768x1024_1_0_0_1.start (ix2 r c) idx 1
        + ((scatter_S512x1024_S32768x1_S32768x1024_1_0_0_1.window (ix2 r c) 1 : Nat) : Int) = (c.val : Int)
      rw [span_tok_start1, span_tok_window1]; omega

/-- The counting scatter starts at the signed index word of the update's row -/
theorem span_one_start0 (r : Fin 32768) (idx : IVec S32768x1 32) :
    scatter_S512_S32768x1_S32768_n_0_0_1.start (ix1 r) idx 0 = (idx (ix2 r 0)).toInt := by
  unfold ScatterDims.start
  rw [dif_pos (show (0 : Fin 1) ∈ scatter_S512_S32768x1_S32768_n_0_0_1.scatterDimsToOperandDims from
    List.mem_singleton.mpr rfl)]
  refine congrArg (fun k => (idx k).toInt) ?_
  funext b
  refine Fin.ext ?_
  match b with
  | ⟨0, _⟩ => rfl
  | ⟨1, _⟩ => rfl
/-- and has no window. -/
theorem span_one_window0 (r : Fin 32768) :
    scatter_S512_S32768x1_S32768_n_0_0_1.window (ix1 r) 0 = 0 := rfl

/-- Counting update `r` lands on `g` exactly when row `r`'s index word is `g`. -/
theorem span_one_lands (r : Fin 32768) (idx : IVec S32768x1 32) (g : Fin 512) :
    scatter_S512_S32768x1_S32768_n_0_0_1.resultIdx? (ix1 r) idx = some (ix1 g)
      ↔ (idx (ix2 r 0)).toInt = (g.val : Int) := by
  rw [span_resultIdx?_eq_some_iff]
  constructor
  · intro hh
    have h0 := hh 0
    rw [span_one_start0, span_one_window0] at h0
    have e0 : (idx (ix2 r 0)).toInt + ((0 : Nat) : Int) = (g.val : Int) := h0
    omega
  · intro h0 a
    match a with
    | ⟨0, _⟩ =>
      show scatter_S512_S32768x1_S32768_n_0_0_1.start (ix1 r) idx 0
        + ((scatter_S512_S32768x1_S32768_n_0_0_1.window (ix1 r) 0 : Nat) : Int) = (g.val : Int)
      rw [span_one_start0, span_one_window0]; omega

/-! ## Rows of the flattened tokens -/

/-- The flat row of position `t` of example `b`. -/
def span_row (b : Fin 8) (t : Fin 4096) : Fin 32768 := ⟨b.val * 4096 + t.val, by have := b.isLt; have := t.isLt; omega⟩

/-- The flat rows are the pairs (example, position). -/
def span_rowEquiv : Fin 8 × Fin 4096 ≃ Fin 32768 where
  toFun p := span_row p.1 p.2
  invFun r := (⟨r.val / 4096, by have := r.isLt; omega⟩, ⟨r.val % 4096, by omega⟩)
  left_inv p := by
    have h1 := p.1.isLt
    have h2 := p.2.isLt
    refine Prod.ext (Fin.ext ?_) (Fin.ext ?_)
    · show (p.1.val * 4096 + p.2.val) / 4096 = p.1.val; omega
    · show (p.1.val * 4096 + p.2.val) % 4096 = p.2.val; omega
  right_inv r := by
    refine Fin.ext ?_
    show r.val / 4096 * 4096 + r.val % 4096 = r.val; omega

/-- A sum over the flat rows is the double sum over examples and positions. -/
theorem span_sum_rows {M : Type*} [AddCommMonoid M] (f : Fin 32768 → M) :
    ∑ r, f r = ∑ b : Fin 8, ∑ t : Fin 4096, f (span_row b t) := by
  rw [← Equiv.sum_comp span_rowEquiv f, Fintype.sum_prod_type]
  rfl

/-- A rank-1 index set is its coordinate's range … -/
def span_idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem span_sum_idx1 {M : Type*} [AddCommMonoid M] {n : Nat} (f : (⟨1, ![n]⟩ : Shape).Idx → M) :
    ∑ i, f i = ∑ a : Fin n, f (ix1 a) := by
  rw [← Equiv.sum_comp (span_idxEquiv1 (n := n)).symm f]
  rfl

/-! ## The globalised segment id -/

/-- A 32-bit word in `[0, 64)` plus `64·b`, `b < 8`, does not wrap: as a signed integer the sum is the word's
    natural value plus `64·b`. -/
theorem span_toInt_flat (x : BitVec 32) (b : Nat) (hb : b < 8) (h0 : 0 ≤ x.toInt) (h1 : x.toInt < 64) :
    (IntOp.addi x (IntOp.muli (BitVec.ofNat 32 b) 64#32)).toInt = (x.toNat : Int) + 64 * (b : Int) := by
  unfold IntOp.addi IntOp.muli
  rw [BitVec.toInt_eq_toNat_cond] at h0 h1
  rw [BitVec.toInt_eq_toNat_cond, BitVec.toNat_add, BitVec.toNat_mul, BitVec.toNat_ofNat, BitVec.toNat_ofNat]
  have hx := x.isLt
  split at h0 <;> split <;> omega

/-- A word in `[0, 64)` as a signed integer has natural value below 64. -/
theorem span_toNat_lt (x : BitVec 32) (h0 : 0 ≤ x.toInt) (h1 : x.toInt < 64) : x.toNat < 64 := by
  rw [BitVec.toInt_eq_toNat_cond] at h0 h1
  have hx := x.isLt
  split at h0 <;> omega

/-- The index word of flat row `(b, t)` (the first scatter's indices): the token's id plus `64·b`. -/
theorem span_flat9 (x1 : (⟨S8x4096, .i32⟩ : BufTy).Contents (Elt Ideal))
    (hseg : ∀ (b : Fin 8) (t : Fin 4096), 0 ≤ (x1 (ix2 b t)).toInt ∧ (x1 (ix2 b t)).toInt < 64)
    (b : Fin 8) (t : Fin 4096) :
    (val_main_v9 (F := Ideal) x1 (ix2 (span_row b t) 0)).toInt = ((x1 (ix2 b t)).toNat : Int) + 64 * (b.val : Int) := by
  have e6 : idx_main_v6 (idx_main_v9 (ix2 (span_row b t) 0)) = ix2 b t := by
    have hb := b.isLt
    have ht := t.isLt
    funext a
    refine Fin.ext ?_
    match a with
    | ⟨0, _⟩ => show (b.val * 4096 + t.val) / 4096 = b.val; omega
    | ⟨1, _⟩ => show (b.val * 4096 + t.val) % 4096 = t.val; omega
  have e1 : idx_main_v1 (idx_main_v4 (ix2 b t)) = ix1 b := by
    funext a
    refine Fin.ext ?_
    match a with
    | ⟨0, _⟩ => rfl
  rw [val_main_v9_apply, val_main_v6_apply, e6, val_main_v5_apply, val_main_v4_apply, val_main_v3_apply,
    val_main_v1_apply, val_main_v2_apply, val_main_c_apply, e1, val_main_v0_apply]
  exact span_toInt_flat _ b.val b.isLt (hseg b t).1 (hseg b t).2

/-- The second scatter's indices are the same words. -/
theorem span_flat13 (x1 : (⟨S8x4096, .i32⟩ : BufTy).Contents (Elt Ideal))
    (hseg : ∀ (b : Fin 8) (t : Fin 4096), 0 ≤ (x1 (ix2 b t)).toInt ∧ (x1 (ix2 b t)).toInt < 64)
    (b : Fin 8) (t : Fin 4096) :
    (val_main_v13 (F := Ideal) x1 (ix2 (span_row b t) 0)).toInt = ((x1 (ix2 b t)).toNat : Int) + 64 * (b.val : Int) :=
  span_flat9 x1 hseg b t

/-- The flattened tokens at row `(b, t)` and feature `h`. -/
theorem span_tok7 (x0 : (⟨S8x4096x1024, .f32⟩ : BufTy).Contents (Elt Ideal)) (b : Fin 8) (t : Fin 4096) (h : Fin 1024) :
    val_main_v7 (F := Ideal) x0 (ix2 (span_row b t) h) = x0 (ix3 b t h) := by
  rw [val_main_v7_apply]
  refine congrArg x0 ?_
  have hb := b.isLt
  have ht := t.isLt
  have hh := h.isLt
  funext a
  refine Fin.ext ?_
  match a with
  | ⟨0, _⟩ => show ((b.val * 4096 + t.val) * 1024 + h.val) / 4194304 = b.val; omega
  | ⟨1, _⟩ => show ((b.val * 4096 + t.val) * 1024 + h.val) / 1024 % 4096 = t.val; omega
  | ⟨2, _⟩ => show ((b.val * 4096 + t.val) * 1024 + h.val) % 1024 = h.val; omega

/-! ## The sum over the rows that carry one global id -/

/-- Rows whose index word is `id + 64·b`, `id < 64`: the sum of the rows whose word is `g` is the sum over the
    positions of example `g / 64` whose id is `g % 64`; the other examples' rows contribute nothing. -/
theorem span_rows_of_segment (F : Fin 32768 → Int) (U : Fin 32768 → EReal) (seg : Fin 8 → Fin 4096 → Nat)
    (hseg : ∀ b t, seg b t < 64) (hF : ∀ b t, F (span_row b t) = (seg b t : Int) + 64 * (b.val : Int)) (g : Fin 512) :
    (∑ r, if F r = (g.val : Int) then U r else 0)
      = ∑ t : Fin 4096, if seg (Cert.Spec.exOf g) t = g.val % 64 then U (span_row (Cert.Spec.exOf g) t) else 0 := by
  rw [span_sum_rows, Finset.sum_eq_single (Cert.Spec.exOf g)]
  · refine Finset.sum_congr rfl fun t _ => ?_
    have hs := hseg (Cert.Spec.exOf g) t
    have he : ((Cert.Spec.exOf g).val : Int) = ((g.val / 64 : Nat) : Int) := rfl
    by_cases hc : seg (Cert.Spec.exOf g) t = g.val % 64
    · rw [if_pos hc, if_pos]
      rw [hF, he]; omega
    · rw [if_neg hc, if_neg]
      rw [hF, he]; omega
  · intro b _ hb
    refine Finset.sum_eq_zero fun t _ => ?_
    rw [if_neg]
    have hs := hseg b t
    intro he
    rw [hF] at he
    exact hb (Fin.ext (show b.val = g.val / 64 by omega))
  · intro hn
    exact absurd (Finset.mem_univ _) hn

/-! ## The two scatters, the divisor and the quotient -/

/-- The word `0x3F800000` is the number one. -/
theorem span_ofBits_one : Ideal.ofBits .f32 0x3F800000#32 = 1 := by
  simp [Ideal.ofBits, Ideal.ieee, -EReal.coe_mul]; norm_num

/-- Row `g`, feature `h` of the accumulated tokens is the segment's feature sum. -/
theorem span_v10 (x0 : (⟨S8x4096x1024, .f32⟩ : BufTy).Contents (Elt Ideal)) (x1 : (⟨S8x4096, .i32⟩ : BufTy).Contents (Elt Ideal))
    (hseg : ∀ (b : Fin 8) (t : Fin 4096), 0 ≤ (x1 (ix2 b t)).toInt ∧ (x1 (ix2 b t)).toInt < 64)
    (g : Fin 512) (h : Fin 1024) :
    val_main_v10 (F := Ideal) x0 x1 (ix2 g h)
      = Cert.Spec.segSum (fun b t => (x1 (ix2 b t)).toNat) (fun b t h => x0 (ix3 b t h)) g h := by
  unfold val_main_v10 Host.scatterAdd
  rw [Ideal.hostScatterAdd_def]
  unfold Ideal.hostScatterAdd
  rw [val_main_v8_apply, val_main_cst_apply, Ideal.ofBits_def, Ideal.ofBits_zero_f32, zero_add, Finset.sum_filter,
    sum_idx2]
  have inner : ∀ r : Fin 32768,
      (∑ c : Fin 1024, if scatter_S512x1024_S32768x1_S32768x1024_1_0_0_1.resultIdx? (ix2 r c) (val_main_v9 (F := Ideal) x1)
          = some (ix2 g h) then val_main_v7 (F := Ideal) x0 (ix2 r c) else 0)
        = if (val_main_v9 (F := Ideal) x1 (ix2 r 0)).toInt = (g.val : Int) then val_main_v7 (F := Ideal) x0 (ix2 r h) else 0 := by
    intro r
    by_cases hr : (val_main_v9 (F := Ideal) x1 (ix2 r 0)).toInt = (g.val : Int)
    · rw [if_pos hr, Finset.sum_eq_single h]
      · rw [if_pos ((span_tok_lands r h _ g h).mpr ⟨hr, rfl⟩)]
      · intro c _ hc
        rw [if_neg]
        intro hl
        exact hc ((span_tok_lands r c _ g h).mp hl).2
      · intro hn
        exact absurd (Finset.mem_univ _) hn
    · rw [if_neg hr]
      refine Finset.sum_eq_zero fun c _ => ?_
      rw [if_neg]
      intro hl
      exact hr ((span_tok_lands r c _ g h).mp hl).1
  rw [Finset.sum_congr rfl (fun r _ => inner r),
    span_rows_of_segment (fun r => (val_main_v9 (F := Ideal) x1 (ix2 r 0)).toInt) (fun r => val_main_v7 (F := Ideal) x0 (ix2 r h))
      (fun b t => (x1 (ix2 b t)).toNat) (fun b t => span_toNat_lt _ (hseg b t).1 (hseg b t).2)
      (fun b t => span_flat9 x1 hseg b t) g]
  unfold Cert.Spec.segSum
  refine Finset.sum_congr rfl fun t _ => ?_
  rw [span_tok7]

/-- Row `g` of the accumulated ones is the segment's size. -/
theorem span_v14 (x1 : (⟨S8x4096, .i32⟩ : BufTy).Contents (Elt Ideal))
    (hseg : ∀ (b : Fin 8) (t : Fin 4096), 0 ≤ (x1 (ix2 b t)).toInt ∧ (x1 (ix2 b t)).toInt < 64)
    (g : Fin 512) :
    val_main_v14 (F := Ideal) x1 (ix1 g) = Cert.Spec.segCnt (fun b t => (x1 (ix2 b t)).toNat) g := by
  unfold val_main_v14 Host.scatterAdd
  rw [Ideal.hostScatterAdd_def]
  unfold Ideal.hostScatterAdd
  rw [val_main_v12_apply, val_main_cst_1_apply, Ideal.ofBits_def, Ideal.ofBits_zero_f32, zero_add, Finset.sum_filter,
    span_sum_idx1]
  have inner : ∀ r : Fin 32768,
      (if scatter_S512_S32768x1_S32768_n_0_0_1.resultIdx? (ix1 r) (val_main_v13 (F := Ideal) x1) = some (ix1 g)
          then val_main_v11 (F := Ideal) (ix1 r) else 0)
        = if (val_main_v13 (F := Ideal) x1 (ix2 r 0)).toInt = (g.val : Int) then (1 : EReal) else 0 := by
    intro r
    have e1 : val_main_v11 (F := Ideal) (ix1 r) = (1 : EReal) := by
      rw [val_main_v11_apply, val_main_cst_0_apply, Ideal.ofBits_def, span_ofBits_one]
    by_cases hr : (val_main_v13 (F := Ideal) x1 (ix2 r 0)).toInt = (g.val : Int)
    · rw [if_pos hr, if_pos ((span_one_lands r _ g).mpr hr), e1]
    · rw [if_neg hr, if_neg (fun hl => hr ((span_one_lands r _ g).mp hl))]
  rw [Finset.sum_congr rfl (fun r _ => inner r),
    span_rows_of_segment (fun r => (val_main_v13 (F := Ideal) x1 (ix2 r 0)).toInt) (fun _ => (1 : EReal))
      (fun b t => (x1 (ix2 b t)).toNat) (fun b t => span_toNat_lt _ (hseg b t).1 (hseg b t).2)
      (fun b t => span_flat13 x1 hseg b t) g]
  rfl

/-- THE SPAN MEANS: the reference's quotient at `(g, h)` is the mathematical mean of global segment `g` at feature
    `h`, under the range hypothesis on the segment ids. -/
theorem ref_spanMean (x0 : (⟨S8x4096x1024, .f32⟩ : BufTy).Contents (Elt Ideal)) (x1 : (⟨S8x4096, .i32⟩ : BufTy).Contents (Elt Ideal))
    (hseg : ∀ (b : Fin 8) (t : Fin 4096), 0 ≤ (x1 (ix2 b t)).toInt ∧ (x1 (ix2 b t)).toInt < 64)
    (g : Fin 512) (h : Fin 1024) :
    val_main_v19 (F := Ideal) x0 x1 (ix2 g h)
      = Cert.Spec.spanMean (fun b t => (x1 (ix2 b t)).toNat) (fun b t h => x0 (ix3 b t h)) g h := by
  have e17 : idx_main_v17 (idx_main_v18 (ix2 g h)) = ix1 g := by
    funext a
    refine Fin.ext ?_
    match a with
    | ⟨0, _⟩ => rfl
  rw [val_main_v19_apply, Ideal.hostDivf_def, val_main_v18_apply, val_main_v17_apply, e17, val_main_v16_apply,
    Ideal.maximumf_def, val_main_v15_apply, val_main_cst_2_apply, Ideal.ofBits_def, span_ofBits_one,
    span_v10 x0 x1 hseg g h, span_v14 x1 hseg g]
  rfl

end Cert.ReferenceIdeal.RefValue

end
-- ==== Proof.RefTail.lean ====
/-
  The reference's relation layer, read at an index.

  The reference gathers, for every pair `p`, row `pair_idx[p, 0]` and row `pair_idx[p, 1]` of the span means,
  lays the two rows side by side as one row of 2048 features, multiplies by the first layer's weights, adds the
  bias, takes the maximum with zero, multiplies by the second layer's weights and adds its bias. A pair index is
  first wrapped the way a negative index counts from the end (`idx + 512` where `idx < 0`) and the gather then clamps the start
  row into `[0, 511]`; for an index already in `[0, 512)` both steps are the identity, so the gathered row is the
  span mean's row at that index. The sum over the 2048 joined features splits into the sum over the first 1024
  (the first row against the weights' lower rows) plus the sum over the last 1024 (the second row against the
  upper rows). Everything happens in the extended reals' additive commutative monoid and multiplicative monoid
  with zero: no distributivity and no cancellation is used.
-/
import proofs.«421061_j44530220925378_3_alg».proof.Proof.Gen.ReferenceIdeal.Read
import proofs.«421061_j44530220925378_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## A pair index in range: the wrap and the clamp are the identity -/

/-- A signed 32-bit word that is not negative is not below zero, so the wrap's select keeps the word itself. -/
theorem wrap_of_nonneg (v : BitVec 32) (h : 0 ≤ v.toInt) :
    Scalar.select (IntOp.cmpi .slt v 0#32) (IntOp.addi v 512#32) v = v := by
  have hc : IntOp.cmpi .slt v 0#32 = 0#1 := by
    have : v.slt 0#32 = false := by
      simp only [BitVec.slt, BitVec.toInt_zero, decide_eq_false_iff_not, not_lt]; exact h
    simp only [IntOp.cmpi, this]; rfl
  rw [hc, select_zero]

/-- A word whose signed value is in `[0, 512)` reads, signed and clamped to `511`, as its unsigned value. -/
theorem clamp_of_range (v : BitVec 32) (h0 : 0 ≤ v.toInt) (h1 : v.toInt < 512) :
    min v.toInt.toNat 511 = v.toNat := by
  have hlt := v.isLt
  rw [BitVec.toInt_eq_toNat_cond] at h0 h1 ⊢
  split at h0 <;> omega

/-! ## The gather of rows, read at an index -/

/-- Result element `(p, k)` of the row gather is the operand at row "start index `p`, read signed and clamped into
    `[0, 511]`" and column `k`: axis 0 is collapsed and carries the start, axis 1 is the offset axis. -/
theorem gather_row_apply {α : Type} {w : Nat} (x : S512x1024.Idx → α) (idx : IVec S4096x1 w) (p : Fin 4096) (k : Fin 1024) :
    Host.gather gather_S512x1024_S4096x1_S4096x1024_1_0_n_n_0_1_11024 x idx (ix2 p k)
      = x (ix2 (⟨min (idx (ix2 p (0 : Fin 1))).toInt.toNat 511, by omega⟩ : Fin 512) k) := by
  unfold Host.gather
  congr 1
  funext a
  refine Fin.ext ?_
  match a with
  | ⟨0, _⟩ =>
    show gather_S512x1024_S4096x1_S4096x1024_1_0_n_n_0_1_11024.start (ix2 p k) idx 0
        + gather_S512x1024_S4096x1_S4096x1024_1_0_n_n_0_1_11024.batchCoord (ix2 p k) 0
        + gather_S512x1024_S4096x1_S4096x1024_1_0_n_n_0_1_11024.offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x1024_S4096x1_S4096x1024_1_0_n_n_0_1_11024.startIndexMap from
      List.mem_singleton.mpr rfl)]
    have hsi : gather_S512x1024_S4096x1_S4096x1024_1_0_n_n_0_1_11024.siIdx (ix2 p k)
        ⟨List.idxOf (0 : Fin 2) gather_S512x1024_S4096x1_S4096x1024_1_0_n_n_0_1_11024.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S512x1024_S4096x1_S4096x1024_1_0_n_n_0_1_11024.start (ix2 p k) idx 1
        + gather_S512x1024_S4096x1_S4096x1024_1_0_n_n_0_1_11024.batchCoord (ix2 p k) 1
        + gather_S512x1024_S4096x1_S4096x1024_1_0_n_n_0_1_11024.offCoord (ix2 p k) 1 = k.val
    rw [GatherDims.batchCoord_eq_zero _ _ _ List.not_mem_nil]
    have hs : gather_S512x1024_S4096x1_S4096x1024_1_0_n_n_0_1_11024.start (ix2 p k) idx 1 = 0 := by
      unfold GatherDims.start
      rw [dif_neg (show ¬ (1 : Fin 2) ∈ gather_S512x1024_S4096x1_S4096x1024_1_0_n_n_0_1_11024.startIndexMap by decide)]
    have ho : gather_S512x1024_S4096x1_S4096x1024_1_0_n_n_0_1_11024.offCoord (ix2 p k) 1 = k.val := by
      unfold GatherDims.offCoord
      rw [dif_pos (show (1 : Fin 2) ∈ gather_S512x1024_S4096x1_S4096x1024_1_0_n_n_0_1_11024.sKept by decide)]
      rfl
    rw [hs, ho]; omega

/-! ## The wrapped start indices: column 0 and column 1 of the pair indices -/

/-- The first gather's start index of pair `p` is the pair's first index itself, once that index is not negative. -/
theorem start0_apply (x2 : (⟨S4096x2, .i32⟩ : BufTy).Contents (Elt Ideal)) (p : Fin 4096)
    (h : 0 ≤ (x2 (ix2 p 0)).toInt) :
    val_main_v27 (F := Ideal) x2 (ix2 p (0 : Fin 1)) = x2 (ix2 p 0) := by
  have e27 : idx_main_v27 (ix2 p (0 : Fin 1)) = ix1 p := funext fun a => Fin.ext (by match a with | ⟨0, _⟩ => rfl)
  have e21 : idx_main_v21 (ix1 p) = ix2 p (0 : Fin 1) := funext fun a => Fin.ext (by
    match a with
    | ⟨0, _⟩ => exact Nat.div_one _
    | ⟨1, _⟩ => rfl)
  have e20 : idx_main_v20 (ix2 p (0 : Fin 1)) = ix2 p (0 : Fin 2) := funext fun a => Fin.ext (by
    match a with
    | ⟨0, _⟩ => rfl
    | ⟨1, _⟩ => rfl)
  rw [val_main_v27_apply, e27, val_main_v26_apply, val_main_v23_apply, val_main_v25_apply, val_main_v21_apply, e21,
    val_main_v20_apply, e20, val_main_v22_apply, val_main_c_3_apply, val_main_v24_apply, val_main_c_4_apply]
  exact wrap_of_nonneg _ h

/-- The second gather's start index of pair `p` is the pair's second index itself, once that index is not negative. -/
theorem start1_apply (x2 : (⟨S4096x2, .i32⟩ : BufTy).Contents (Elt Ideal)) (p : Fin 4096)
    (h : 0 ≤ (x2 (ix2 p 1)).toInt) :
    val_main_v36 (F := Ideal) x2 (ix2 p (0 : Fin 1)) = x2 (ix2 p 1) := by
  have e36 : idx_main_v36 (ix2 p (0 : Fin 1)) = ix1 p := funext fun a => Fin.ext (by match a with | ⟨0, _⟩ => rfl)
  have e30 : idx_main_v30 (ix1 p) = ix2 p (0 : Fin 1) := funext fun a => Fin.ext (by
    match a with
    | ⟨0, _⟩ => exact Nat.div_one _
    | ⟨1, _⟩ => rfl)
  have e29 : idx_main_v29 (ix2 p (0 : Fin 1)) = ix2 p (1 : Fin 2) := funext fun a => Fin.ext (by
    match a with
    | ⟨0, _⟩ => rfl
    | ⟨1, _⟩ => rfl)
  rw [val_main_v36_apply, e36, val_main_v35_apply, val_main_v32_apply, val_main_v34_apply, val_main_v30_apply, e30,
    val_main_v29_apply, e29, val_main_v31_apply, val_main_c_5_apply, val_main_v33_apply, val_main_c_6_apply]
  exact wrap_of_nonneg _ h

/-! ## The joined row: its first 1024 features are the first gathered row, its last 1024 the second -/

/-- Feature `k < 1024` of pair `p`'s joined row is feature `k` of the span mean's row at the pair's first index. -/
theorem pairs_lo (x0 : (⟨S8x4096x1024, .f32⟩ : BufTy).Contents (Elt Ideal)) (x1 : (⟨S8x4096, .i32⟩ : BufTy).Contents (Elt Ideal))
    (x2 : (⟨S4096x2, .i32⟩ : BufTy).Contents (Elt Ideal)) (i0 : Fin 4096 → Fin 512)
    (h0 : ∀ p : Fin 4096, 0 ≤ (x2 (ix2 p 0)).toInt ∧ (x2 (ix2 p 0)).toInt < 512)
    (hi0 : ∀ p : Fin 4096, (x2 (ix2 p 0)).toNat = (i0 p).val) (p : Fin 4096) (k : Fin 1024) :
    val_main_v38 (F := Ideal) x0 x1 x2 (ix2 p (Cert.Spec.loRow k)) = val_main_v19 (F := Ideal) x0 x1 (ix2 (i0 p) k) := by
  unfold val_main_v38
  refine (concatenate_pair_apply_left (t := S4096x2048) (s₁ := S4096x1024) (s₂ := S4096x1024) (1 : Fin 2)
    (val_main_v28 (F := Ideal) x0 x1 x2) (val_main_v37 (F := Ideal) x0 x1 x2)
    concatenates_S4096x1024_S4096x1024_S4096x2048_d1
    (ix2 p (Cert.Spec.loRow k)) rfl (ix2 p k) (fun b => by match b with | ⟨0, _⟩ => rfl | ⟨1, _⟩ => rfl)).trans ?_
  unfold val_main_v28
  rw [gather_row_apply]
  congr 1
  funext a
  refine Fin.ext ?_
  match a with
  | ⟨0, _⟩ =>
    show min (val_main_v27 (F := Ideal) x2 (ix2 p (0 : Fin 1))).toInt.toNat 511 = (i0 p).val
    rw [start0_apply x2 p (h0 p).1, clamp_of_range _ (h0 p).1 (h0 p).2, hi0 p]
  | ⟨1, _⟩ => rfl

/-- Feature `1024 + k` of pair `p`'s joined row is feature `k` of the span mean's row at the pair's second index. -/
theorem pairs_hi (x0 : (⟨S8x4096x1024, .f32⟩ : BufTy).Contents (Elt Ideal)) (x1 : (⟨S8x4096, .i32⟩ : BufTy).Contents (Elt Ideal))
    (x2 : (⟨S4096x2, .i32⟩ : BufTy).Contents (Elt Ideal)) (i1 : Fin 4096 → Fin 512)
    (h1 : ∀ p : Fin 4096, 0 ≤ (x2 (ix2 p 1)).toInt ∧ (x2 (ix2 p 1)).toInt < 512)
    (hi1 : ∀ p : Fin 4096, (x2 (ix2 p 1)).toNat = (i1 p).val) (p : Fin 4096) (k : Fin 1024) :
    val_main_v38 (F := Ideal) x0 x1 x2 (ix2 p (Cert.Spec.hiRow k)) = val_main_v19 (F := Ideal) x0 x1 (ix2 (i1 p) k) := by
  unfold val_main_v38
  refine (concatenate_pair_apply_right (t := S4096x2048) (s₁ := S4096x1024) (s₂ := S4096x1024) (1 : Fin 2)
    (val_main_v28 (F := Ideal) x0 x1 x2) (val_main_v37 (F := Ideal) x0 x1 x2)
    concatenates_S4096x1024_S4096x1024_S4096x2048_d1
    (ix2 p (Cert.Spec.hiRow k)) rfl rfl (ix2 p k)
    (fun b hb => by
      match b with
      | ⟨0, _⟩ => rfl
      | ⟨1, _⟩ => exact absurd rfl hb)
    (by show k.val + 1024 = 1024 + k.val; omega)).trans ?_
  unfold val_main_v37
  rw [gather_row_apply]
  congr 1
  funext a
  refine Fin.ext ?_
  match a with
  | ⟨0, _⟩ =>
    show min (val_main_v36 (F := Ideal) x2 (ix2 p (0 : Fin 1))).toInt.toNat 511 = (i1 p).val
    rw [start1_apply x2 p (h1 p).1, clamp_of_range _ (h1 p).1 (h1 p).2, hi1 p]
  | ⟨1, _⟩ => rfl

/-! ## The sum over the 2048 joined features splits at 1024 -/

/-- A sum over `Fin 2048` is the sum over the lower 1024 positions plus the sum over the upper 1024. -/
theorem sum_split (f : Fin 2048 → EReal) :
    ∑ k : Fin 2048, f k = (∑ k : Fin 1024, f (Cert.Spec.loRow k)) + ∑ k : Fin 1024, f (Cert.Spec.hiRow k) :=
  Fin.sum_univ_add (fun i : Fin (1024 + 1024) => f i)

/-! ## The hidden activation and the logit -/

/-- The reference's hidden activation (product with the first layer's weights, bias, maximum with zero) at pair `p`
    and feature `j` is the specification's. -/
theorem hidden_apply (x0 : (⟨S8x4096x1024, .f32⟩ : BufTy).Contents (Elt Ideal)) (x1 : (⟨S8x4096, .i32⟩ : BufTy).Contents (Elt Ideal))
    (x2 : (⟨S4096x2, .i32⟩ : BufTy).Contents (Elt Ideal)) (x3 : (⟨S2048x1024, .f32⟩ : BufTy).Contents (Elt Ideal))
    (x4 : (⟨S1024, .f32⟩ : BufTy).Contents (Elt Ideal))
    (i0 i1 : Fin 4096 → Fin 512)
    (h0 : ∀ p : Fin 4096, 0 ≤ (x2 (ix2 p 0)).toInt ∧ (x2 (ix2 p 0)).toInt < 512) (hi0 : ∀ p : Fin 4096, (x2 (ix2 p 0)).toNat = (i0 p).val)
    (h1 : ∀ p : Fin 4096, 0 ≤ (x2 (ix2 p 1)).toInt ∧ (x2 (ix2 p 1)).toInt < 512) (hi1 : ∀ p : Fin 4096, (x2 (ix2 p 1)).toNat = (i1 p).val)
    (p : Fin 4096) (j : Fin 1024) :
    val_main_v43 (F := Ideal) x0 x1 x2 x3 x4 (ix2 p j)
      = Cert.Spec.hidden (fun g h => val_main_v19 (F := Ideal) x0 x1 (ix2 g h)) i0 i1
          (fun k j => x3 (ix2 k j)) (fun j => x4 (ix1 j)) p j := by
  have el : ∀ k : Fin 2048, lidx_main_v39 (ix2 p j) k = ix2 p k := fun k => funext fun a => Fin.ext (by
    match a with
    | ⟨0, _⟩ => rfl
    | ⟨1, _⟩ => rfl)
  have er : ∀ k : Fin 2048, ridx_main_v39 (ix2 p j) k = ix2 k j := fun k => funext fun a => Fin.ext (by
    match a with
    | ⟨0, _⟩ => rfl
    | ⟨1, _⟩ => rfl)
  have e41 : idx_main_v40 (idx_main_v41 (ix2 p j)) = ix1 j := funext fun a => Fin.ext (by match a with | ⟨0, _⟩ => rfl)
  rw [val_main_v43_apply, val_main_v42_apply, val_main_v39_apply, val_main_v41_apply, val_main_v40_apply, e41,
    val_main_call0_v0_apply, val_main_call0_cst_apply]
  simp only [el, er, Ideal.maximumf_def, Ideal.addf_def, Ideal.ofBits_def, Ideal.ofBits_zero_f32]
  rw [sum_split]
  simp only [pairs_lo x0 x1 x2 i0 h0 hi0, pairs_hi x0 x1 x2 i1 h1 hi1]
  rfl

/-- THE REFERENCE'S RESULT at pair `p` is the relation logit of the span means' rows at the pair's two indices. -/
theorem ref_tail (x0 : (⟨S8x4096x1024, .f32⟩ : BufTy).Contents (Elt Ideal)) (x1 : (⟨S8x4096, .i32⟩ : BufTy).Contents (Elt Ideal))
    (x2 : (⟨S4096x2, .i32⟩ : BufTy).Contents (Elt Ideal)) (x3 : (⟨S2048x1024, .f32⟩ : BufTy).Contents (Elt Ideal))
    (x4 : (⟨S1024, .f32⟩ : BufTy).Contents (Elt Ideal)) (x5 : (⟨S1024x1, .f32⟩ : BufTy).Contents (Elt Ideal)) (x6 : (⟨S1, .f32⟩ : BufTy).Contents (Elt Ideal))
    (i0 i1 : Fin 4096 → Fin 512)
    (h0 : ∀ p : Fin 4096, 0 ≤ (x2 (ix2 p 0)).toInt ∧ (x2 (ix2 p 0)).toInt < 512) (hi0 : ∀ p : Fin 4096, (x2 (ix2 p 0)).toNat = (i0 p).val)
    (h1 : ∀ p : Fin 4096, 0 ≤ (x2 (ix2 p 1)).toInt ∧ (x2 (ix2 p 1)).toInt < 512) (hi1 : ∀ p : Fin 4096, (x2 (ix2 p 1)).toNat = (i1 p).val)
    (p : Fin 4096) :
    val_main_v47 (F := Ideal) x0 x1 x2 x3 x4 x5 x6 (ix2 p 0)
      = Cert.Spec.logits (Cert.Spec.hidden (fun g h => val_main_v19 (F := Ideal) x0 x1 (ix2 g h)) i0 i1
          (fun k j => x3 (ix2 k j)) (fun j => x4 (ix1 j))) (fun j => x5 (ix2 j 0)) (x6 (ix1 0)) p := by
  have el : ∀ k : Fin 1024, lidx_main_v44 (ix2 p (0 : Fin 1)) k = ix2 p k := fun k => funext fun a => Fin.ext (by
    match a with
    | ⟨0, _⟩ => rfl
    | ⟨1, _⟩ => rfl)
  have er : ∀ k : Fin 1024, ridx_main_v44 (ix2 p (0 : Fin 1)) k = ix2 k (0 : Fin 1) := fun k => funext fun a => Fin.ext (by
    match a with
    | ⟨0, _⟩ => rfl
    | ⟨1, _⟩ => rfl)
  have e46 : idx_main_v45 (idx_main_v46 (ix2 p (0 : Fin 1))) = ix1 (0 : Fin 1) :=
    funext fun a => Fin.ext (by match a with | ⟨0, _⟩ => rfl)
  rw [val_main_v47_apply, val_main_v44_apply, val_main_v46_apply, val_main_v45_apply, e46]
  simp only [el, er, Ideal.addf_def, hidden_apply x0 x1 x2 x3 x4 i0 i1 h0 hi0 h1 hi1]
  rfl

end Cert.ReferenceIdeal.RefValue

end
-- ==== Proof.PreRanges.lean ====
/-
  The precondition `finite_inputs`, read back at its four integer conjuncts. The printed predicate is a
  left-nested conjunction (`and` on one-bit words) of nine `all`s; each `all` is a reduction by `and` over every
  axis of a one-bit array, here a signed comparison of an integer table against a broadcast constant. When the
  whole conjunction is 1, every conjunct is 1; when an `all` is 1, each element of its array is 1; and a signed
  comparison that is 1 is the inequality between the signed values of the two words. So every entry of the
  [8, 4096] table lies in [0, 64) and every entry of the [4096, 2] table lies in [0, 512), as integers.
-/
import proofs.«421061_j44530220925378_3_alg».proof.Pre_finite_inputs
import proofs.«421061_j44530220925378_3_alg».proof.Proof.Gen.Pre_finite_inputs
import Idealize.ShloMosaic.Lib.ValueIdx
import Idealize.ShloMosaic.Lib.ReduceAll
import Idealize.ShloMosaic.Lib.StableHlo.Predicate
noncomputable section
namespace Cert.Proof.PreRanges
open Idealize.ShloMosaic Idealize.ShloMosaic.ValueIdx

/-- The rank-0 shape has one index. -/
instance subsingleton_S_Idx : Subsingleton Cert.Pre_finite_inputs.S_.Idx := ⟨fun a b => funext fun d => d.elim0⟩

/-- An `all` over every axis that is 1 gives a 1 at each element. -/
theorem elem_of_all {s : Shape} {axes : List (Fin s.rank)} (p : s.Idx → BitVec 1)
    (init : Cert.Pre_finite_inputs.S_.Idx → BitVec 1) (hr : s.ReducesTo axes Cert.Pre_finite_inputs.S_)
    (hu : 0 < Cert.Pre_finite_inputs.S_.numel)
    (e : Host.reduce IntOp.andi p init hr hu ix0 = 1#1) (i : s.Idx) : p i = 1#1 :=
  Host.reduce_andi_all p init hr hu ix0 e i

theorem ranges_of_pre {F : FTy → Type} [FloatOps F] [Cert.Pre_finite_inputs.Facts]
    (a0 : FVec F Cert.Pre_finite_inputs.S8x4096x1024 .f32) (a1 : IVec Cert.Pre_finite_inputs.S8x4096 32) (a2 : IVec Cert.Pre_finite_inputs.S4096x2 32)
    (a3 : FVec F Cert.Pre_finite_inputs.S2048x1024 .f32) (a4 : FVec F Cert.Pre_finite_inputs.S1024 .f32) (a5 : FVec F Cert.Pre_finite_inputs.S1024x1 .f32) (a6 : FVec F Cert.Pre_finite_inputs.S1 .f32)
    (h : Cert.Pre_finite_inputs.fn (F := F) a0 a1 a2 a3 a4 a5 a6 = fun _ => 1#1) :
    (∀ (b : Fin 8) (t : Fin 4096), 0 ≤ (a1 (ix2 b t)).toInt ∧ (a1 (ix2 b t)).toInt < 64)
    ∧ (∀ (p : Fin 4096) (k : Fin 2), 0 ≤ (a2 (ix2 p k)).toInt ∧ (a2 (ix2 p k)).toInt < 512) := by
  have h0 := congrFun h ValueIdx.ix0
  dsimp only [Cert.Pre_finite_inputs.fn, Cert.Pre_finite_inputs.fn_part1, Cert.Pre_finite_inputs.fn_part2] at h0
  -- a conjunction of one-bit arrays that is 1 at the one index has both conjuncts 1 there
  have split : ∀ (x y : IVec Cert.Pre_finite_inputs.S_ 1), andi x y ix0 = 1#1 → x ix0 = 1#1 ∧ y ix0 = 1#1 :=
    fun x y e => IntOp.andi_eq_one.1 e
  -- the four integer conjuncts are the last four of the left-nested conjunction
  obtain ⟨h1, hD⟩ := split _ _ h0
  obtain ⟨h2, hC⟩ := split _ _ h1
  obtain ⟨h3, hB⟩ := split _ _ h2
  obtain ⟨-, hA⟩ := split _ _ h3
  -- the signed values of the three constants
  have z0 : (0#32 : BitVec 32).toInt = 0 := by decide
  have z64 : (64#32 : BitVec 32).toInt = 64 := by decide
  have z512 : (512#32 : BitVec 32).toInt = 512 := by decide
  refine ⟨fun b t => ⟨?_, ?_⟩, fun p k => ⟨?_, ?_⟩⟩
  · -- 0 ≤ a1[b, t]: the comparison "a1 ≥ 0" is 1 at (b, t)
    have e : (0#32 : BitVec 32).toInt ≤ (a1 (ix2 b t)).toInt :=
      IntOp.cmpi_sge.1 (elem_of_all _ _ _ _ hA (ix2 b t))
    rwa [z0] at e
  · -- a1[b, t] < 64: the comparison "a1 < 64" is 1 at (b, t)
    have e : (a1 (ix2 b t)).toInt < (64#32 : BitVec 32).toInt :=
      IntOp.cmpi_slt.1 (elem_of_all _ _ _ _ hB (ix2 b t))
    rwa [z64] at e
  · -- 0 ≤ a2[p, k]
    have e : (0#32 : BitVec 32).toInt ≤ (a2 (ix2 p k)).toInt :=
      IntOp.cmpi_sge.1 (elem_of_all _ _ _ _ hC (ix2 p k))
    rwa [z0] at e
  · -- a2[p, k] < 512
    have e : (a2 (ix2 p k)).toInt < (512#32 : BitVec 32).toInt :=
      IntOp.cmpi_slt.1 (elem_of_all _ _ _ _ hD (ix2 p k))
    rwa [z512] at e

end Cert.Proof.PreRanges

end
-- ==== Proof.lean ====
/-
  The certificate of the span-pooling relation kernel against its reference, over the extended reals, for segment
  ids in [0, 64) and pair indices in [0, 512).

  Both programs compute, for each pair `p` of global segments, the logit
  `Σ_j max(Σ_k mean(i0 p, k)·W1[k, j] + Σ_k mean(i1 p, k)·W1[1024 + k, j] + b1 j, 0) · W2 j + b2` of the segment
  means `mean(g, ·) = (Σ of the tokens of segment g) / max(size of g, 1)` (`Cert.Spec`).
  The kernel program takes the means by one-hot products accumulated over two tiles of each example, multiplies them
  once by each half of the first layer's weights, and selects a pair's two rows by one-hot products again; a one-hot
  product is a sum with one non-zero term, so no distributive law is used and the two sides agree term by term as sums
  in the commutative monoid of the extended reals. The reference takes the means by two scatter-adds over globalised
  ids, gathers the pair's rows, joins them along the feature axis and multiplies by the whole weight matrix: the sum over
  the joined axis splits into its two halves. Out of range the two differ (the kernel clips an id into its own
  example's segments, the reference lets it fall into a neighbour's; a negative pair index wraps in the reference and
  clips to zero in the kernel), which is why the ranges are assumed.

  The three frames hold for every input: the kernel programs' by running the two kernels as regions between the
  host stretches (the first kernel's accumulators carried between its grid points), the reference's by its run.
-/
import proofs.«421061_j44530220925378_3_alg».proof.Defs
import proofs.«421061_j44530220925378_3_alg».proof.Proof.Gen.Kernel
import proofs.«421061_j44530220925378_3_alg».proof.Proof.Gen.KernelIdeal
import proofs.«421061_j44530220925378_3_alg».proof.Proof.Gen.ReferenceIdeal
import proofs.«421061_j44530220925378_3_alg».proof.Proof.Gen.Pre_finite_inputs
import proofs.«421061_j44530220925378_3_alg».proof.Proof.Gen.ReferenceIdeal.Run
import proofs.«421061_j44530220925378_3_alg».proof.Proof.Gen.ReferenceIdeal.Read
import proofs.«421061_j44530220925378_3_alg».proof.Proof.KB.Run
import proofs.«421061_j44530220925378_3_alg».proof.Proof.KI.KValue
import proofs.«421061_j44530220925378_3_alg».proof.Proof.RefSpan
import proofs.«421061_j44530220925378_3_alg».proof.Proof.RefTail
import proofs.«421061_j44530220925378_3_alg».proof.Proof.PreRanges
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments as launched. -/
theorem frame_k : Cert.frame_Kernel := fun m ρ _ => Cert.Kernel.Hand.frame m ρ
/-- So does the program read over the extended reals. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result array, on the kernel program's launch arguments in range, is the kernel program's. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hseg : ∀ (b : Fin 8) (t : Fin 4096), 0 ≤ (Cert.KernelIdeal.Hand.seg0 m c (ix2 b t)).toInt ∧ (Cert.KernelIdeal.Hand.seg0 m c (ix2 b t)).toInt < 64)
    (hpair : ∀ (p : Fin 4096) (k : Fin 2), 0 ≤ (Cert.KernelIdeal.Hand.pair0 m c (ix2 p k)).toInt ∧ (Cert.KernelIdeal.Hand.pair0 m c (ix2 p k)).toInt < 512)
    (p : Fin 4096) :
    Cert.ReferenceIdeal.Read.val_main_v47 (F := Ideal) (Cert.KernelIdeal.Hand.tok0 m c) (Cert.KernelIdeal.Hand.seg0 m c)
        (Cert.KernelIdeal.Hand.pair0 m c) (Cert.KernelIdeal.Hand.w1Arr m c) (Cert.KernelIdeal.Hand.bias1 m c)
        (Cert.KernelIdeal.Hand.w2Arr m c) (Cert.KernelIdeal.Hand.bias2 m c) (ix2 p 0)
      = ((Cert.KernelIdeal.Hand.dat1 (Cert.KernelIdeal.Hand.V3 m ρ) c).arrAt 6 Cert.KernelIdeal.cfg1.N : Cert.KernelIdeal.S4096x1.Idx → EReal) (ix2 p 0) := by
  have hlt : ∀ (p : Fin 4096) (k : Fin 2), (Cert.KernelIdeal.Hand.pair0 m c (ix2 p k)).toNat < 512 := fun p k => by
    have h := hpair p k
    generalize Cert.KernelIdeal.Hand.pair0 m c (ix2 p k) = v at h ⊢
    have hl := v.isLt
    unfold BitVec.toInt at h
    split at h <;> omega
  have e1 := Cert.ReferenceIdeal.RefValue.ref_tail (Cert.KernelIdeal.Hand.tok0 m c) (Cert.KernelIdeal.Hand.seg0 m c)
    (Cert.KernelIdeal.Hand.pair0 m c) (Cert.KernelIdeal.Hand.w1Arr m c) (Cert.KernelIdeal.Hand.bias1 m c)
    (Cert.KernelIdeal.Hand.w2Arr m c) (Cert.KernelIdeal.Hand.bias2 m c)
    (fun p => (⟨(Cert.KernelIdeal.Hand.pair0 m c (ix2 p 0)).toNat, hlt p 0⟩ : Fin 512))
    (fun p => (⟨(Cert.KernelIdeal.Hand.pair0 m c (ix2 p 1)).toNat, hlt p 1⟩ : Fin 512))
    (fun p => hpair p 0) (fun _ => rfl) (fun p => hpair p 1) (fun _ => rfl) p
  have e2 := Cert.KernelIdeal.Hand.kernel_value m ρ c hseg
    (fun p => (⟨(Cert.KernelIdeal.Hand.pair0 m c (ix2 p 0)).toNat, hlt p 0⟩ : Fin 512))
    (fun p => (⟨(Cert.KernelIdeal.Hand.pair0 m c (ix2 p 1)).toNat, hlt p 1⟩ : Fin 512))
    (fun p => hpair p 0) (fun _ => rfl) (fun p => hpair p 1) (fun _ => rfl) p
  have e3 : (fun (g : Fin 512) (h : Fin 1024) => Cert.ReferenceIdeal.Read.val_main_v19 (F := Ideal) (Cert.KernelIdeal.Hand.tok0 m c) (Cert.KernelIdeal.Hand.seg0 m c) (ix2 g h))
      = Cert.Spec.spanMean (fun b t => (Cert.KernelIdeal.Hand.seg0 m c (ix2 b t)).toNat) (fun b t h => Cert.KernelIdeal.Hand.tok0 m c (ix3 b t h)) := by
    funext g h
    exact Cert.ReferenceIdeal.RefValue.ref_spanMean (Cert.KernelIdeal.Hand.tok0 m c) (Cert.KernelIdeal.Hand.seg0 m c) hseg g h
  rw [e3] at e1
  exact e1.trans e2.symm

set_option maxRecDepth 65536 in
/-- From agreeing arguments in range, both programs end with the relation logits of the span means. -/
theorem algebraic : Cert.algebraic_KernelIdeal_ReferenceIdeal := by
  intro m ρ m' ρ' hpre hagree
  refine ⟨fun c => (Cert.KernelIdeal.Hand.dat1 (Cert.KernelIdeal.Hand.V3 m ρ) c).arrAt 6 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨hseg, hpair⟩ := Cert.Proof.PreRanges.ranges_of_pre (F := Ideal) _ _ _ _ _ _ _ (hpre c)
  rw [Cert.ReferenceIdeal.Read.val_main_v47_eq, (hagree c).1, (hagree c).2.1, (hagree c).2.2.1, (hagree c).2.2.2.1,
    (hagree c).2.2.2.2.1, (hagree c).2.2.2.2.2.1, (hagree c).2.2.2.2.2.2]
  funext i
  obtain ⟨p, q, rfl⟩ : ∃ (p : Fin 4096) (q : Fin 1), i = ix2 p q := ⟨i 0, i 1, eq_ix2 i⟩
  obtain rfl : q = 0 := Subsingleton.elim _ _
  exact result_eq m ρ c hseg hpair p

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
